-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v125) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x8 : Shape := ⟨2, ![200000, 8]⟩
abbrev S2x3200000 : Shape := ⟨2, ![2, 3200000]⟩
abbrev S200000 : Shape := ⟨1, ![200000]⟩
abbrev S8x32 : Shape := ⟨2, ![8, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S_ : Shape := ⟨0, ![]⟩
abbrev S1x3200000 : Shape := ⟨2, ![1, 3200000]⟩
abbrev S3200000 : Shape := ⟨1, ![3200000]⟩

class Facts : Prop where
  bcast_S_S200000x8 : S_.BroadcastsInDim S200000x8 (![] : Fin 0 → Fin S200000x8.rank)
  reducesTo_S200000x8_S_d0_1 : S200000x8.ReducesTo [0, 1] S_
  h_S_ : 0 < S_.numel
  bcast_S_S8x32 : S_.BroadcastsInDim S8x32 (![] : Fin 0 → Fin S8x32.rank)
  reducesTo_S8x32_S_d0_1 : S8x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_
  slices_S2x3200000_S1x3200000_0_0 : S2x3200000.Slices ![0, 0] S1x3200000
  shapeCasts_S1x3200000_S3200000 : S1x3200000.ShapeCasts S3200000
  bcast_S_S3200000 : S_.BroadcastsInDim S3200000 (![] : Fin 0 → Fin S3200000.rank)
  reducesTo_S3200000_S_d0 : S3200000.ReducesTo [0] S_

variable [Facts]

def fn_part4 {F : FTy → Type} [FloatOps F] (main_v58 : IVec S_ 1) (main_v68 : IVec S_ 1) : IVec S_ 1 :=
  let main_v69 : IVec S_ 1 := andi main_v58 main_v68
  main_v69

def fn_part3 {F : FTy → Type} [FloatOps F] (main_arg1 : IVec S2x3200000 32) (main_arg13 : FVec F S1 .f32) (main_v48 : IVec S_ 1) (main_v49 : FVec F S32x1 .f32) (main_v50 : FVec F S32x1 .f32) : IVec S_ 1 :=
  let main_v51 : IVec S32x1 1 := cmpf .olt main_v49 main_v50
  let main_c_19 : IVec S_ 1 := constantI S_ 1 1#1
  let main_v52 : IVec S_ 1 := (fun x v => Host.reduce IntOp.andi x v reducesTo_S32x1_S_d0_1 h_S_) main_v51 main_c_19
  let main_v53 : IVec S_ 1 := andi main_v48 main_v52
  let main_v54 : FVec F S1 .f32 := Host.absf main_arg13
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  let main_v59 : IVec S1x3200000 32 := (extractStridedSlice S1x3200000 ![0, 0] · slices_S2x3200000_S1x3200000_0_0) main_arg1
  let main_v60 : IVec S3200000 32 := shapeCast S3200000 main_v59 shapeCasts_S1x3200000_S3200000
  let main_c_22 : IVec S_ 32 := constantI S_ 32 0#32
  let main_v61 : IVec S3200000 32 := broadcastInDim S3200000 ![] bcast_S_S3200000 main_c_22
  let main_v62 : IVec S3200000 1 := cmpi .sge main_v60 main_v61
  let main_v63 : IVec S1x3200000 32 := (extractStridedSlice S1x3200000 ![0, 0] · slices_S2x3200000_S1x3200000_0_0) main_arg1
  let main_v64 : IVec S3200000 32 := shapeCast S3200000 main_v63 shapeCasts_S1x3200000_S3200000
  let main_c_23 : IVec S_ 32 := constantI S_ 32 200000#32
  let main_v65 : IVec S3200000 32 := broadcastInDim S3200000 ![] bcast_S_S3200000 main_c_23
  let main_v66 : IVec S3200000 1 := cmpi .slt main_v64 main_v65
  let main_v67 : IVec S3200000 1 := andi main_v62 main_v66
  let main_c_24 : IVec S_ 1 := constantI S_ 1 1#1
  let main_v68 : IVec S_ 1 := (fun x v => Host.reduce IntOp.andi x v reducesTo_S3200000_S_d0 h_S_) main_v67 main_c_24
  fn_part4 (F := F) main_v58 main_v68

def fn_part2 {F : FTy → Type} [FloatOps F] (main_arg1 : IVec S2x3200000 32) (main_arg9 : FVec F S32x32 .f32) (main_arg10 : FVec F S32x32 .f32) (main_arg11 : FVec F S32 .f32) (main_arg12 : FVec F S32x1 .f32) (main_arg13 : FVec F S1 .f32) (main_v33 : IVec S_ 1) : IVec S_ 1 :=
  let main_v34 : FVec F S32x32 .f32 := Host.absf main_arg9
  let main_cst_12 : FVec F S_ .f32 := constant S_ .f32 0x7F800000#32
  let main_v35 : FVec F S32x32 .f32 := broadcastInDim S32x32 ![] bcast_S_S32x32 main_cst_12
  let main_v36 : IVec S32x32 1 := cmpf .olt main_v34 main_v35
  let main_c_13 : IVec S_ 1 := constantI S_ 1 1#1
  let main_v37 : IVec S_ 1 := (fun x v => Host.reduce IntOp.andi x v reducesTo_S32x32_S_d0_1 h_S_) main_v36 main_c_13
  let main_v38 : IVec S_ 1 := andi main_v33 main_v37
  let main_v39 : FVec F S32x32 .f32 := Host.absf main_arg10
  let main_cst_14 : FVec F S_ .f32 := constant S_ .f32 0x7F800000#32
  let main_v40 : FVec F S32x32 .f32 := broadcastInDim S32x32 ![] bcast_S_S32x32 main_cst_14
  let main_v41 : IVec S32x32 1 := cmpf .olt main_v39 main_v40
  let main_c_15 : IVec S_ 1 := constantI S_ 1 1#1
  let main_v42 : IVec S_ 1 := (fun x v => Host.reduce IntOp.andi x v reducesTo_S32x32_S_d0_1 h_S_) main_v41 main_c_15
  let main_v43 : IVec S_ 1 := andi main_v38 main_v42
  let main_v44 : FVec F S32 .f32 := Host.absf main_arg11
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S32x1 .f32 := Host.absf main_arg12
  let main_cst_18 : FVec F S_ .f32 := constant S_ .f32 0x7F800000#32
  let main_v50 : FVec F S32x1 .f32 := broadcastInDim S32x1 ![] bcast_S_S32x1 main_cst_18
  fn_part3 (F := F) main_arg1 main_arg13 main_v48 main_v49 main_v50

def fn_part1 {F : FTy → Type} [FloatOps F] (main_arg1 : IVec S2x3200000 32) (main_arg6 : FVec F S32x32 .f32) (main_arg7 : FVec F S32x32 .f32) (main_arg8 : FVec F S32 .f32) (main_arg9 : FVec F S32x32 .f32) (main_arg10 : FVec F S32x32 .f32) (main_arg11 : FVec F S32 .f32) (main_arg12 : FVec F S32x1 .f32) (main_arg13 : FVec F S1 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x32 .f32 := Host.absf main_arg6
  let main_cst_6 : FVec F S_ .f32 := constant S_ .f32 0x7F800000#32
  let main_v20 : FVec F S32x32 .f32 := broadcastInDim S32x32 ![] bcast_S_S32x32 main_cst_6
  let main_v21 : IVec S32x32 1 := cmpf .olt main_v19 main_v20
  let main_c_7 : IVec S_ 1 := constantI S_ 1 1#1
  let main_v22 : IVec S_ 1 := (fun x v => Host.reduce IntOp.andi x v reducesTo_S32x32_S_d0_1 h_S_) main_v21 main_c_7
  let main_v23 : IVec S_ 1 := andi main_v18 main_v22
  let main_v24 : FVec F S32x32 .f32 := Host.absf main_arg7
  let main_cst_8 : FVec F S_ .f32 := constant S_ .f32 0x7F800000#32
  let main_v25 : FVec F S32x32 .f32 := broadcastInDim S32x32 ![] bcast_S_S32x32 main_cst_8
  let main_v26 : IVec S32x32 1 := cmpf .olt main_v24 main_v25
  let main_c_9 : IVec S_ 1 := constantI S_ 1 1#1
  let main_v27 : IVec S_ 1 := (fun x v => Host.reduce IntOp.andi x v reducesTo_S32x32_S_d0_1 h_S_) main_v26 main_c_9
  let main_v28 : IVec S_ 1 := andi main_v23 main_v27
  let main_v29 : FVec F S32 .f32 := Host.absf main_arg8
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg1 main_arg9 main_arg10 main_arg11 main_arg12 main_arg13 main_v33

def fn {F : FTy → Type} [FloatOps F] (main_arg0 : FVec F S200000x8 .f32) (main_arg1 : IVec S2x3200000 32) (main_arg2 : IVec S200000 32) (main_arg3 : FVec F S8x32 .f32) (main_arg4 : FVec F S8x32 .f32) (main_arg5 : FVec F S32 .f32) (main_arg6 : FVec F S32x32 .f32) (main_arg7 : FVec F S32x32 .f32) (main_arg8 : FVec F S32 .f32) (main_arg9 : FVec F S32x32 .f32) (main_arg10 : FVec F S32x32 .f32) (main_arg11 : FVec F S32 .f32) (main_arg12 : FVec F S32x1 .f32) (main_arg13 : FVec F S1 .f32) : IVec S_ 1 :=
  let main_v0 : FVec F S200000x8 .f32 := Host.absf main_arg0
  let main_cst : FVec F S_ .f32 := constant S_ .f32 0x7F800000#32
  let main_v1 : FVec F S200000x8 .f32 := broadcastInDim S200000x8 ![] bcast_S_S200000x8 main_cst
  let main_v2 : IVec S200000x8 1 := cmpf .olt main_v0 main_v1
  let main_c : IVec S_ 1 := constantI S_ 1 1#1
  let main_v3 : IVec S_ 1 := (fun x v => Host.reduce IntOp.andi x v reducesTo_S200000x8_S_d0_1 h_S_) main_v2 main_c
  let main_v4 : FVec F S8x32 .f32 := Host.absf main_arg3
  let main_cst_0 : FVec F S_ .f32 := constant S_ .f32 0x7F800000#32
  let main_v5 : FVec F S8x32 .f32 := broadcastInDim S8x32 ![] bcast_S_S8x32 main_cst_0
  let main_v6 : IVec S8x32 1 := cmpf .olt main_v4 main_v5
  let main_c_1 : IVec S_ 1 := constantI S_ 1 1#1
  let main_v7 : IVec S_ 1 := (fun x v => Host.reduce IntOp.andi x v reducesTo_S8x32_S_d0_1 h_S_) main_v6 main_c_1
  let main_v8 : IVec S_ 1 := andi main_v3 main_v7
  let main_v9 : FVec F S8x32 .f32 := Host.absf main_arg4
  let main_cst_2 : FVec F S_ .f32 := constant S_ .f32 0x7F800000#32
  let main_v10 : FVec F S8x32 .f32 := broadcastInDim S8x32 ![] bcast_S_S8x32 main_cst_2
  let main_v11 : IVec S8x32 1 := cmpf .olt main_v9 main_v10
  let main_c_3 : IVec S_ 1 := constantI S_ 1 1#1
  let main_v12 : IVec S_ 1 := (fun x v => Host.reduce IntOp.andi x v reducesTo_S8x32_S_d0_1 h_S_) main_v11 main_c_3
  let main_v13 : IVec S_ 1 := andi main_v8 main_v12
  let main_v14 : FVec F S32 .f32 := Host.absf main_arg5
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg1 main_arg6 main_arg7 main_arg8 main_arg9 main_arg10 main_arg11 main_arg12 main_arg13 main_v13 main_v16
-- ==== Kernel.lean ====
abbrev S200000x8 : Shape := ⟨2, ![200000, 8]⟩
abbrev S2x3200000 : Shape := ⟨2, ![2, 3200000]⟩
abbrev S200000 : Shape := ⟨1, ![200000]⟩
abbrev S8x32 : Shape := ⟨2, ![8, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S1x32 : Shape := ⟨2, ![1, 32]⟩
abbrev S200000x32 : Shape := ⟨2, ![200000, 32]⟩
abbrev S20000x8 : Shape := ⟨2, ![20000, 8]⟩
abbrev S20000x32 : Shape := ⟨2, ![20000, 32]⟩
abbrev S1x1 : Shape := ⟨2, ![1, 1]⟩
abbrev S3200000x32 : Shape := ⟨2, ![3200000, 32]⟩
abbrev S4000x32 : Shape := ⟨2, ![4000, 32]⟩
abbrev S200000x1 : Shape := ⟨2, ![200000, 1]⟩
abbrev S4000 : Shape := ⟨1, ![4000]⟩
abbrev S4000x1 : Shape := ⟨2, ![4000, 1]⟩

abbrev nBuf : Space → Nat
  | .hbm => 169
  | .vmem => 50
  | .smem => 0
  | _ => 0

abbrev hbmTy0_0 (i : Nat) : BufTy := match i % 128 with
  | 0 => ⟨S200000x8, .f32⟩
  | 1 => ⟨S2x3200000, .i32⟩
  | 2 => ⟨S200000, .i32⟩
  | 3 => ⟨S8x32, .f32⟩
  | 4 => ⟨S8x32, .f32⟩
  | 5 => ⟨S32, .f32⟩
  | 6 => ⟨S32x32, .f32⟩
  | 7 => ⟨S32x32, .f32⟩
  | 8 => ⟨S32, .f32⟩
  | 9 => ⟨S32x32, .f32⟩
  | 10 => ⟨S32x32, .f32⟩
  | 11 => ⟨S32, .f32⟩
  | 12 => ⟨S32x1, .f32⟩
  | 13 => ⟨S1, .f32⟩
  | 14 => ⟨S1x3200000, .i32⟩
  | 15 => ⟨S3200000, .i32⟩
  | 16 => ⟨S1x3200000, .i32⟩
  | 17 => ⟨S3200000, .i32⟩
  | 18 => ⟨S_, .f32⟩
  | 19 => ⟨S3200000, .f32⟩
  | 20 => ⟨S_, .f32⟩
  | 21 => ⟨S200000, .f32⟩
  | 22 => ⟨S3200000x1, .i32⟩
  | 23 => ⟨S200000, .f32⟩
  | 24 => ⟨S_, .f32⟩
  | 25 => ⟨S200000, .f32⟩
  | 26 => ⟨S200000, .i1⟩
  | 27 => ⟨S_, .f32⟩
  | 28 => ⟨S200000, .f32⟩
  | 29 => ⟨S200000, .f32⟩
  | 30 => ⟨S200000, .f32⟩
  | 31 => ⟨S_, .f32⟩
  | 32 => ⟨S_, .f32⟩
  | 33 => ⟨S200000, .f32⟩
  | 34 => ⟨S200000, .f32⟩
  | 35 => ⟨S_, .i32⟩
  | 36 => ⟨S3200000, .i32⟩
  | 37 => ⟨S3200000, .i1⟩
  | 38 => ⟨S_, .i32⟩
  | 39 => ⟨S3200000, .i32⟩
  | 40 => ⟨S3200000, .i32⟩
  | 41 => ⟨S3200000, .i32⟩
  | 42 => ⟨S3200000x1, .i32⟩
  | 43 => ⟨S3200000, .f32⟩
  | 44 => ⟨S_, .i32⟩
  | 45 => ⟨S3200000, .i32⟩
  | 46 => ⟨S3200000, .i1⟩
  | 47 => ⟨S_, .i32⟩
  | 48 => ⟨S3200000, .i32⟩
  | 49 => ⟨S3200000, .i32⟩
  | 50 => ⟨S3200000, .i32⟩
  | 51 => ⟨S3200000x1, .i32⟩
  | 52 => ⟨S3200000, .f32⟩
  | 53 => ⟨S3200000, .f32⟩
  | 54 => ⟨S1x32, .f32⟩
  | 55 => ⟨S200000x32, .f32⟩
  | 56 => ⟨S200000x32, .f32⟩
  | 57 => ⟨S_, .i32⟩
  | 58 => ⟨S3200000, .i32⟩
  | 59 => ⟨S3200000, .i1⟩
  | 60 => ⟨S_, .i32⟩
  | 61 => ⟨S3200000, .i32⟩
  | 62 => ⟨S3200000, .i32⟩
  | 63 => ⟨S3200000, .i32⟩
  | 64 => ⟨S3200000x1, .i32⟩
  | 65 => ⟨S1, .i32⟩
  | 66 => ⟨S_, .i32⟩
  | 67 => ⟨S3200000x1, .i32⟩
  | 68 => ⟨S3200000x1, .i1⟩
  | 69 => ⟨S1x1, .i32⟩
  | 70 => ⟨S3200000x1, .i32⟩
  | 71 => ⟨S3200000x1, .i1⟩
  | 72 => ⟨S3200000x1, .i1⟩
  | 73 => ⟨S_, .i1⟩
  | 74 => ⟨S3200000, .i1⟩
  | 75 => ⟨S3200000x32, .f32⟩
  | 76 => ⟨S3200000x32, .i1⟩
  | 77 => ⟨S_, .f32⟩
  | 78 => ⟨S3200000x32, .f32⟩
  | 79 => ⟨S3200000x32, .f32⟩
  | 80 => ⟨S3200000x1, .f32⟩
  | 81 => ⟨S3200000x32, .f32⟩
  | 82 => ⟨S3200000x32, .f32⟩
  | 83 => ⟨S_, .f32⟩
  | 84 => ⟨S200000x32, .f32⟩
  | 85 => ⟨S3200000x1, .i32⟩
  | 86 => ⟨S200000x32, .f32⟩
  | 87 => ⟨S200000x32, .f32⟩
  | 88 => ⟨S1x32, .f32⟩
  | 89 => ⟨S200000x32, .f32⟩
  | 90 => ⟨S200000x32, .f32⟩
  | 91 => ⟨S_, .i32⟩
  | 92 => ⟨S3200000, .i32⟩
  | 93 => ⟨S3200000, .i1⟩
  | 94 => ⟨S_, .i32⟩
  | 95 => ⟨S3200000, .i32⟩
  | 96 => ⟨S3200000, .i32⟩
  | 97 => ⟨S3200000, .i32⟩
  | 98 => ⟨S3200000x1, .i32⟩
  | 99 => ⟨S1, .i32⟩
  | 100 => ⟨S_, .i32⟩
  | 101 => ⟨S3200000x1, .i32⟩
  | 102 => ⟨S3200000x1, .i1⟩
  | 103 => ⟨S1x1, .i32⟩
  | 104 => ⟨S3200000x1, .i32⟩
  | 105 => ⟨S3200000x1, .i1⟩
  | 106 => ⟨S3200000x1, .i1⟩
  | 107 => ⟨S_, .i1⟩
  | 108 => ⟨S3200000, .i1⟩
  | 109 => ⟨S3200000x32, .f32⟩
  | 110 => ⟨S3200000x32, .i1⟩
  | 111 => ⟨S_, .f32⟩
  | 112 => ⟨S3200000x32, .f32⟩
  | 113 => ⟨S3200000x32, .f32⟩
  | 114 => ⟨S3200000x1, .f32⟩
  | 115 => ⟨S3200000x32, .f32⟩
  | 116 => ⟨S3200000x32, .f32⟩
  | 117 => ⟨S_, .f32⟩
  | 118 => ⟨S200000x32, .f32⟩
  | 119 => ⟨S3200000x1, .i32⟩
  | 120 => ⟨S200000x32, .f32⟩
  | 121 => ⟨S200000x32, .f32⟩
  | 122 => ⟨S1x32, .f32⟩
  | 123 => ⟨S200000x32, .f32⟩
  | 124 => ⟨S200000x32, .f32⟩
  | 125 => ⟨S_, .i32⟩
  | 126 => ⟨S3200000, .i32⟩
  | 127 => ⟨S3200000, .i1⟩
  | _ => ⟨S200000x8, .f32⟩

abbrev hbmTy0_1 (i : Nat) : BufTy := match i % 128 with
  | 0 => ⟨S_, .i32⟩
  | 1 => ⟨S3200000, .i32⟩
  | 2 => ⟨S3200000, .i32⟩
  | 3 => ⟨S3200000, .i32⟩
  | 4 => ⟨S3200000x1, .i32⟩
  | 5 => ⟨S1, .i32⟩
  | 6 => ⟨S_, .i32⟩
  | 7 => ⟨S3200000x1, .i32⟩
  | 8 => ⟨S3200000x1, .i1⟩
  | 9 => ⟨S1x1, .i32⟩
  | 10 => ⟨S3200000x1, .i32⟩
  | 11 => ⟨S3200000x1, .i1⟩
  | 12 => ⟨S3200000x1, .i1⟩
  | 13 => ⟨S_, .i1⟩
  | 14 => ⟨S3200000, .i1⟩
  | 15 => ⟨S3200000x32, .f32⟩
  | 16 => ⟨S3200000x32, .i1⟩
  | 17 => ⟨S_, .f32⟩
  | 18 => ⟨S3200000x32, .f32⟩
  | 19 => ⟨S3200000x32, .f32⟩
  | 20 => ⟨S3200000x1, .f32⟩
  | 21 => ⟨S3200000x32, .f32⟩
  | 22 => ⟨S3200000x32, .f32⟩
  | 23 => ⟨S_, .f32⟩
  | 24 => ⟨S200000x32, .f32⟩
  | 25 => ⟨S3200000x1, .i32⟩
  | 26 => ⟨S200000x32, .f32⟩
  | 27 => ⟨S200000x32, .f32⟩
  | 28 => ⟨S_, .f32⟩
  | 29 => ⟨S200000, .f32⟩
  | 30 => ⟨S_, .f32⟩
  | 31 => ⟨S4000x32, .f32⟩
  | 32 => ⟨S200000x1, .i32⟩
  | 33 => ⟨S4000x32, .f32⟩
  | 34 => ⟨S_, .f32⟩
  | 35 => ⟨S4000, .f32⟩
  | 36 => ⟨S200000x1, .i32⟩
  | 37 => ⟨S4000, .f32⟩
  | 38 => ⟨S4000x1, .f32⟩
  | 39 => ⟨S1x1, .f32⟩
  | 40 => ⟨S4000x1, .f32⟩
  | _ => ⟨S200000x8, .f32⟩

abbrev hbmTy (i : Nat) : BufTy := match i / 128 with
  | 0 => hbmTy0_0 i
  | 1 => hbmTy0_1 i
  | _ => ⟨S200000x8, .f32⟩

abbrev bufTy : (tb : Table) → Fin (tcTables nBuf tb) → BufTy
  | .hbm, ⟨i, _⟩ => hbmTy i
  | .local _ .vmem, ⟨0, _⟩ => ⟨S20000x8, .f32⟩
  | .local _ .vmem, ⟨1, _⟩ => ⟨S20000x8, .f32⟩
  | .local _ .vmem, ⟨2, _⟩ => ⟨S8x32, .f32⟩
  | .local _ .vmem, ⟨3, _⟩ => ⟨S8x32, .f32⟩
  | .local _ .vmem, ⟨4, _⟩ => ⟨S1x32, .f32⟩
  | .local _ .vmem, ⟨5, _⟩ => ⟨S20000x32, .f32⟩
  | .local _ .vmem, ⟨6, _⟩ => ⟨S20000x32, .f32⟩
  | .local _ .vmem, ⟨7, _⟩ => ⟨S20000x32, .f32⟩
  | .local _ .vmem, ⟨8, _⟩ => ⟨S20000x32, .f32⟩
  | .local _ .vmem, ⟨9, _⟩ => ⟨S20000x32, .f32⟩
  | .local _ .vmem, ⟨10, _⟩ => ⟨S20000x32, .f32⟩
  | .local _ .vmem, ⟨11, _⟩ => ⟨S20000x32, .f32⟩
  | .local _ .vmem, ⟨12, _⟩ => ⟨S20000x32, .f32⟩
  | .local _ .vmem, ⟨13, _⟩ => ⟨S20000x32, .f32⟩
  | .local _ .vmem, ⟨14, _⟩ => ⟨S20000x32, .f32⟩
  | .local _ .vmem, ⟨15, _⟩ => ⟨S20000x32, .f32⟩
  | .local _ .vmem, ⟨16, _⟩ => ⟨S20000x32, .f32⟩
  | .local _ .vmem, ⟨17, _⟩ => ⟨S32x32, .f32⟩
  | .local _ .vmem, ⟨18, _⟩ => ⟨S32x32, .f32⟩
  | .local _ .vmem, ⟨19, _⟩ => ⟨S1x32, .f32⟩
  | .local _ .vmem, ⟨20, _⟩ => ⟨S20000x32, .f32⟩
  | .local _ .vmem, ⟨21, _⟩ => ⟨S20000x32, .f32⟩
  | .local _ .vmem, ⟨22, _⟩ => ⟨S20000x32, .f32⟩
  | .local _ .vmem, ⟨23, _⟩ => ⟨S20000x32, .f32⟩
  | .local _ .vmem, ⟨24, _⟩ => ⟨S20000x32, .f32⟩
  | .local _ .vmem, ⟨25, _⟩ => ⟨S20000x32, .f32⟩
  | .local _ .vmem, ⟨26, _⟩ => ⟨S20000x32, .f32⟩
  | .local _ .vmem, ⟨27, _⟩ => ⟨S20000x32, .f32⟩
  | .local _ .vmem, ⟨28, _⟩ => ⟨S20000x32, .f32⟩
  | .local _ .vmem, ⟨29, _⟩ => ⟨S20000x32, .f32⟩
  | .local _ .vmem, ⟨30, _⟩ => ⟨S20000x32, .f32⟩
  | .local _ .vmem, ⟨31, _⟩ => ⟨S20000x32, .f32⟩
  | .local _ .vmem, ⟨32, _⟩ => ⟨S32x32, .f32⟩
  | .local _ .vmem, ⟨33, _⟩ => ⟨S32x32, .f32⟩
  | .local _ .vmem, ⟨34, _⟩ => ⟨S1x32, .f32⟩
  | .local _ .vmem, ⟨35, _⟩ => ⟨S20000x32, .f32⟩
  | .local _ .vmem, ⟨36, _⟩ => ⟨S20000x32, .f32⟩
  | .local _ .vmem, ⟨37, _⟩ => ⟨S20000x32, .f32⟩
  | .local _ .vmem, ⟨38, _⟩ => ⟨S20000x32, .f32⟩
  | .local _ .vmem, ⟨39, _⟩ => ⟨S20000x32, .f32⟩
  | .local _ .vmem, ⟨40, _⟩ => ⟨S20000x32, .f32⟩
  | .local _ .vmem, ⟨41, _⟩ => ⟨S20000x32, .f32⟩
  | .local _ .vmem, ⟨42, _⟩ => ⟨S20000x32, .f32⟩
  | .local _ .vmem, ⟨43, _⟩ => ⟨S20000x32, .f32⟩
  | .local _ .vmem, ⟨44, _⟩ => ⟨S20000x32, .f32⟩
  | .local _ .vmem, ⟨45, _⟩ => ⟨S4000x32, .f32⟩
  | .local _ .vmem, ⟨46, _⟩ => ⟨S4000x1, .f32⟩
  | .local _ .vmem, ⟨47, _⟩ => ⟨S32x1, .f32⟩
  | .local _ .vmem, ⟨48, _⟩ => ⟨S1x1, .f32⟩
  | .local _ .vmem, ⟨49, _⟩ => ⟨S4000x1, .f32⟩
  | _, _ => ⟨S200000x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_cst_2 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v13 : Ref sig .tc := ⟨.hbm, 34, rfl⟩
abbrev main_c : Ref sig .tc := ⟨.hbm, 35, rfl⟩
abbrev main_v14 : Ref sig .tc := ⟨.hbm, 36, rfl⟩
abbrev main_v15 : Ref sig .tc := ⟨.hbm, 37, rfl⟩
abbrev main_c_4 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_c_5 : Ref sig .tc := ⟨.hbm, 44, rfl⟩
abbrev main_v21 : Ref sig .tc := ⟨.hbm, 45, rfl⟩
abbrev main_v22 : Ref sig .tc := ⟨.hbm, 46, rfl⟩
abbrev main_c_6 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30_0 : Ref sig .tc := ⟨.hbm, 55, rfl⟩
abbrev main_v30_1 : Ref sig .tc := ⟨.hbm, 56, rfl⟩
abbrev main_call1_c : Ref sig .tc := ⟨.hbm, 57, rfl⟩
abbrev main_call1_v0 : Ref sig .tc := ⟨.hbm, 58, rfl⟩
abbrev main_call1_v1 : Ref sig .tc := ⟨.hbm, 59, rfl⟩
abbrev main_call1_c_0 : Ref sig .tc := ⟨.hbm, 60, rfl⟩
abbrev main_call1_v2 : Ref sig .tc := ⟨.hbm, 61, rfl⟩
abbrev main_call1_v3 : Ref sig .tc := ⟨.hbm, 62, rfl⟩
abbrev main_call1_v4 : Ref sig .tc := ⟨.hbm, 63, rfl⟩
abbrev main_call1_v5 : Ref sig .tc := ⟨.hbm, 64, rfl⟩
abbrev main_call1_c_1 : Ref sig .tc := ⟨.hbm, 65, rfl⟩
abbrev main_call1_c_2 : Ref sig .tc := ⟨.hbm, 66, rfl⟩
abbrev main_call1_v6 : Ref sig .tc := ⟨.hbm, 67, rfl⟩
abbrev main_call1_v7 : Ref sig .tc := ⟨.hbm, 68, rfl⟩
abbrev main_call1_v8 : Ref sig .tc := ⟨.hbm, 69, rfl⟩
abbrev main_call1_v9 : Ref sig .tc := ⟨.hbm, 70, rfl⟩
abbrev main_call1_v10 : Ref sig .tc := ⟨.hbm, 71, rfl⟩
abbrev main_call1_v11 : Ref sig .tc := ⟨.hbm, 72, rfl⟩
abbrev main_call1_c_3 : Ref sig .tc := ⟨.hbm, 73, rfl⟩
abbrev main_call1_v12 : Ref sig .tc := ⟨.hbm, 74, rfl⟩
abbrev main_call1_v13 : Ref sig .tc := ⟨.hbm, 75, rfl⟩
abbrev main_call1_v14 : Ref sig .tc := ⟨.hbm, 76, rfl⟩
abbrev main_call1_cst : Ref sig .tc := ⟨.hbm, 77, rfl⟩
abbrev main_call1_v15 : Ref sig .tc := ⟨.hbm, 78, rfl⟩
abbrev main_v31 : Ref sig .tc := ⟨.hbm, 79, rfl⟩
abbrev main_v32 : Ref sig .tc := ⟨.hbm, 80, rfl⟩
abbrev main_v33 : Ref sig .tc := ⟨.hbm, 81, rfl⟩
abbrev main_v34 : Ref sig .tc := ⟨.hbm, 82, rfl⟩
abbrev main_cst_7 : Ref sig .tc := ⟨.hbm, 83, rfl⟩
abbrev main_v35 : Ref sig .tc := ⟨.hbm, 84, rfl⟩
abbrev main_v36 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_v40_0 : Ref sig .tc := ⟨.hbm, 89, rfl⟩
abbrev main_v40_1 : Ref sig .tc := ⟨.hbm, 90, rfl⟩
abbrev main_call2_c : Ref sig .tc := ⟨.hbm, 91, rfl⟩
abbrev main_call2_v0 : Ref sig .tc := ⟨.hbm, 92, rfl⟩
abbrev main_call2_v1 : Ref sig .tc := ⟨.hbm, 93, rfl⟩
abbrev main_call2_c_0 : Ref sig .tc := ⟨.hbm, 94, rfl⟩
abbrev main_call2_v2 : Ref sig .tc := ⟨.hbm, 95, rfl⟩
abbrev main_call2_v3 : Ref sig .tc := ⟨.hbm, 96, rfl⟩
abbrev main_call2_v4 : Ref sig .tc := ⟨.hbm, 97, rfl⟩
abbrev main_call2_v5 : Ref sig .tc := ⟨.hbm, 98, rfl⟩
abbrev main_call2_c_1 : Ref sig .tc := ⟨.hbm, 99, rfl⟩
abbrev main_call2_c_2 : Ref sig .tc := ⟨.hbm, 100, rfl⟩
abbrev main_call2_v6 : Ref sig .tc := ⟨.hbm, 101, rfl⟩
abbrev main_call2_v7 : Ref sig .tc := ⟨.hbm, 102, rfl⟩
abbrev main_call2_v8 : Ref sig .tc := ⟨.hbm, 103, rfl⟩
abbrev main_call2_v9 : Ref sig .tc := ⟨.hbm, 104, rfl⟩
abbrev main_call2_v10 : Ref sig .tc := ⟨.hbm, 105, rfl⟩
abbrev main_call2_v11 : Ref sig .tc := ⟨.hbm, 106, rfl⟩
abbrev main_call2_c_3 : Ref sig .tc := ⟨.hbm, 107, rfl⟩
abbrev main_call2_v12 : Ref sig .tc := ⟨.hbm, 108, rfl⟩
abbrev main_call2_v13 : Ref sig .tc := ⟨.hbm, 109, rfl⟩
abbrev main_call2_v14 : Ref sig .tc := ⟨.hbm, 110, rfl⟩
abbrev main_call2_cst : Ref sig .tc := ⟨.hbm, 111, rfl⟩
abbrev main_call2_v15 : Ref sig .tc := ⟨.hbm, 112, rfl⟩
abbrev main_v41 : Ref sig .tc := ⟨.hbm, 113, rfl⟩
abbrev main_v42 : Ref sig .tc := ⟨.hbm, 114, rfl⟩
abbrev main_v43 : Ref sig .tc := ⟨.hbm, 115, rfl⟩
abbrev main_v44 : Ref sig .tc := ⟨.hbm, 116, rfl⟩
abbrev main_cst_8 : Ref sig .tc := ⟨.hbm, 117, rfl⟩
abbrev main_v45 : Ref sig .tc := ⟨.hbm, 118, rfl⟩
abbrev main_v46 : Ref sig .tc := ⟨.hbm, 119, rfl⟩
abbrev main_v47 : Ref sig .tc := ⟨.hbm, 120, rfl⟩
abbrev main_v48 : Ref sig .tc := ⟨.hbm, 121, rfl⟩
abbrev main_v49 : Ref sig .tc := ⟨.hbm, 122, rfl⟩
abbrev main_v50_0 : Ref sig .tc := ⟨.hbm, 123, rfl⟩
abbrev main_v50_1 : Ref sig .tc := ⟨.hbm, 124, rfl⟩
abbrev main_call3_c : Ref sig .tc := ⟨.hbm, 125, rfl⟩
abbrev main_call3_v0 : Ref sig .tc := ⟨.hbm, 126, rfl⟩
abbrev main_call3_v1 : Ref sig .tc := ⟨.hbm, 127, rfl⟩
abbrev main_call3_c_0 : Ref sig .tc := ⟨.hbm, 128, rfl⟩
abbrev main_call3_v2 : Ref sig .tc := ⟨.hbm, 129, rfl⟩
abbrev main_call3_v3 : Ref sig .tc := ⟨.hbm, 130, rfl⟩
abbrev main_call3_v4 : Ref sig .tc := ⟨.hbm, 131, rfl⟩
abbrev main_call3_v5 : Ref sig .tc := ⟨.hbm, 132, rfl⟩
abbrev main_call3_c_1 : Ref sig .tc := ⟨.hbm, 133, rfl⟩
abbrev main_call3_c_2 : Ref sig .tc := ⟨.hbm, 134, rfl⟩
abbrev main_call3_v6 : Ref sig .tc := ⟨.hbm, 135, rfl⟩
abbrev main_call3_v7 : Ref sig .tc := ⟨.hbm, 136, rfl⟩
abbrev main_call3_v8 : Ref sig .tc := ⟨.hbm, 137, rfl⟩
abbrev main_call3_v9 : Ref sig .tc := ⟨.hbm, 138, rfl⟩
abbrev main_call3_v10 : Ref sig .tc := ⟨.hbm, 139, rfl⟩
abbrev main_call3_v11 : Ref sig .tc := ⟨.hbm, 140, rfl⟩
abbrev main_call3_c_3 : Ref sig .tc := ⟨.hbm, 141, rfl⟩
abbrev main_call3_v12 : Ref sig .tc := ⟨.hbm, 142, rfl⟩
abbrev main_call3_v13 : Ref sig .tc := ⟨.hbm, 143, rfl⟩
abbrev main_call3_v14 : Ref sig .tc := ⟨.hbm, 144, rfl⟩
abbrev main_call3_cst : Ref sig .tc := ⟨.hbm, 145, rfl⟩
abbrev main_call3_v15 : Ref sig .tc := ⟨.hbm, 146, rfl⟩
abbrev main_v51 : Ref sig .tc := ⟨.hbm, 147, rfl⟩
abbrev main_v52 : Ref sig .tc := ⟨.hbm, 148, rfl⟩
abbrev main_v53 : Ref sig .tc := ⟨.hbm, 149, rfl⟩
abbrev main_v54 : Ref sig .tc := ⟨.hbm, 150, rfl⟩
abbrev main_cst_9 : Ref sig .tc := ⟨.hbm, 151, rfl⟩
abbrev main_v55 : Ref sig .tc := ⟨.hbm, 152, rfl⟩
abbrev main_v56 : Ref sig .tc := ⟨.hbm, 153, rfl⟩
abbrev main_v57 : Ref sig .tc := ⟨.hbm, 154, rfl⟩
abbrev main_v58 : Ref sig .tc := ⟨.hbm, 155, rfl⟩
abbrev main_cst_10 : Ref sig .tc := ⟨.hbm, 156, rfl⟩
abbrev main_v59 : Ref sig .tc := ⟨.hbm, 157, rfl⟩
abbrev main_cst_11 : Ref sig .tc := ⟨.hbm, 158, rfl⟩
abbrev main_v60 : Ref sig .tc := ⟨.hbm, 159, rfl⟩
abbrev main_v61 : Ref sig .tc := ⟨.hbm, 160, rfl⟩
abbrev main_v62 : Ref sig .tc := ⟨.hbm, 161, rfl⟩
abbrev main_cst_12 : Ref sig .tc := ⟨.hbm, 162, rfl⟩
abbrev main_v63 : Ref sig .tc := ⟨.hbm, 163, rfl⟩
abbrev main_v64 : Ref sig .tc := ⟨.hbm, 164, rfl⟩
abbrev main_v65 : Ref sig .tc := ⟨.hbm, 165, rfl⟩
abbrev main_v66 : Ref sig .tc := ⟨.hbm, 166, rfl⟩
abbrev main_v67 : Ref sig .tc := ⟨.hbm, 167, rfl⟩
abbrev main_v68 : Ref sig .tc := ⟨.hbm, 168, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg4_1 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg2_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg2_0 : Ref sig .tc := ⟨.vmem, 33, rfl⟩
abbrev cc4_stg3_0 : Ref sig .tc := ⟨.vmem, 34, rfl⟩
abbrev cc4_stg4_0 : Ref sig .tc := ⟨.vmem, 35, rfl⟩
abbrev cc4_stg4_1 : Ref sig .tc := ⟨.vmem, 36, rfl⟩
abbrev cc4_stg5_0 : Ref sig .tc := ⟨.vmem, 37, rfl⟩
abbrev cc4_stg5_1 : Ref sig .tc := ⟨.vmem, 38, rfl⟩
abbrev cc5_stg0_0 : Ref sig .tc := ⟨.vmem, 39, rfl⟩
abbrev cc5_stg0_1 : Ref sig .tc := ⟨.vmem, 40, rfl⟩
abbrev cc5_stg1_0 : Ref sig .tc := ⟨.vmem, 41, rfl⟩
abbrev cc5_stg1_1 : Ref sig .tc := ⟨.vmem, 42, rfl⟩
abbrev cc5_stg2_0 : Ref sig .tc := ⟨.vmem, 43, rfl⟩
abbrev cc5_stg2_1 : Ref sig .tc := ⟨.vmem, 44, rfl⟩
abbrev cc6_stg0_0 : Ref sig .tc := ⟨.vmem, 45, rfl⟩
abbrev cc6_stg1_0 : Ref sig .tc := ⟨.vmem, 46, rfl⟩
abbrev cc6_stg2_0 : Ref sig .tc := ⟨.vmem, 47, rfl⟩
abbrev cc6_stg3_0 : Ref sig .tc := ⟨.vmem, 48, rfl⟩
abbrev cc6_stg4_0 : Ref sig .tc := ⟨.vmem, 49, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem4_0 : DmaSem sig := 20
abbrev cc2_sem4_1 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29
abbrev cc4_sem0_0 : DmaSem sig := 30
abbrev cc4_sem0_1 : DmaSem sig := 31
abbrev cc4_sem1_0 : DmaSem sig := 32
abbrev cc4_sem2_0 : DmaSem sig := 33
abbrev cc4_sem3_0 : DmaSem sig := 34
abbrev cc4_sem4_0 : DmaSem sig := 35
abbrev cc4_sem4_1 : DmaSem sig := 36
abbrev cc4_sem5_0 : DmaSem sig := 37
abbrev cc4_sem5_1 : DmaSem sig := 38
abbrev cc5_sem0_0 : DmaSem sig := 39
abbrev cc5_sem0_1 : DmaSem sig := 40
abbrev cc5_sem1_0 : DmaSem sig := 41
abbrev cc5_sem1_1 : DmaSem sig := 42
abbrev cc5_sem2_0 : DmaSem sig := 43
abbrev cc5_sem2_1 : DmaSem sig := 44
abbrev cc6_sem0_0 : DmaSem sig := 45
abbrev cc6_sem1_0 : DmaSem sig := 46
abbrev cc6_sem2_0 : DmaSem sig := 47
abbrev cc6_sem3_0 : DmaSem sig := 48
abbrev cc6_sem4_0 : DmaSem sig := 49

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S20000x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S20000x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S20000x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S20000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S20000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S20000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S20000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S32x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S20000x32 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S20000x32 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S20000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S20000x32 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S20000x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S20000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S32x32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S32x32 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x32 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S20000x32 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S20000x32 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S20000x32 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S20000x32 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S20000x32 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S4000x32 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S4000x1 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S32x1 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x1 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S4000x1 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S200000 : S_.BroadcastsInDim S200000 (![] : Fin 0 → Fin S200000.rank)
  bcast_S3200000_S3200000x1_0 : S3200000.BroadcastsInDim S3200000x1 (![0] : Fin 1 → Fin S3200000x1.rank)
  shapeCasts_S32_S1x32 : S32.ShapeCasts S1x32
  inb_S20000x8_S20000x8_0_0 : ∀ a, (![0, 0] : Fin 2 → Nat) a + S20000x8.size a ≤ S20000x8.size a
  h_S20000x8 : 0 < S20000x8.numel
  inb_S8x32_S8x32_0_0 : ∀ a, (![0, 0] : Fin 2 → Nat) a + S8x32.size a ≤ S8x32.size a
  h_S8x32 : 0 < S8x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  inb_S20000x32_S20000x32_0_0 : ∀ a, (![0, 0] : Fin 2 → Nat) a + S20000x32.size a ≤ S20000x32.size a
  h_S20000x32 : 0 < S20000x32.numel
  broadcasts_S1x32_S20000x32 : S1x32.Broadcasts S20000x32
  bcast_S_S3200000x1 : S_.BroadcastsInDim S3200000x1 (![] : Fin 0 → Fin S3200000x1.rank)
  bcast_S1_S1x1_1 : S1.BroadcastsInDim S1x1 (![1] : Fin 1 → Fin S1x1.rank)
  bcast_S1x1_S3200000x1_0_1 : S1x1.BroadcastsInDim S3200000x1 (![0, 1] : Fin 2 → Fin S3200000x1.rank)
  reducesTo_S3200000x1_S3200000_d1 : S3200000x1.ReducesTo [1] S3200000
  h_S_ : 0 < S_.numel
  bcast_S3200000_S3200000x32_0 : S3200000.BroadcastsInDim S3200000x32 (![0] : Fin 1 → Fin S3200000x32.rank)
  bcast_S_S3200000x32 : S_.BroadcastsInDim S3200000x32 (![] : Fin 0 → Fin S3200000x32.rank)
  bcast_S3200000x1_S3200000x32_0_1 : S3200000x1.BroadcastsInDim S3200000x32 (![0, 1] : Fin 2 → Fin S3200000x32.rank)
  bcast_S_S200000x32 : S_.BroadcastsInDim S200000x32 (![] : Fin 0 → Fin S200000x32.rank)
  shapeCasts_S20000x32_S20000x32 : S20000x32.ShapeCasts S20000x32
  inb_S32x32_S32x32_0_0 : ∀ a, (![0, 0] : Fin 2 → Nat) a + S32x32.size a ≤ S32x32.size a
  h_S32x32 : 0 < S32x32.numel
  bcast_S_S4000x32 : S_.BroadcastsInDim S4000x32 (![] : Fin 0 → Fin S4000x32.rank)
  bcast_S200000_S200000x1_0 : S200000.BroadcastsInDim S200000x1 (![0] : Fin 1 → Fin S200000x1.rank)
  bcast_S_S4000 : S_.BroadcastsInDim S4000 (![] : Fin 0 → Fin S4000.rank)
  shapeCasts_S4000_S4000x1 : S4000.ShapeCasts S4000x1
  shapeCasts_S1_S1x1 : S1.ShapeCasts S1x1
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  inb_S4000x32_S4000x32_0_0 : ∀ a, (![0, 0] : Fin 2 → Nat) a + S4000x32.size a ≤ S4000x32.size a
  h_S4000x32 : 0 < S4000x32.numel
  shapeCasts_S4000x32_S4000x32 : S4000x32.ShapeCasts S4000x32
  broadcasts_S4000x1_S4000x32 : S4000x1.Broadcasts S4000x32
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4000x1 : S1x1.Broadcasts S4000x1
  scatter_S200000_S3200000x1_S3200000_n_0_0_1_wf : ScatterDims.WF S200000 S3200000x1 S3200000 [] [0] [0] 1
  gather_S200000_S3200000x1_S3200000_n_0_n_n_0_1_1_wf : GatherDims.WF S200000 S3200000x1 S3200000 [] [0] [] [0] [] 1 ![1]
  dot_S20000x8_S8x32_S20000x32_1_0_0_1_n_n_wf : DotDims.WF S20000x8 S8x32 S20000x32 [1] [0] [0] [1] [] []
  gather_S200000x32_S3200000x1_S3200000x32_1_0_n_n_0_1_132_wf : GatherDims.WF S200000x32 S3200000x1 S3200000x32 [1] [0] [] [0] [] 1 ![1, 32]
  scatter_S200000x32_S3200000x1_S3200000x32_1_0_0_1_wf : ScatterDims.WF S200000x32 S3200000x1 S3200000x32 [1] [0] [0] 1
  dot_S20000x32_S32x32_S20000x32_1_0_0_1_n_n_wf : DotDims.WF S20000x32 S32x32 S20000x32 [1] [0] [0] [1] [] []
  scatter_S4000x32_S200000x1_S200000x32_1_0_0_1_wf : ScatterDims.WF S4000x32 S200000x1 S200000x32 [1] [0] [0] 1
  scatter_S4000_S200000x1_S200000_n_0_0_1_wf : ScatterDims.WF S4000 S200000x1 S200000 [] [0] [0] 1
  dot_S4000x32_S32x1_S4000x1_1_0_0_1_n_n_wf : DotDims.WF S4000x32 S32x1 S4000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S20000x8.size a ≤ S200000x8.size a
  hwx0_0 : ∀ i : grid0.Coords, EltTy.bits .f32 = 32 ∨ (Rect.block (s := S200000x8) S20000x8.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x32.size a ≤ S8x32.size a
  hwx0_1 : ∀ i : grid0.Coords, EltTy.bits .f32 = 32 ∨ (Rect.block (s := S8x32) S8x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x32.size a ≤ S8x32.size a
  hwx0_2 : ∀ i : grid0.Coords, EltTy.bits .f32 = 32 ∨ (Rect.block (s := S8x32) S8x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x32.size a ≤ S1x32.size a
  hwx0_3 : ∀ i : grid0.Coords, EltTy.bits .f32 = 32 ∨ (Rect.block (s := S1x32) S1x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S20000x32.size a ≤ S200000x32.size a
  hwx0_4 : ∀ i : grid0.Coords, EltTy.bits .f32 = 32 ∨ (Rect.block (s := S200000x32) S20000x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S20000x32.size a ≤ S200000x32.size a
  hwx0_5 : ∀ i : grid0.Coords, EltTy.bits .f32 = 32 ∨ (Rect.block (s := S200000x32) S20000x32.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S20000x32.size a ≤ S200000x32.size a
  hwx1_0 : ∀ i : grid1.Coords, EltTy.bits .f32 = 32 ∨ (Rect.block (s := S200000x32) S20000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S20000x32.size a ≤ S200000x32.size a
  hwx1_1 : ∀ i : grid1.Coords, EltTy.bits .f32 = 32 ∨ (Rect.block (s := S200000x32) S20000x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S20000x32.size a ≤ S200000x32.size a
  hwx1_2 : ∀ i : grid1.Coords, EltTy.bits .f32 = 32 ∨ (Rect.block (s := S200000x32) S20000x32.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S20000x32.size a ≤ S200000x32.size a
  hwx2_0 : ∀ i : grid2.Coords, EltTy.bits .f32 = 32 ∨ (Rect.block (s := S200000x32) S20000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x32.size a ≤ S32x32.size a
  hwx2_1 : ∀ i : grid2.Coords, EltTy.bits .f32 = 32 ∨ (Rect.block (s := S32x32) S32x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S32x32.size a ≤ S32x32.size a
  hwx2_2 : ∀ i : grid2.Coords, EltTy.bits .f32 = 32 ∨ (Rect.block (s := S32x32) S32x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x32.size a ≤ S1x32.size a
  hwx2_3 : ∀ i : grid2.Coords, EltTy.bits .f32 = 32 ∨ (Rect.block (s := S1x32) S1x32.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S20000x32.size a ≤ S200000x32.size a
  hwx2_4 : ∀ i : grid2.Coords, EltTy.bits .f32 = 32 ∨ (Rect.block (s := S200000x32) S20000x32.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S20000x32.size a ≤ S200000x32.size a
  hwx2_5 : ∀ i : grid2.Coords, EltTy.bits .f32 = 32 ∨ (Rect.block (s := S200000x32) S20000x32.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S20000x32.size a ≤ S200000x32.size a
  hwx3_0 : ∀ i : grid3.Coords, EltTy.bits .f32 = 32 ∨ (Rect.block (s := S200000x32) S20000x32.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S20000x32.size a ≤ S200000x32.size a
  hwx3_1 : ∀ i : grid3.Coords, EltTy.bits .f32 = 32 ∨ (Rect.block (s := S200000x32) S20000x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S20000x32.size a ≤ S200000x32.size a
  hwx3_2 : ∀ i : grid3.Coords, EltTy.bits .f32 = 32 ∨ (Rect.block (s := S200000x32) S20000x32.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S20000x32.size a ≤ S200000x32.size a
  hwx4_0 : ∀ i : grid4.Coords, EltTy.bits .f32 = 32 ∨ (Rect.block (s := S200000x32) S20000x32.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S32x32.size a ≤ S32x32.size a
  hwx4_1 : ∀ i : grid4.Coords, EltTy.bits .f32 = 32 ∨ (Rect.block (s := S32x32) S32x32.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S32x32.size a ≤ S32x32.size a
  hwx4_2 : ∀ i : grid4.Coords, EltTy.bits .f32 = 32 ∨ (Rect.block (s := S32x32) S32x32.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x32.size a ≤ S1x32.size a
  hwx4_3 : ∀ i : grid4.Coords, EltTy.bits .f32 = 32 ∨ (Rect.block (s := S1x32) S1x32.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S20000x32.size a ≤ S200000x32.size a
  hwx4_4 : ∀ i : grid4.Coords, EltTy.bits .f32 = 32 ∨ (Rect.block (s := S200000x32) S20000x32.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S20000x32.size a ≤ S200000x32.size a
  hwx4_5 : ∀ i : grid4.Coords, EltTy.bits .f32 = 32 ∨ (Rect.block (s := S200000x32) S20000x32.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S20000x32.size a ≤ S200000x32.size a
  hwx5_0 : ∀ i : grid5.Coords, EltTy.bits .f32 = 32 ∨ (Rect.block (s := S200000x32) S20000x32.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S20000x32.size a ≤ S200000x32.size a
  hwx5_1 : ∀ i : grid5.Coords, EltTy.bits .f32 = 32 ∨ (Rect.block (s := S200000x32) S20000x32.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S20000x32.size a ≤ S200000x32.size a
  hwx5_2 : ∀ i : grid5.Coords, EltTy.bits .f32 = 32 ∨ (Rect.block (s := S200000x32) S20000x32.size (cc5_transform_2 i) (hinb5_2 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S4000x32.size a ≤ S4000x32.size a
  hwx6_0 : ∀ i : grid6.Coords, EltTy.bits .f32 = 32 ∨ (Rect.block (s := S4000x32) S4000x32.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S4000x1.size a ≤ S4000x1.size a
  hwx6_1 : ∀ i : grid6.Coords, EltTy.bits .f32 = 32 ∨ (Rect.block (s := S4000x1) S4000x1.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S32x1.size a ≤ S32x1.size a
  hwx6_2 : ∀ i : grid6.Coords, EltTy.bits .f32 = 32 ∨ (Rect.block (s := S32x1) S32x1.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x1.size a ≤ S1x1.size a
  hwx6_3 : ∀ i : grid6.Coords, EltTy.bits .f32 = 32 ∨ (Rect.block (s := S1x1) S1x1.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S4000x1.size a ≤ S4000x1.size a
  hwx6_4 : ∀ i : grid6.Coords, EltTy.bits .f32 = 32 ∨ (Rect.block (s := S4000x1) S4000x1.size (cc6_transform_4 i) (hinb6_4 i)).WholeWords (EltTy.packing .f32)

variable [Facts₀]

def scatter_S200000_S3200000x1_S3200000_n_0_0_1 : ScatterDims S200000 S3200000x1 S3200000 where
  updateWindowDims := []
  insertedWindowDims := [0]
  scatterDimsToOperandDims := [0]
  indexVectorDim := 1
  wf := scatter_S200000_S3200000x1_S3200000_n_0_0_1_wf
def gather_S200000_S3200000x1_S3200000_n_0_n_n_0_1_1 : GatherDims S200000 S3200000x1 S3200000 where
  offsetDims := []
  collapsedSliceDims := [0]
  operandBatchingDims := []
  startIndicesBatchingDims := []
  startIndexMap := [0]
  indexVectorDim := 1
  sliceSizes := ![1]
  wf := gather_S200000_S3200000x1_S3200000_n_0_n_n_0_1_1_wf
def dot_S20000x8_S8x32_S20000x32_1_0_0_1_n_n : DotDims S20000x8 S8x32 S20000x32 where
  lhsContracting := [1]
  rhsContracting := [0]
  lhsNonContracting := [0]
  rhsNonContracting := [1]
  lhsBatch := []
  rhsBatch := []
  wf := dot_S20000x8_S8x32_S20000x32_1_0_0_1_n_n_wf
def gather_S200000x32_S3200000x1_S3200000x32_1_0_n_n_0_1_132 : GatherDims S200000x32 S3200000x1 S3200000x32 where
  offsetDims := [1]
  collapsedSliceDims := [0]
  operandBatchingDims := []
  startIndicesBatchingDims := []
  startIndexMap := [0]
  indexVectorDim := 1
  sliceSizes := ![1, 32]
  wf := gather_S200000x32_S3200000x1_S3200000x32_1_0_n_n_0_1_132_wf
def scatter_S200000x32_S3200000x1_S3200000x32_1_0_0_1 : ScatterDims S200000x32 S3200000x1 S3200000x32 where
  updateWindowDims := [1]
  insertedWindowDims := [0]
  scatterDimsToOperandDims := [0]
  indexVectorDim := 1
  wf := scatter_S200000x32_S3200000x1_S3200000x32_1_0_0_1_wf
def dot_S20000x32_S32x32_S20000x32_1_0_0_1_n_n : DotDims S20000x32 S32x32 S20000x32 where
  lhsContracting := [1]
  rhsContracting := [0]
  lhsNonContracting := [0]
  rhsNonContracting := [1]
  lhsBatch := []
  rhsBatch := []
  wf := dot_S20000x32_S32x32_S20000x32_1_0_0_1_n_n_wf
def scatter_S4000x32_S200000x1_S200000x32_1_0_0_1 : ScatterDims S4000x32 S200000x1 S200000x32 where
  updateWindowDims := [1]
  insertedWindowDims := [0]
  scatterDimsToOperandDims := [0]
  indexVectorDim := 1
  wf := scatter_S4000x32_S200000x1_S200000x32_1_0_0_1_wf
def scatter_S4000_S200000x1_S200000_n_0_0_1 : ScatterDims S4000 S200000x1 S200000 where
  updateWindowDims := []
  insertedWindowDims := [0]
  scatterDimsToOperandDims := [0]
  indexVectorDim := 1
  wf := scatter_S4000_S200000x1_S200000_n_0_0_1_wf
def dot_S4000x32_S32x1_S4000x1_1_0_0_1_n_n : DotDims S4000x32 S32x1 S4000x1 where
  lhsContracting := [1]
  rhsContracting := [0]
  lhsNonContracting := [0]
  rhsNonContracting := [1]
  lhsBatch := []
  rhsBatch := []
  wf := dot_S4000x32_S32x1_S4000x1_1_0_0_1_n_n_wf

abbrev win0_0 : Pipeline.Window sig grid0 :=
  Pipeline.Window.ofSpec (Memref.whole main_arg0) S20000x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S8x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S8x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v29) S1x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v30_0) S20000x32.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v30_1) S20000x32.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v37) S20000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30_1) S20000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v38) S20000x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v38) S20000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S32x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S32x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v39) S1x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v40_0) S20000x32.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v40_1) S20000x32.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v47) S20000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v40_1) S20000x32.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v48) S20000x32.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v48) S20000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg9) S32x32.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg10) S32x32.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v49) S1x32.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v50_0) S20000x32.size cc4_transform_4 reads4_4 true false 2 stage4_4 sem4_4
    hrank4 hreads4_4 hinb4_4 nbuf4_4 (Memref.isWhole_whole _) hwx4_4 hstage4_4

abbrev win4_5 : Pipeline.Window sig grid4 :=
  Pipeline.Window.ofSpec (Memref.whole main_v50_1) S20000x32.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v57) S20000x32.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v50_1) S20000x32.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v58) S20000x32.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v62) S4000x32.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_v66) S4000x1.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_arg12) S32x1.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v67) S1x1.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v68) S4000x1.size cc6_transform_4 reads6_4 true true 1 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

class Facts : Prop extends Facts₀ where

variable [Facts]
-- ==== ReferenceIdeal.lean ====
abbrev S200000x8 : Shape := ⟨2, ![200000, 8]⟩
abbrev S2x3200000 : Shape := ⟨2, ![2, 3200000]⟩
abbrev S200000 : Shape := ⟨1, ![200000]⟩
abbrev S8x32 : Shape := ⟨2, ![8, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S200000x32 : Shape := ⟨2, ![200000, 32]⟩
abbrev S3200000x32 : Shape := ⟨2, ![3200000, 32]⟩
abbrev S1x32 : Shape := ⟨2, ![1, 32]⟩
abbrev S4000x32 : Shape := ⟨2, ![4000, 32]⟩
abbrev S200000x1 : Shape := ⟨2, ![200000, 1]⟩
abbrev S4000 : Shape := ⟨1, ![4000]⟩
abbrev S4000x1 : Shape := ⟨2, ![4000, 1]⟩
abbrev S1x1 : Shape := ⟨2, ![1, 1]⟩

abbrev nBuf : Space → Nat
  | .hbm => 178
  | .vmem => 0
  | .smem => 0
  | _ => 0

abbrev hbmTy0_0 (i : Nat) : BufTy := match i % 128 with
  | 0 => ⟨S200000x8, .f32⟩
  | 1 => ⟨S2x3200000, .i32⟩
  | 2 => ⟨S200000, .i32⟩
  | 3 => ⟨S8x32, .f32⟩
  | 4 => ⟨S8x32, .f32⟩
  | 5 => ⟨S32, .f32⟩
  | 6 => ⟨S32x32, .f32⟩
  | 7 => ⟨S32x32, .f32⟩
  | 8 => ⟨S32, .f32⟩
  | 9 => ⟨S32x32, .f32⟩
  | 10 => ⟨S32x32, .f32⟩
  | 11 => ⟨S32, .f32⟩
  | 12 => ⟨S32x1, .f32⟩
  | 13 => ⟨S1, .f32⟩
  | 14 => ⟨S1x3200000, .i32⟩
  | 15 => ⟨S3200000, .i32⟩
  | 16 => ⟨S1x3200000, .i32⟩
  | 17 => ⟨S3200000, .i32⟩
  | 18 => ⟨S_, .f32⟩
  | 19 => ⟨S3200000, .f32⟩
  | 20 => ⟨S_, .f32⟩
  | 21 => ⟨S200000, .f32⟩
  | 22 => ⟨S3200000x1, .i32⟩
  | 23 => ⟨S200000, .f32⟩
  | 24 => ⟨S_, .f32⟩
  | 25 => ⟨S200000, .f32⟩
  | 26 => ⟨S200000, .i1⟩
  | 27 => ⟨S_, .f32⟩
  | 28 => ⟨S200000, .f32⟩
  | 29 => ⟨S200000, .f32⟩
  | 30 => ⟨S200000, .f32⟩
  | 31 => ⟨S_, .f32⟩
  | 32 => ⟨S_, .f32⟩
  | 33 => ⟨S200000, .f32⟩
  | 34 => ⟨S200000, .f32⟩
  | 35 => ⟨S_, .i32⟩
  | 36 => ⟨S3200000, .i32⟩
  | 37 => ⟨S3200000, .i1⟩
  | 38 => ⟨S_, .i32⟩
  | 39 => ⟨S3200000, .i32⟩
  | 40 => ⟨S3200000, .i32⟩
  | 41 => ⟨S3200000, .i32⟩
  | 42 => ⟨S3200000x1, .i32⟩
  | 43 => ⟨S3200000, .f32⟩
  | 44 => ⟨S_, .i32⟩
  | 45 => ⟨S3200000, .i32⟩
  | 46 => ⟨S3200000, .i1⟩
  | 47 => ⟨S_, .i32⟩
  | 48 => ⟨S3200000, .i32⟩
  | 49 => ⟨S3200000, .i32⟩
  | 50 => ⟨S3200000, .i32⟩
  | 51 => ⟨S3200000x1, .i32⟩
  | 52 => ⟨S3200000, .f32⟩
  | 53 => ⟨S3200000, .f32⟩
  | 54 => ⟨S1x3200000, .i32⟩
  | 55 => ⟨S3200000, .i32⟩
  | 56 => ⟨S1x3200000, .i32⟩
  | 57 => ⟨S3200000, .i32⟩
  | 58 => ⟨S200000x32, .f32⟩
  | 59 => ⟨S3200000x1, .f32⟩
  | 60 => ⟨S_, .i32⟩
  | 61 => ⟨S3200000, .i32⟩
  | 62 => ⟨S3200000, .i1⟩
  | 63 => ⟨S_, .i32⟩
  | 64 => ⟨S3200000, .i32⟩
  | 65 => ⟨S3200000, .i32⟩
  | 66 => ⟨S3200000, .i32⟩
  | 67 => ⟨S3200000x1, .i32⟩
  | 68 => ⟨S3200000x32, .f32⟩
  | 69 => ⟨S3200000x32, .f32⟩
  | 70 => ⟨S3200000x32, .f32⟩
  | 71 => ⟨S_, .f32⟩
  | 72 => ⟨S200000x32, .f32⟩
  | 73 => ⟨S3200000x1, .i32⟩
  | 74 => ⟨S200000x32, .f32⟩
  | 75 => ⟨S200000x32, .f32⟩
  | 76 => ⟨S200000x32, .f32⟩
  | 77 => ⟨S1x32, .f32⟩
  | 78 => ⟨S200000x32, .f32⟩
  | 79 => ⟨S200000x32, .f32⟩
  | 80 => ⟨S_, .f32⟩
  | 81 => ⟨S200000x32, .f32⟩
  | 82 => ⟨S200000x32, .f32⟩
  | 83 => ⟨S_, .f32⟩
  | 84 => ⟨S200000x32, .f32⟩
  | 85 => ⟨S200000x32, .f32⟩
  | 86 => ⟨S1x3200000, .i32⟩
  | 87 => ⟨S3200000, .i32⟩
  | 88 => ⟨S1x3200000, .i32⟩
  | 89 => ⟨S3200000, .i32⟩
  | 90 => ⟨S200000x32, .f32⟩
  | 91 => ⟨S3200000x1, .f32⟩
  | 92 => ⟨S_, .i32⟩
  | 93 => ⟨S3200000, .i32⟩
  | 94 => ⟨S3200000, .i1⟩
  | 95 => ⟨S_, .i32⟩
  | 96 => ⟨S3200000, .i32⟩
  | 97 => ⟨S3200000, .i32⟩
  | 98 => ⟨S3200000, .i32⟩
  | 99 => ⟨S3200000x1, .i32⟩
  | 100 => ⟨S3200000x32, .f32⟩
  | 101 => ⟨S3200000x32, .f32⟩
  | 102 => ⟨S3200000x32, .f32⟩
  | 103 => ⟨S_, .f32⟩
  | 104 => ⟨S200000x32, .f32⟩
  | 105 => ⟨S3200000x1, .i32⟩
  | 106 => ⟨S200000x32, .f32⟩
  | 107 => ⟨S200000x32, .f32⟩
  | 108 => ⟨S200000x32, .f32⟩
  | 109 => ⟨S1x32, .f32⟩
  | 110 => ⟨S200000x32, .f32⟩
  | 111 => ⟨S200000x32, .f32⟩
  | 112 => ⟨S_, .f32⟩
  | 113 => ⟨S200000x32, .f32⟩
  | 114 => ⟨S200000x32, .f32⟩
  | 115 => ⟨S_, .f32⟩
  | 116 => ⟨S200000x32, .f32⟩
  | 117 => ⟨S200000x32, .f32⟩
  | 118 => ⟨S1x3200000, .i32⟩
  | 119 => ⟨S3200000, .i32⟩
  | 120 => ⟨S1x3200000, .i32⟩
  | 121 => ⟨S3200000, .i32⟩
  | 122 => ⟨S200000x32, .f32⟩
  | 123 => ⟨S3200000x1, .f32⟩
  | 124 => ⟨S_, .i32⟩
  | 125 => ⟨S3200000, .i32⟩
  | 126 => ⟨S3200000, .i1⟩
  | 127 => ⟨S_, .i32⟩
  | _ => ⟨S200000x8, .f32⟩

abbrev hbmTy0_1 (i : Nat) : BufTy := match i % 128 with
  | 0 => ⟨S3200000, .i32⟩
  | 1 => ⟨S3200000, .i32⟩
  | 2 => ⟨S3200000, .i32⟩
  | 3 => ⟨S3200000x1, .i32⟩
  | 4 => ⟨S3200000x32, .f32⟩
  | 5 => ⟨S3200000x32, .f32⟩
  | 6 => ⟨S3200000x32, .f32⟩
  | 7 => ⟨S_, .f32⟩
  | 8 => ⟨S200000x32, .f32⟩
  | 9 => ⟨S3200000x1, .i32⟩
  | 10 => ⟨S200000x32, .f32⟩
  | 11 => ⟨S200000x32, .f32⟩
  | 12 => ⟨S200000x32, .f32⟩
  | 13 => ⟨S1x32, .f32⟩
  | 14 => ⟨S200000x32, .f32⟩
  | 15 => ⟨S200000x32, .f32⟩
  | 16 => ⟨S_, .f32⟩
  | 17 => ⟨S200000x32, .f32⟩
  | 18 => ⟨S200000x32, .f32⟩
  | 19 => ⟨S_, .f32⟩
  | 20 => ⟨S200000x32, .f32⟩
  | 21 => ⟨S200000x32, .f32⟩
  | 22 => ⟨S_, .f32⟩
  | 23 => ⟨S4000x32, .f32⟩
  | 24 => ⟨S200000x1, .i32⟩
  | 25 => ⟨S4000x32, .f32⟩
  | 26 => ⟨S_, .f32⟩
  | 27 => ⟨S200000, .f32⟩
  | 28 => ⟨S_, .f32⟩
  | 29 => ⟨S4000, .f32⟩
  | 30 => ⟨S200000x1, .i32⟩
  | 31 => ⟨S4000, .f32⟩
  | 32 => ⟨S_, .f32⟩
  | 33 => ⟨S4000, .f32⟩
  | 34 => ⟨S4000, .f32⟩
  | 35 => ⟨S4000x1, .f32⟩
  | 36 => ⟨S4000x32, .f32⟩
  | 37 => ⟨S4000x32, .f32⟩
  | 38 => ⟨S4000x1, .f32⟩
  | 39 => ⟨S1x1, .f32⟩
  | 40 => ⟨S4000x1, .f32⟩
  | 41 => ⟨S4000x1, .f32⟩
  | 42 => ⟨S4000x1, .f32⟩
  | 43 => ⟨S4000x1, .f32⟩
  | 44 => ⟨S_, .f32⟩
  | 45 => ⟨S4000x1, .f32⟩
  | 46 => ⟨S4000x1, .f32⟩
  | 47 => ⟨S_, .f32⟩
  | 48 => ⟨S4000x1, .f32⟩
  | 49 => ⟨S4000x1, .f32⟩
  | _ => ⟨S200000x8, .f32⟩

abbrev hbmTy (i : Nat) : BufTy := match i / 128 with
  | 0 => hbmTy0_0 i
  | 1 => hbmTy0_1 i
  | _ => ⟨S200000x8, .f32⟩

abbrev bufTy : (tb : Table) → Fin (tcTables nBuf tb) → BufTy
  | .hbm, ⟨i, _⟩ => hbmTy i
  | _, _ => ⟨S200000x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_cst_2 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v13 : Ref sig .tc := ⟨.hbm, 34, rfl⟩
abbrev main_c : Ref sig .tc := ⟨.hbm, 35, rfl⟩
abbrev main_v14 : Ref sig .tc := ⟨.hbm, 36, rfl⟩
abbrev main_v15 : Ref sig .tc := ⟨.hbm, 37, rfl⟩
abbrev main_c_4 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_c_5 : Ref sig .tc := ⟨.hbm, 44, rfl⟩
abbrev main_v21 : Ref sig .tc := ⟨.hbm, 45, rfl⟩
abbrev main_v22 : Ref sig .tc := ⟨.hbm, 46, rfl⟩
abbrev main_c_6 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_c_7 : Ref sig .tc := ⟨.hbm, 60, rfl⟩
abbrev main_v35 : Ref sig .tc := ⟨.hbm, 61, rfl⟩
abbrev main_v36 : Ref sig .tc := ⟨.hbm, 62, rfl⟩
abbrev main_c_8 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst_9 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_call1_cst : Ref sig .tc := ⟨.hbm, 80, rfl⟩
abbrev main_call1_v0 : Ref sig .tc := ⟨.hbm, 81, rfl⟩
abbrev main_v52 : Ref sig .tc := ⟨.hbm, 82, rfl⟩
abbrev main_call2_cst : Ref sig .tc := ⟨.hbm, 83, rfl⟩
abbrev main_call2_v0 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_c_10 : Ref sig .tc := ⟨.hbm, 92, rfl⟩
abbrev main_v60 : Ref sig .tc := ⟨.hbm, 93, rfl⟩
abbrev main_v61 : Ref sig .tc := ⟨.hbm, 94, rfl⟩
abbrev main_c_11 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_cst_12 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_call3_cst : Ref sig .tc := ⟨.hbm, 112, rfl⟩
abbrev main_call3_v0 : Ref sig .tc := ⟨.hbm, 113, rfl⟩
abbrev main_v77 : Ref sig .tc := ⟨.hbm, 114, rfl⟩
abbrev main_call4_cst : Ref sig .tc := ⟨.hbm, 115, rfl⟩
abbrev main_call4_v0 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_c_13 : Ref sig .tc := ⟨.hbm, 124, rfl⟩
abbrev main_v85 : Ref sig .tc := ⟨.hbm, 125, rfl⟩
abbrev main_v86 : Ref sig .tc := ⟨.hbm, 126, rfl⟩
abbrev main_c_14 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_cst_15 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_call5_cst : Ref sig .tc := ⟨.hbm, 144, rfl⟩
abbrev main_call5_v0 : Ref sig .tc := ⟨.hbm, 145, rfl⟩
abbrev main_v102 : Ref sig .tc := ⟨.hbm, 146, rfl⟩
abbrev main_call6_cst : Ref sig .tc := ⟨.hbm, 147, rfl⟩
abbrev main_call6_v0 : Ref sig .tc := ⟨.hbm, 148, rfl⟩
abbrev main_v103 : Ref sig .tc := ⟨.hbm, 149, rfl⟩
abbrev main_cst_16 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_cst_17 : Ref sig .tc := ⟨.hbm, 154, rfl⟩
abbrev main_v107 : Ref sig .tc := ⟨.hbm, 155, rfl⟩
abbrev main_cst_18 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_cst_19 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_cst_20 : Ref sig .tc := ⟨.hbm, 172, rfl⟩
abbrev main_v122 : Ref sig .tc := ⟨.hbm, 173, rfl⟩
abbrev main_v123 : Ref sig .tc := ⟨.hbm, 174, rfl⟩
abbrev main_cst_21 : Ref sig .tc := ⟨.hbm, 175, rfl⟩
abbrev main_v124 : Ref sig .tc := ⟨.hbm, 176, rfl⟩
abbrev main_v125 : Ref sig .tc := ⟨.hbm, 177, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S200000 : S_.BroadcastsInDim S200000 (![] : Fin 0 → Fin S200000.rank)
  bcast_S3200000_S3200000x1_0 : S3200000.BroadcastsInDim S3200000x1 (![0] : Fin 1 → Fin S3200000x1.rank)
  bcast_S3200000x1_S3200000x32_0_1 : S3200000x1.BroadcastsInDim S3200000x32 (![0, 1] : Fin 2 → Fin S3200000x32.rank)
  bcast_S_S200000x32 : S_.BroadcastsInDim S200000x32 (![] : Fin 0 → Fin S200000x32.rank)
  bcast_S32_S1x32_1 : S32.BroadcastsInDim S1x32 (![1] : Fin 1 → Fin S1x32.rank)
  bcast_S1x32_S200000x32_0_1 : S1x32.BroadcastsInDim S200000x32 (![0, 1] : Fin 2 → Fin S200000x32.rank)
  bcast_S_S4000x32 : S_.BroadcastsInDim S4000x32 (![] : Fin 0 → Fin S4000x32.rank)
  bcast_S200000_S200000x1_0 : S200000.BroadcastsInDim S200000x1 (![0] : Fin 1 → Fin S200000x1.rank)
  bcast_S_S4000 : S_.BroadcastsInDim S4000 (![] : Fin 0 → Fin S4000.rank)
  bcast_S4000_S4000x1_0 : S4000.BroadcastsInDim S4000x1 (![0] : Fin 1 → Fin S4000x1.rank)
  bcast_S4000x1_S4000x32_0_1 : S4000x1.BroadcastsInDim S4000x32 (![0, 1] : Fin 2 → Fin S4000x32.rank)
  bcast_S1_S1x1_1 : S1.BroadcastsInDim S1x1 (![1] : Fin 1 → Fin S1x1.rank)
  bcast_S1x1_S4000x1_0_1 : S1x1.BroadcastsInDim S4000x1 (![0, 1] : Fin 2 → Fin S4000x1.rank)
  bcast_S_S4000x1 : S_.BroadcastsInDim S4000x1 (![] : Fin 0 → Fin S4000x1.rank)
  scatter_S200000_S3200000x1_S3200000_n_0_0_1_wf : ScatterDims.WF S200000 S3200000x1 S3200000 [] [0] [0] 1
  gather_S200000_S3200000x1_S3200000_n_0_n_n_0_1_1_wf : GatherDims.WF S200000 S3200000x1 S3200000 [] [0] [] [0] [] 1 ![1]
  dot_S200000x8_S8x32_S200000x32_1_0_0_1_n_n_wf : DotDims.WF S200000x8 S8x32 S200000x32 [1] [0] [0] [1] [] []
  gather_S200000x32_S3200000x1_S3200000x32_1_0_n_n_0_1_132_wf : GatherDims.WF S200000x32 S3200000x1 S3200000x32 [1] [0] [] [0] [] 1 ![1, 32]
  scatter_S200000x32_S3200000x1_S3200000x32_1_0_0_1_wf : ScatterDims.WF S200000x32 S3200000x1 S3200000x32 [1] [0] [0] 1
  dot_S200000x32_S32x32_S200000x32_1_0_0_1_n_n_wf : DotDims.WF S200000x32 S32x32 S200000x32 [1] [0] [0] [1] [] []
  scatter_S4000x32_S200000x1_S200000x32_1_0_0_1_wf : ScatterDims.WF S4000x32 S200000x1 S200000x32 [1] [0] [0] 1
  scatter_S4000_S200000x1_S200000_n_0_0_1_wf : ScatterDims.WF S4000 S200000x1 S200000 [] [0] [0] 1
  dot_S4000x32_S32x1_S4000x1_1_0_0_1_n_n_wf : DotDims.WF S4000x32 S32x1 S4000x1 [1] [0] [0] [1] [] []

variable [Facts₀]

def scatter_S200000_S3200000x1_S3200000_n_0_0_1 : ScatterDims S200000 S3200000x1 S3200000 where
  updateWindowDims := []
  insertedWindowDims := [0]
  scatterDimsToOperandDims := [0]
  indexVectorDim := 1
  wf := scatter_S200000_S3200000x1_S3200000_n_0_0_1_wf
def gather_S200000_S3200000x1_S3200000_n_0_n_n_0_1_1 : GatherDims S200000 S3200000x1 S3200000 where
  offsetDims := []
  collapsedSliceDims := [0]
  operandBatchingDims := []
  startIndicesBatchingDims := []
  startIndexMap := [0]
  indexVectorDim := 1
  sliceSizes := ![1]
  wf := gather_S200000_S3200000x1_S3200000_n_0_n_n_0_1_1_wf
def dot_S200000x8_S8x32_S200000x32_1_0_0_1_n_n : DotDims S200000x8 S8x32 S200000x32 where
  lhsContracting := [1]
  rhsContracting := [0]
  lhsNonContracting := [0]
  rhsNonContracting := [1]
  lhsBatch := []
  rhsBatch := []
  wf := dot_S200000x8_S8x32_S200000x32_1_0_0_1_n_n_wf
def gather_S200000x32_S3200000x1_S3200000x32_1_0_n_n_0_1_132 : GatherDims S200000x32 S3200000x1 S3200000x32 where
  offsetDims := [1]
  collapsedSliceDims := [0]
  operandBatchingDims := []
  startIndicesBatchingDims := []
  startIndexMap := [0]
  indexVectorDim := 1
  sliceSizes := ![1, 32]
  wf := gather_S200000x32_S3200000x1_S3200000x32_1_0_n_n_0_1_132_wf
def scatter_S200000x32_S3200000x1_S3200000x32_1_0_0_1 : ScatterDims S200000x32 S3200000x1 S3200000x32 where
  updateWindowDims := [1]
  insertedWindowDims := [0]
  scatterDimsToOperandDims := [0]
  indexVectorDim := 1
  wf := scatter_S200000x32_S3200000x1_S3200000x32_1_0_0_1_wf
def dot_S200000x32_S32x32_S200000x32_1_0_0_1_n_n : DotDims S200000x32 S32x32 S200000x32 where
  lhsContracting := [1]
  rhsContracting := [0]
  lhsNonContracting := [0]
  rhsNonContracting := [1]
  lhsBatch := []
  rhsBatch := []
  wf := dot_S200000x32_S32x32_S200000x32_1_0_0_1_n_n_wf
def scatter_S4000x32_S200000x1_S200000x32_1_0_0_1 : ScatterDims S4000x32 S200000x1 S200000x32 where
  updateWindowDims := [1]
  insertedWindowDims := [0]
  scatterDimsToOperandDims := [0]
  indexVectorDim := 1
  wf := scatter_S4000x32_S200000x1_S200000x32_1_0_0_1_wf
def scatter_S4000_S200000x1_S200000_n_0_0_1 : ScatterDims S4000 S200000x1 S200000 where
  updateWindowDims := []
  insertedWindowDims := [0]
  scatterDimsToOperandDims := [0]
  indexVectorDim := 1
  wf := scatter_S4000_S200000x1_S200000_n_0_0_1_wf
def dot_S4000x32_S32x1_S4000x1_1_0_0_1_n_n : DotDims S4000x32 S32x1 S4000x1 where
  lhsContracting := [1]
  rhsContracting := [0]
  lhsNonContracting := [0]
  rhsNonContracting := [1]
  lhsBatch := []
  rhsBatch := []
  wf := dot_S4000x32_S32x1_S4000x1_1_0_0_1_n_n_wf

class Facts : Prop extends Facts₀ where

variable [Facts]
-- ==== Proof.Model.lean ====
/-
  The graph network both programs compute, as ONE function of the argument arrays.

  Nodes carry feature rows; `edge_index` lists, per edge, its source node (row 0) and its target node (row 1).
  * `degOf`: the number of edges arriving at each node; `dinvOf`: its inverse square root where positive, zero elsewhere.
  * `normOf`: per edge, the product of `dinv` at its source and at its target (indices read as jnp reads them:
    a negative index counted from the end, `wrapIdx`, then clamped into the table by the gather).
  * `aggOf`: the normalised adjacency applied to a feature table `t`: row `n` of the result is the sum, over the edges
    arriving at `n`, of `norm` times the source node's row of `t`.
  * `layerOf8` / `layerOf32`: `relu (A (h W) + h V + b)` (the reference applies relu twice).
  * `poolOf`: per graph, the mean of its nodes' rows (the count floored at one), a dense map to one output, the logistic.
  Everything is spelt with the host operations the reference's printed program uses, so that the reference's run
  states exactly `model` of its arguments.
-/
import proofs.«414211_j44186623541334_1_alg».proof.ReferenceIdeal

noncomputable section

namespace Cert.Arma

open Idealize.ShloMosaic Cert.ReferenceIdeal

-- the reference program's stated shape facts (each broadcast, slice and reshape is well formed): its printed
-- operations cite them, and so do these definitions
variable [Cert.ReferenceIdeal.Facts]
open Cert.ReferenceIdeal.Facts₀ Cert.ReferenceIdeal.Facts

variable {F : FTy → Type} [FloatOps F]

/-- The source node of every edge. -/
def rowOf (ei : IVec S2x3200000 32) : IVec S3200000 32 :=
  shapeCast _ (extractStridedSlice S1x3200000 ![0, 0] ei slices_S2x3200000_S1x3200000_0_0) shapeCasts_S1x3200000_S3200000

/-- The target node of every edge. -/
def colOf (ei : IVec S2x3200000 32) : IVec S3200000 32 :=
  shapeCast _ (extractStridedSlice S1x3200000 ![1, 0] ei slices_S2x3200000_S1x3200000_1_0) shapeCasts_S1x3200000_S3200000

/-- An index as jnp reads it: a negative one counts from the end of the 200000 nodes. -/
def wrapIdx (r : IVec S3200000 32) : IVec S3200000 32 :=
  select (cmpi .slt r (broadcastInDim S3200000 ![] bcast_S_S3200000 (constantI S_ 32 0#32))) (addi r (broadcastInDim S3200000 ![] bcast_S_S3200000 (constantI S_ 32 200000#32))) r

/-- The zero feature table. -/
def zeroRows : FVec F S200000x32 .f32 := broadcastInDim S200000x32 ![] bcast_S_S200000x32 (constant S_ .f32 0x00000000#32)

/-- How many edges arrive at each node. -/
def degOf (ei : IVec S2x3200000 32) : FVec F S200000 .f32 :=
  Host.scatterAdd scatter_S200000_S3200000x1_S3200000_n_0_0_1 (broadcastInDim S200000 ![] bcast_S_S200000 (constant S_ .f32 0x00000000#32)) (broadcastInDim S3200000x1 ![0] bcast_S3200000_S3200000x1_0 (colOf ei)) (broadcastInDim S3200000 ![] bcast_S_S3200000 (constant S_ .f32 0x3F800000#32))

/-- The inverse square root of a node's degree where it is positive (the degree floored at 1e-12 under the root), zero elsewhere. -/
def dinvOf (ei : IVec S2x3200000 32) : FVec F S200000 .f32 :=
  select (cmpf .ogt (degOf (F := F) ei) (broadcastInDim S200000 ![] bcast_S_S200000 (constant S_ .f32 0x00000000#32))) (Host.rsqrt (maximumf (degOf (F := F) ei) (broadcastInDim S200000 ![] bcast_S_S200000 (constant S_ .f32 0x2B8CBCCC#32)))) (broadcastInDim S200000 ![] bcast_S_S200000 (id (constant S_ .f32 0x00000000#32)))

/-- Per edge: `dinv` at its source times `dinv` at its target. -/
def normOf (ei : IVec S2x3200000 32) : FVec F S3200000 .f32 :=
  mulf (Host.gather gather_S200000_S3200000x1_S3200000_n_0_n_n_0_1_1 (dinvOf (F := F) ei) (broadcastInDim S3200000x1 ![0] bcast_S3200000_S3200000x1_0 (wrapIdx (rowOf ei)))) (Host.gather gather_S200000_S3200000x1_S3200000_n_0_n_n_0_1_1 (dinvOf (F := F) ei) (broadcastInDim S3200000x1 ![0] bcast_S3200000_S3200000x1_0 (wrapIdx (colOf ei))))

/-- The source node's row of a feature table, per edge. -/
def gatherRows (ei : IVec S2x3200000 32) (t : FVec F S200000x32 .f32) : FVec F S3200000x32 .f32 :=
  Host.gather gather_S200000x32_S3200000x1_S3200000x32_1_0_n_n_0_1_132 t (broadcastInDim S3200000x1 ![0] bcast_S3200000_S3200000x1_0 (wrapIdx (rowOf ei)))

/-- Per-edge messages (an [edges, 32] table) summed into their target nodes' rows. -/
def scatterRows (ei : IVec S2x3200000 32) (msg : FVec F S3200000x32 .f32) : FVec F S200000x32 .f32 :=
  Host.scatterAdd scatter_S200000x32_S3200000x1_S3200000x32_1_0_0_1 zeroRows (broadcastInDim S3200000x1 ![0] bcast_S3200000_S3200000x1_0 (colOf ei)) msg

/-- The edge weights laid along the 32 features. -/
def normRows (ei : IVec S2x3200000 32) : FVec F S3200000x32 .f32 :=
  broadcastInDim S3200000x32 ![0, 1] bcast_S3200000x1_S3200000x32_0_1 (broadcastInDim S3200000x1 ![0] bcast_S3200000_S3200000x1_0 (normOf (F := F) ei))

/-- The normalised adjacency applied to a feature table. -/
def aggOf (ei : IVec S2x3200000 32) (t : FVec F S200000x32 .f32) : FVec F S200000x32 .f32 :=
  scatterRows ei (mulf (normRows ei) (gatherRows ei t))

/-- A bias vector laid along the nodes. -/
def biasRows (b : FVec F S32 .f32) : FVec F S200000x32 .f32 :=
  broadcastInDim S200000x32 ![0, 1] bcast_S1x32_S200000x32_0_1 (broadcastInDim S1x32 ![1] bcast_S32_S1x32_1 b)

/-- relu of a feature table. -/
def relu0 (t : FVec F S200000x32 .f32) : FVec F S200000x32 .f32 := maximumf t zeroRows

/-- The first layer (8 input features). -/
def layerOf8 (ei : IVec S2x3200000 32) (h : FVec F S200000x8 .f32) (w v : FVec F S8x32 .f32) (b : FVec F S32 .f32) : FVec F S200000x32 .f32 :=
  relu0 (relu0 (addf (addf (aggOf ei (Host.dotGeneral dot_S200000x8_S8x32_S200000x32_1_0_0_1_n_n none h w)) (Host.dotGeneral dot_S200000x8_S8x32_S200000x32_1_0_0_1_n_n none h v)) (biasRows b)))

/-- A later layer (32 input features). -/
def layerOf32 (ei : IVec S2x3200000 32) (h : FVec F S200000x32 .f32) (w v : FVec F S32x32 .f32) (b : FVec F S32 .f32) : FVec F S200000x32 .f32 :=
  relu0 (relu0 (addf (addf (aggOf ei (Host.dotGeneral dot_S200000x32_S32x32_S200000x32_1_0_0_1_n_n none h w)) (Host.dotGeneral dot_S200000x32_S32x32_S200000x32_1_0_0_1_n_n none h v)) (biasRows b)))

/-- Per graph, the sum of its nodes' rows. -/
def sumsOf (bt : IVec S200000 32) (h : FVec F S200000x32 .f32) : FVec F S4000x32 .f32 :=
  Host.scatterAdd scatter_S4000x32_S200000x1_S200000x32_1_0_0_1 (broadcastInDim S4000x32 ![] bcast_S_S4000x32 (constant S_ .f32 0x00000000#32)) (broadcastInDim S200000x1 ![0] bcast_S200000_S200000x1_0 bt) h

/-- Per graph, the number of its nodes. -/
def cntsOf (bt : IVec S200000 32) : FVec F S4000 .f32 :=
  Host.scatterAdd scatter_S4000_S200000x1_S200000_n_0_0_1 (broadcastInDim S4000 ![] bcast_S_S4000 (constant S_ .f32 0x00000000#32)) (broadcastInDim S200000x1 ![0] bcast_S200000_S200000x1_0 bt) (broadcastInDim S200000 ![] bcast_S_S200000 (constant S_ .f32 0x3F800000#32))

/-- The logistic of a [4000, 1] table, as jax spells it on the host: `1 / (1 + exp (-z))`. -/
def logisticHost (z : FVec F S4000x1 .f32) : FVec F S4000x1 .f32 :=
  Host.divf (broadcastInDim S4000x1 ![] bcast_S_S4000x1 (constant S_ .f32 0x3F800000#32)) (addf (broadcastInDim S4000x1 ![] bcast_S_S4000x1 (constant S_ .f32 0x3F800000#32)) (Host.exp (Host.negf z)))

/-- Mean pool per graph (count floored at one), the dense map to one output, the logistic. -/
def poolOf (bt : IVec S200000 32) (h : FVec F S200000x32 .f32) (dw : FVec F S32x1 .f32) (db : FVec F S1 .f32) : FVec F S4000x1 .f32 :=
  logisticHost (addf (Host.dotGeneral dot_S4000x32_S32x1_S4000x1_1_0_0_1_n_n none (Host.divf (sumsOf bt h) (broadcastInDim S4000x32 ![0, 1] bcast_S4000x1_S4000x32_0_1 (broadcastInDim S4000x1 ![0] bcast_S4000_S4000x1_0 (maximumf (cntsOf (F := F) bt) (broadcastInDim S4000 ![] bcast_S_S4000 (constant S_ .f32 0x3F800000#32)))))) dw) (broadcastInDim S4000x1 ![0, 1] bcast_S1x1_S4000x1_0_1 (broadcastInDim S1x1 ![1] bcast_S1_S1x1_1 db)))

/-! ## The same pieces as the kernel's calls compute them (each joined to the above in Proof/Algebra.lean) -/

/-- A dense map of 8-feature rows. -/
def dense8 (h : FVec F S200000x8 .f32) (w : FVec F S8x32 .f32) : FVec F S200000x32 .f32 :=
  Host.dotGeneral dot_S200000x8_S8x32_S200000x32_1_0_0_1_n_n none h w

/-- A dense map of 32-feature rows. -/
def dense32 (h : FVec F S200000x32 .f32) (w : FVec F S32x32 .f32) : FVec F S200000x32 .f32 :=
  Host.dotGeneral dot_S200000x32_S32x32_S200000x32_1_0_0_1_n_n none h w

/-- A [1, 32] bias row added to every node's row. -/
def addBiasRow (t : FVec F S200000x32 .f32) (b : FVec F S1x32 .f32) : FVec F S200000x32 .f32 :=
  addf t (broadcastInDim S200000x32 ![0, 1] bcast_S1x32_S200000x32_0_1 b)

/-- The pooled head over a [4000, 1] column of node counts and a [1, 1] bias: the sums over the counts floored at one,
    the dense map to one output, the bias, the logistic. -/
def poolHead (sums : FVec F S4000x32 .f32) (cnt : FVec F S4000x1 .f32) (dw : FVec F S32x1 .f32) (db : FVec F S1x1 .f32) : FVec F S4000x1 .f32 :=
  logisticHost (addf (Host.dotGeneral dot_S4000x32_S32x1_S4000x1_1_0_0_1_n_n none (Host.divf sums (broadcastInDim S4000x32 ![0, 1] bcast_S4000x1_S4000x32_0_1 (maximumf cnt (broadcastInDim S4000x1 ![] bcast_S_S4000x1 (constant S_ .f32 0x3F800000#32))))) dw) (broadcastInDim S4000x1 ![0, 1] bcast_S1x1_S4000x1_0_1 db))

/-- The whole network. -/
def model (x : FVec F S200000x8 .f32) (ei : IVec S2x3200000 32) (bt : IVec S200000 32) (w1 v1 : FVec F S8x32 .f32) (b1 : FVec F S32 .f32)
    (w2 v2 : FVec F S32x32 .f32) (b2 : FVec F S32 .f32) (w3 v3 : FVec F S32x32 .f32) (b3 : FVec F S32 .f32) (dw : FVec F S32x1 .f32) (db : FVec F S1 .f32) :
    FVec F S4000x1 .f32 :=
  poolOf bt (layerOf32 ei (layerOf32 ei (layerOf8 ei x w1 v1 b1) w2 v2 b2) w3 v3 b3) dw db

end Cert.Arma

end
-- ==== Proof.KDefs.lean ====
/-
  The kernel program's host stretches, as functions of the arrays they read (spelt with the kernel program's own
  shape facts and records, operation for operation as its printed @main has them):
  * `rowVec` / `colVec` / `oneVec`: the reshapes [32] → [1, 32], [4000] → [4000, 1], [1] → [1, 1];
  * `wrapK`: an index as jnp reads it (a negative one counts from the end);
  * `takeRows`: jnp.take in its default mode — the gathered row where the wrapped index lies in [0, 199999], the
    float pattern 0x7FC00000 elsewhere;
  * `aggTake`: the per-edge weights times the taken rows, summed into the target nodes' rows;
  * `sumsK` / `cntsK`: per graph, the sum of its nodes' rows and the number of its nodes.
-/
import proofs.«414211_j44186623541334_1_alg».proof.KernelIdeal

noncomputable section

namespace Cert.Arma.K

open Idealize.ShloMosaic Cert.KernelIdeal

-- the kernel program's stated shape facts: its printed operations cite them, and so do these definitions
variable [Cert.KernelIdeal.Facts]
open Cert.KernelIdeal.Facts₀ Cert.KernelIdeal.Facts

variable {F : FTy → Type} [FloatOps F]

/-- A [32] bias as a [1, 32] row. -/
def rowVec (b : FVec F S32 .f32) : FVec F S1x32 .f32 := shapeCast S1x32 b shapeCasts_S32_S1x32

/-- A [4000] vector as a [4000, 1] column. -/
def colVec (x : FVec F S4000 .f32) : FVec F S4000x1 .f32 := shapeCast S4000x1 x shapeCasts_S4000_S4000x1

/-- A [1] vector as a [1, 1] table. -/
def oneVec (x : FVec F S1 .f32) : FVec F S1x1 .f32 := shapeCast S1x1 x shapeCasts_S1_S1x1

/-- An index as jnp reads it: a negative one counts from the end of the 200000 nodes. -/
def wrapK (r : IVec S3200000 32) : IVec S3200000 32 :=
  select (cmpi .slt r (broadcastInDim S3200000 ![] bcast_S_S3200000 (constantI S_ 32 0#32))) (addi r (broadcastInDim S3200000 ![] bcast_S_S3200000 (constantI S_ 32 200000#32))) r

/-- The wrapped indices as an [edges, 1] column of start indices. -/
def idxCol (r : IVec S3200000 32) : IVec S3200000x1 32 := broadcastInDim S3200000x1 ![0] bcast_S3200000_S3200000x1_0 (wrapK r)

/-- Per edge: does the wrapped index lie in [0, 199999]? -/
def inRange (r : IVec S3200000 32) : IVec S3200000 1 :=
  Host.reduce IntOp.andi (andi (cmpi .sge (idxCol r) (broadcastInDim S3200000x1 ![] bcast_S_S3200000x1 (constantI S_ 32 0#32))) (cmpi .sle (idxCol r) (broadcastInDim S3200000x1 ![0, 1] bcast_S1x1_S3200000x1_0_1 (broadcastInDim S1x1 ![1] bcast_S1_S1x1_1 (constantI S1 32 199999#32))))) (constantI S_ 1 1#1) reducesTo_S3200000x1_S3200000_d1 h_S_

/-- jnp.take along the node axis, default mode: the row at the wrapped index where it is in range, 0x7FC00000 elsewhere. -/
def takeRows (r : IVec S3200000 32) (t : FVec F S200000x32 .f32) : FVec F S3200000x32 .f32 :=
  select (broadcastInDim S3200000x32 ![0] bcast_S3200000_S3200000x32_0 (inRange r)) (Host.gather gather_S200000x32_S3200000x1_S3200000x32_1_0_n_n_0_1_132 t (idxCol r)) (broadcastInDim S3200000x32 ![] bcast_S_S3200000x32 (constant S_ .f32 0x7FC00000#32))

/-- The per-edge weights times the taken rows, summed into the target nodes' rows. -/
def aggTake (row col : IVec S3200000 32) (norm : FVec F S3200000 .f32) (t : FVec F S200000x32 .f32) : FVec F S200000x32 .f32 :=
  Host.scatterAdd scatter_S200000x32_S3200000x1_S3200000x32_1_0_0_1 (broadcastInDim S200000x32 ![] bcast_S_S200000x32 (constant S_ .f32 0x00000000#32)) (broadcastInDim S3200000x1 ![0] bcast_S3200000_S3200000x1_0 col) (mulf (broadcastInDim S3200000x32 ![0, 1] bcast_S3200000x1_S3200000x32_0_1 (broadcastInDim S3200000x1 ![0] bcast_S3200000_S3200000x1_0 norm)) (takeRows row t))

/-- Per graph, the sum of its nodes' rows. -/
def sumsK (bt : IVec S200000 32) (h : FVec F S200000x32 .f32) : FVec F S4000x32 .f32 :=
  Host.scatterAdd scatter_S4000x32_S200000x1_S200000x32_1_0_0_1 (broadcastInDim S4000x32 ![] bcast_S_S4000x32 (constant S_ .f32 0x00000000#32)) (broadcastInDim S200000x1 ![0] bcast_S200000_S200000x1_0 bt) h

/-- Per graph, the number of its nodes. -/
def cntsK (bt : IVec S200000 32) : FVec F S4000 .f32 :=
  Host.scatterAdd scatter_S4000_S200000x1_S200000_n_0_0_1 (broadcastInDim S4000 ![] bcast_S_S4000 (constant S_ .f32 0x00000000#32)) (broadcastInDim S200000x1 ![0] bcast_S200000_S200000x1_0 bt) (broadcastInDim S200000 ![] bcast_S_S200000 (constant S_ .f32 0x3F800000#32))

end Cert.Arma.K

end
-- ==== Proof.KNorm.lean ====
/-
  The kernel program's first host stretches, as functions of the edge list (spelt with the kernel program's own shape
  facts and records, operation for operation as its printed @main has them): the source and target rows of the edge
  list, each node's in-degree, its inverse square root where positive, and the per-edge weight — the same functions as
  the model's `rowOf`, `colOf`, `degOf`, `dinvOf`, `normOf`.
-/
import proofs.«414211_j44186623541334_1_alg».proof.Proof.KDefs

noncomputable section

namespace Cert.Arma.K

open Idealize.ShloMosaic Cert.KernelIdeal

variable [Cert.KernelIdeal.Facts]
open Cert.KernelIdeal.Facts₀ Cert.KernelIdeal.Facts

variable {F : FTy → Type} [FloatOps F]

/-- The source node of every edge. -/
def rowK (ei : IVec S2x3200000 32) : IVec S3200000 32 :=
  shapeCast S3200000 (extractStridedSlice S1x3200000 ![0, 0] ei slices_S2x3200000_S1x3200000_0_0) shapeCasts_S1x3200000_S3200000

/-- The target node of every edge. -/
def colK (ei : IVec S2x3200000 32) : IVec S3200000 32 :=
  shapeCast S3200000 (extractStridedSlice S1x3200000 ![1, 0] ei slices_S2x3200000_S1x3200000_1_0) shapeCasts_S1x3200000_S3200000

/-- How many edges arrive at each node. -/
def degK (col : IVec S3200000 32) : FVec F S200000 .f32 :=
  Host.scatterAdd scatter_S200000_S3200000x1_S3200000_n_0_0_1 (broadcastInDim S200000 ![] bcast_S_S200000 (constant S_ .f32 0x00000000#32)) (broadcastInDim S3200000x1 ![0] bcast_S3200000_S3200000x1_0 col) (broadcastInDim S3200000 ![] bcast_S_S3200000 (constant S_ .f32 0x3F800000#32))

/-- Is a node's degree positive? -/
def posK (deg : FVec F S200000 .f32) : IVec S200000 1 :=
  cmpf .ogt deg (broadcastInDim S200000 ![] bcast_S_S200000 (constant S_ .f32 0x00000000#32))

/-- The inverse square root of the degree floored at 1e-12. -/
def rsqrtK (deg : FVec F S200000 .f32) : FVec F S200000 .f32 :=
  Host.rsqrt (maximumf deg (broadcastInDim S200000 ![] bcast_S_S200000 (constant S_ .f32 0x2B8CBCCC#32)))

/-- jnp.where of a mask, a table and a scalar. -/
def whereK (p : IVec S200000 1) (x : FVec F S200000 .f32) (z : FVec F S_ .f32) : FVec F S200000 .f32 :=
  select p x (broadcastInDim S200000 ![] bcast_S_S200000 (id z))

/-- The inverse square root of a node's degree where it is positive, zero elsewhere. -/
def dinvK (col : IVec S3200000 32) : FVec F S200000 .f32 :=
  whereK (posK (degK (F := F) col)) (rsqrtK (degK (F := F) col)) (constant S_ .f32 0x00000000#32)

/-- Per edge: one table read at the wrapped source index times the same table read at the wrapped target index. -/
def prodK (d : FVec F S200000 .f32) (row col : IVec S3200000 32) : FVec F S3200000 .f32 :=
  mulf (Host.gather gather_S200000_S3200000x1_S3200000_n_0_n_n_0_1_1 d (broadcastInDim S3200000x1 ![0] bcast_S3200000_S3200000x1_0 (wrapK row))) (Host.gather gather_S200000_S3200000x1_S3200000_n_0_n_n_0_1_1 d (broadcastInDim S3200000x1 ![0] bcast_S3200000_S3200000x1_0 (wrapK col)))

/-- The per-edge weight. -/
def normK (ei : IVec S2x3200000 32) : FVec F S3200000 .f32 :=
  prodK (dinvK (F := F) (colK ei)) (rowK ei) (colK ei)

end Cert.Arma.K

end
-- ==== Proof.Stretch0.lean ====
/-
  The kernel program's first host stretches (before its first call), from ANY buffer contents `W`: the edge list's source
  and target rows, the per-edge weights, the first bias as a row; no argument is written.
  And the same functions against the model's: the two programs spell them with their own copies of the same shape facts
  and records.
-/
import proofs.«414211_j44186623541334_1_alg».proof.Proof.Gen.KernelIdeal.Launch
import proofs.«414211_j44186623541334_1_alg».proof.Proof.Gen.ReferenceIdeal
import proofs.«414211_j44186623541334_1_alg».proof.Proof.Model
import proofs.«414211_j44186623541334_1_alg».proof.Proof.KNorm
import Idealize.ShloMosaic.Lib.StableHlo.Run
import Idealize.ShloMosaic.PureOps.Ideal

set_option maxRecDepth 16384

noncomputable section

open Idealize.ShloMosaic Idealize.ShloMosaic.TcCoe Idealize.SL.Sem Idealize.ShloMosaic.StableHlo
open Cert.KernelIdeal Cert.KernelIdeal.Gen

namespace Cert.Arma.Stretch0

open Cert.Arma

/-- A buffer that no operation of a host stretch writes keeps its contents across the stretch. -/
local macro "host_keep " ops:ident : tactic => `(tactic|
  exact StableHlo.after_of_forall_not_mem _ _ (List.forall_iff_forall_mem.mp (by
    simp only [$ops:ident, List.Forall, StableHlo.nullary_writes, StableHlo.unary_writes, StableHlo.binary_writes, StableHlo.ternary_writes, StableHlo.reshape_writes, Finset.mem_singleton]
    repeat' apply And.intro
    all_goals exact StableHlo.devRef_ne_of_ne (by decide))))

section Lists

variable (V : Valuation τ sig (Elt Ideal))

/-! ## The first list (the edge list's rows, the degrees, the mask and the root), from any contents -/

set_option maxHeartbeats 4000000 in
theorem s0_row : StableHlo.after hostOps0 V (Proc.devRef .tc main_v1) = K.rowK (V (Proc.devRef .tc main_arg1)) := by
  simp only [hostOps0]
  after_results_simp
  rfl

set_option maxHeartbeats 4000000 in
theorem s0_col : StableHlo.after hostOps0 V (Proc.devRef .tc main_v3) = K.colK (V (Proc.devRef .tc main_arg1)) := by
  simp only [hostOps0]
  after_results_simp
  rfl

set_option maxHeartbeats 4000000 in
theorem s0_pos : StableHlo.after hostOps0 V (Proc.devRef .tc main_v9)
    = K.posK (K.degK (F := Ideal) (K.colK (V (Proc.devRef .tc main_arg1)))) := by
  simp only [hostOps0]
  after_results_simp
  rfl

set_option maxHeartbeats 4000000 in
theorem s0_root : StableHlo.after hostOps0 V (Proc.devRef .tc main_v12)
    = K.rsqrtK (K.degK (F := Ideal) (K.colK (V (Proc.devRef .tc main_arg1)))) := by
  simp only [hostOps0]
  after_results_simp
  rfl

theorem s0_keep_arg5 : StableHlo.after hostOps0 V (Proc.devRef .tc main_arg5) = V (Proc.devRef .tc main_arg5) := by
  host_keep hostOps0

set_option maxHeartbeats 4000000 in
theorem s0_zero : StableHlo.after hostOps0 V (Proc.devRef .tc main_cst_3) = constant (F := Ideal) S_ .f32 0x00000000#32 := by
  simp only [hostOps0]
  after_results_simp

/-! ## The second list (jnp.where of the mask, the root and the zero), from any contents -/

set_option maxHeartbeats 4000000 in
theorem s1_where : StableHlo.after hostOps0_1 V (Proc.devRef .tc main_v13)
    = K.whereK (F := Ideal) (V (Proc.devRef .tc main_v9)) (V (Proc.devRef .tc main_v12)) (V (Proc.devRef .tc main_cst_3)) := by
  simp only [hostOps0_1]
  after_results_simp
  rfl

theorem s1_keep_v1 : StableHlo.after hostOps0_1 V (Proc.devRef .tc main_v1) = V (Proc.devRef .tc main_v1) := by
  host_keep hostOps0_1
theorem s1_keep_arg5 : StableHlo.after hostOps0_1 V (Proc.devRef .tc main_arg5) = V (Proc.devRef .tc main_arg5) := by
  host_keep hostOps0_1
theorem s1_keep_v3 : StableHlo.after hostOps0_1 V (Proc.devRef .tc main_v3) = V (Proc.devRef .tc main_v3) := by
  host_keep hostOps0_1

/-! ## The third list (the two wraps and gathers, their product, the bias as a row), from any contents -/

set_option maxHeartbeats 4000000 in
theorem s2_prod : StableHlo.after hostOps0_2 V (Proc.devRef .tc main_v28)
    = K.prodK (F := Ideal) (V (Proc.devRef .tc main_v13)) (V (Proc.devRef .tc main_v1)) (V (Proc.devRef .tc main_v3)) := by
  simp only [hostOps0_2]
  after_results_simp
  rfl

set_option maxHeartbeats 4000000 in
theorem s2_bias : StableHlo.after hostOps0_2 V (Proc.devRef .tc main_v29) = K.rowVec (F := Ideal) (V (Proc.devRef .tc main_arg5)) := by
  simp only [hostOps0_2]
  after_results_simp
  rfl

theorem s2_keep_v1 : StableHlo.after hostOps0_2 V (Proc.devRef .tc main_v1) = V (Proc.devRef .tc main_v1) := by
  host_keep hostOps0_2
theorem s2_keep_v3 : StableHlo.after hostOps0_2 V (Proc.devRef .tc main_v3) = V (Proc.devRef .tc main_v3) := by
  host_keep hostOps0_2

end Lists

/-- A buffer none of the three lists writes holds after them what it held before. -/
local macro "keep_through " w:ident r:ident : tactic => `(tactic|
  exact Eq.trans (b := StableHlo.after hostOps0_1 (StableHlo.after hostOps0 $w) (Proc.devRef .tc $r))
    (by host_keep hostOps0_2)
    (Eq.trans (b := StableHlo.after hostOps0 $w (Proc.devRef .tc $r)) (by host_keep hostOps0_1) (by host_keep hostOps0)))

variable (W : Valuation τ sig (Elt Ideal))

/-- The contents after the three stretches, from `W`. -/
abbrev after0 : Valuation τ sig (Elt Ideal) := StableHlo.after hostOps0_2 (StableHlo.after hostOps0_1 (StableHlo.after hostOps0 W))

theorem row : after0 W (Proc.devRef .tc main_v1) = K.rowK (W (Proc.devRef .tc main_arg1)) := by
  unfold after0
  rw [s2_keep_v1, s1_keep_v1, s0_row]
theorem col : after0 W (Proc.devRef .tc main_v3) = K.colK (W (Proc.devRef .tc main_arg1)) := by
  unfold after0
  rw [s2_keep_v3, s1_keep_v3, s0_col]
theorem norm : after0 W (Proc.devRef .tc main_v28) = K.normK (F := Ideal) (W (Proc.devRef .tc main_arg1)) := by
  unfold after0
  rw [s2_prod, s1_where, s1_keep_v1, s1_keep_v3, s0_pos, s0_root, s0_zero, s0_row, s0_col]
  unfold K.normK K.dinvK
  rfl
theorem bias : after0 W (Proc.devRef .tc main_v29) = K.rowVec (F := Ideal) (W (Proc.devRef .tc main_arg5)) := by
  unfold after0
  rw [s2_bias, s1_keep_arg5, s0_keep_arg5]
/-- No argument the later calls read is written. -/
theorem keeps : after0 W (Proc.devRef .tc main_arg0) = W (Proc.devRef .tc main_arg0)
    ∧ after0 W (Proc.devRef .tc main_arg2) = W (Proc.devRef .tc main_arg2)
    ∧ after0 W (Proc.devRef .tc main_arg3) = W (Proc.devRef .tc main_arg3)
    ∧ after0 W (Proc.devRef .tc main_arg4) = W (Proc.devRef .tc main_arg4)
    ∧ after0 W (Proc.devRef .tc main_arg6) = W (Proc.devRef .tc main_arg6)
    ∧ after0 W (Proc.devRef .tc main_arg7) = W (Proc.devRef .tc main_arg7)
    ∧ after0 W (Proc.devRef .tc main_arg8) = W (Proc.devRef .tc main_arg8)
    ∧ after0 W (Proc.devRef .tc main_arg9) = W (Proc.devRef .tc main_arg9)
    ∧ after0 W (Proc.devRef .tc main_arg10) = W (Proc.devRef .tc main_arg10)
    ∧ after0 W (Proc.devRef .tc main_arg11) = W (Proc.devRef .tc main_arg11)
    ∧ after0 W (Proc.devRef .tc main_arg12) = W (Proc.devRef .tc main_arg12)
    ∧ after0 W (Proc.devRef .tc main_arg13) = W (Proc.devRef .tc main_arg13) := by
  unfold after0
  refine ⟨?_, ?_, ?_, ?_, ?_, ?_, ?_, ?_, ?_, ?_, ?_, ?_⟩
  · keep_through W main_arg0
  · keep_through W main_arg2
  · keep_through W main_arg3
  · keep_through W main_arg4
  · keep_through W main_arg6
  · keep_through W main_arg7
  · keep_through W main_arg8
  · keep_through W main_arg9
  · keep_through W main_arg10
  · keep_through W main_arg11
  · keep_through W main_arg12
  · keep_through W main_arg13

/-! ## Against the model -/

theorem rowK_eq (ei : IVec S2x3200000 32) : K.rowK ei = rowOf ei := by
  unfold K.rowK rowOf
  rfl
theorem colK_eq (ei : IVec S2x3200000 32) : K.colK ei = colOf ei := by
  unfold K.colK colOf
  rfl
/-- The degrees: the same scatter-add of ones at the target indices. -/
theorem degK_eq (ei : IVec S2x3200000 32) : K.degK (F := Ideal) (colOf ei) = degOf (F := Ideal) ei := by
  unfold K.degK degOf
  rfl

/-- The inverse square roots: the same mask, the same root, the same zero. -/
theorem dinvK_eq (ei : IVec S2x3200000 32) : K.dinvK (F := Ideal) (colOf ei) = dinvOf (F := Ideal) ei := by
  unfold K.dinvK K.whereK K.posK K.rsqrtK dinvOf
  rw [degK_eq ei]

/-- The wrap of an index vector is spelt alike in the two programs. -/
theorem wrapK_eq (r : IVec S3200000 32) : K.wrapK r = wrapIdx r := by
  unfold K.wrapK wrapIdx
  rfl

theorem normK_eq (ei : IVec S2x3200000 32) : K.normK (F := Ideal) ei = normOf (F := Ideal) ei := by
  unfold K.normK K.prodK normOf
  rw [colK_eq ei, rowK_eq ei, dinvK_eq ei, wrapK_eq, wrapK_eq]
  rfl

end Cert.Arma.Stretch0

end
-- ==== Proof.Stretch1.lean ====
/-
  The host stretch between a dense call and its combining call (layer 1), from ANY buffer contents `W`: the rows of the
  dense call's first output taken at the wrapped source indices (the fill pattern where an index is out of range),
  weighed per edge, and summed into the target nodes' rows — `K.aggTake` of the four buffers the stretch reads.
-/
import proofs.«414211_j44186623541334_1_alg».proof.Proof.Gen.KernelIdeal.Launch
import proofs.«414211_j44186623541334_1_alg».proof.Proof.KDefs
import Idealize.ShloMosaic.Lib.StableHlo.Run
import Idealize.ShloMosaic.PureOps.Ideal

set_option maxRecDepth 16384

noncomputable section

open Idealize.ShloMosaic Idealize.ShloMosaic.TcCoe Idealize.SL.Sem Idealize.ShloMosaic.StableHlo
open Cert.KernelIdeal Cert.KernelIdeal.Gen

namespace Cert.Arma.Stretch1

open Cert.Arma

variable (W : Valuation τ sig (Elt Ideal))

variable {F : FTy → Type} [FloatOps F]

/-! ## The fold over a list cut in two -/

/-- The contents after two lists run one after the other are those after their concatenation. -/
theorem after_append (l₁ l₂ : List (HloOp τ sig (Elt F))) (X : Valuation τ sig (Elt F)) :
    StableHlo.after (l₁ ++ l₂) X = StableHlo.after l₂ (StableHlo.after l₁ X) := by
  induction l₁ generalizing X with
  | nil => rfl
  | cons op l ih => simp only [List.cons_append, StableHlo.after_cons]; exact ih _

/-! ## The take's 23 operations in five consecutive pieces

  operations 0-6 wrap the source indices; 7-11 lay them as a column and test it against zero; 12-15 test the column
  against the last node index and join the two tests; 16-18 reduce the joined test per edge and gather the rows; 19-22
  select between the gathered row and the fill pattern. -/

abbrev wrapOps : List (HloOp τ sig (Elt F)) := (hostOps1 (F := F)).take 7
abbrev colOps : List (HloOp τ sig (Elt F)) := ((hostOps1 (F := F)).drop 7).take 5
abbrev rangeOps : List (HloOp τ sig (Elt F)) := (((hostOps1 (F := F)).drop 7).drop 5).take 4
abbrev gatherOps : List (HloOp τ sig (Elt F)) := ((((hostOps1 (F := F)).drop 7).drop 5).drop 4).take 3
abbrev fillOps : List (HloOp τ sig (Elt F)) := ((((hostOps1 (F := F)).drop 7).drop 5).drop 4).drop 3

theorem pieces : (hostOps1 (F := F)) = wrapOps ++ (colOps ++ (rangeOps ++ (gatherOps ++ fillOps))) := by
  show _ = List.take 7 hostOps1 ++ (List.take 5 (List.drop 7 hostOps1) ++ (List.take 4 (List.drop 5 (List.drop 7 hostOps1))
    ++ (List.take 3 (List.drop 4 (List.drop 5 (List.drop 7 hostOps1))) ++ List.drop 3 (List.drop 4 (List.drop 5 (List.drop 7 hostOps1))))))
  rw [List.take_append_drop, List.take_append_drop, List.take_append_drop, List.take_append_drop]

/-- A buffer that no operation of a piece writes keeps its contents across the piece. -/
local macro "keep_through " piece:ident : tactic => `(tactic|
  exact StableHlo.after_of_forall_not_mem _ _ (List.forall_iff_forall_mem.mp (by
    simp only [$piece:ident, hostOps1, hostOps1_1, List.take, List.drop, List.Forall, StableHlo.nullary_writes, StableHlo.unary_writes, StableHlo.binary_writes, StableHlo.ternary_writes, Finset.mem_singleton]
    repeat' apply And.intro
    all_goals exact StableHlo.devRef_ne_of_ne (by decide))))

variable (X : Valuation τ sig (Elt F))

/-! ## What each piece leaves, from any contents `X`

  A called function's operation moves its operands and its result along the equation "this buffer's type is the value's
  type", which holds by computation at each literal buffer: `cast_eq` removes such a move once the two types are
  seen to be the same. -/

set_option maxHeartbeats 4000000 in
/-- Operations 0-6: the wrapped source indices. -/
theorem wrap_v4 : StableHlo.after wrapOps X (Proc.devRef .tc main_call1_v4) = K.wrapK (X (Proc.devRef .tc main_v1)) := by
  simp only [wrapOps, hostOps1, List.take]
  after_results_simp
  rfl

set_option maxHeartbeats 4000000 in
/-- Operations 7-11: the index column, -/
theorem col_v5 : StableHlo.after colOps X (Proc.devRef .tc main_call1_v5)
    = broadcastInDim S3200000x1 ![0] bcast_S3200000_S3200000x1_0 (X (Proc.devRef .tc main_call1_v4)) := by
  simp only [colOps, hostOps1, List.take, List.drop]
  after_results_simp
  rfl

set_option maxHeartbeats 4000000 in
/-- its test against zero, -/
theorem col_v7 : StableHlo.after colOps X (Proc.devRef .tc main_call1_v7)
    = cmpi .sge (broadcastInDim S3200000x1 ![0] bcast_S3200000_S3200000x1_0 (X (Proc.devRef .tc main_call1_v4))) (broadcastInDim S3200000x1 ![] bcast_S_S3200000x1 (constantI S_ 32 0#32)) := by
  simp only [colOps, hostOps1, List.take, List.drop]
  after_results_simp
  rfl

set_option maxHeartbeats 4000000 in
/-- and the last node index as a constant. -/
theorem col_c1 : StableHlo.after colOps X (Proc.devRef .tc main_call1_c_1) = constantI S1 32 199999#32 := by
  simp only [colOps, hostOps1, List.take, List.drop]
  after_results_simp
  rfl

set_option maxHeartbeats 4000000 in
/-- Operations 12-15: the two range tests joined. -/
theorem range_v11 : StableHlo.after rangeOps X (Proc.devRef .tc main_call1_v11)
    = andi (X (Proc.devRef .tc main_call1_v7)) (cmpi .sle (X (Proc.devRef .tc main_call1_v5)) (broadcastInDim S3200000x1 ![0, 1] bcast_S1x1_S3200000x1_0_1 (broadcastInDim S1x1 ![1] bcast_S1_S1x1_1 (X (Proc.devRef .tc main_call1_c_1))))) := by
  simp only [rangeOps, hostOps1, List.take, List.drop]
  after_results_simp
  rfl

set_option maxHeartbeats 4000000 in
/-- Operations 16-18: the joined test reduced per edge (the reduction is not opened: its operands are freed of their
    moves one by one), -/
theorem gather_v12 : StableHlo.after gatherOps X (Proc.devRef .tc main_call1_v12)
    = Host.reduce IntOp.andi (X (Proc.devRef .tc main_call1_v11)) (constantI S_ 1 1#1) reducesTo_S3200000x1_S3200000_d1 h_S_ := by
  simp only [gatherOps, hostOps1, List.take, List.drop]
  after_results_simp
  refine (cast_eq _ _).trans ?_
  exact congrArg₂ (fun (a : IVec S3200000x1 1) (z : IVec S_ 1) => Host.reduce IntOp.andi a z reducesTo_S3200000x1_S3200000_d1 h_S_)
    (cast_eq _ _) ((cast_eq _ _).trans (cast_eq _ _))

set_option maxHeartbeats 4000000 in
/-- and the rows gathered at the index column (the gather is not opened either). -/
theorem gather_v13 : StableHlo.after gatherOps X (Proc.devRef .tc main_call1_v13)
    = Host.gather gather_S200000x32_S3200000x1_S3200000x32_1_0_n_n_0_1_132 (X (Proc.devRef .tc main_v30_0)) (X (Proc.devRef .tc main_call1_v5)) := by
  simp only [gatherOps, hostOps1, List.take, List.drop]
  after_results_simp
  refine (cast_eq _ _).trans ?_
  exact congrArg₂ (fun (t : FVec F S200000x32 .f32) (i : IVec S3200000x1 32) => Host.gather gather_S200000x32_S3200000x1_S3200000x32_1_0_n_n_0_1_132 t i)
    (cast_eq _ _) (cast_eq _ _)

set_option maxHeartbeats 4000000 in
/-- Operations 19-22: the gathered row where the reduced test holds, the fill pattern elsewhere. -/
theorem fill_v31 : StableHlo.after fillOps X (Proc.devRef .tc main_v31)
    = select (broadcastInDim S3200000x32 ![0] bcast_S3200000_S3200000x32_0 (X (Proc.devRef .tc main_call1_v12)))
        (X (Proc.devRef .tc main_call1_v13))
        (broadcastInDim S3200000x32 ![] bcast_S_S3200000x32 (constant (F := F) S_ .f32 0x7FC00000#32)) := by
  simp only [fillOps, hostOps1, List.take, List.drop]
  after_results_simp
  rfl

set_option maxHeartbeats 4000000 in
/-- The seven operations after the take: the weighted rows summed into the target nodes' rows. -/
theorem sum_v37 : StableHlo.after hostOps1_1 X (Proc.devRef .tc main_v37)
    = Host.scatterAdd scatter_S200000x32_S3200000x1_S3200000x32_1_0_0_1 (broadcastInDim S200000x32 ![] bcast_S_S200000x32 (constant (F := F) S_ .f32 0x00000000#32))
        (broadcastInDim S3200000x1 ![0] bcast_S3200000_S3200000x1_0 (X (Proc.devRef .tc main_v3)))
        (mulf (broadcastInDim S3200000x32 ![0, 1] bcast_S3200000x1_S3200000x32_0_1 (broadcastInDim S3200000x1 ![0] bcast_S3200000_S3200000x1_0 (X (Proc.devRef .tc main_v28)))) (X (Proc.devRef .tc main_v31))) := by
  after_results_simp

/-! ## What each piece passes through -/

theorem wrap_keep_v3 : StableHlo.after wrapOps X (Proc.devRef .tc main_v3) = X (Proc.devRef .tc main_v3) := by keep_through wrapOps
theorem wrap_keep_v28 : StableHlo.after wrapOps X (Proc.devRef .tc main_v28) = X (Proc.devRef .tc main_v28) := by keep_through wrapOps
theorem wrap_keep_v30 : StableHlo.after wrapOps X (Proc.devRef .tc main_v30_0) = X (Proc.devRef .tc main_v30_0) := by keep_through wrapOps
theorem col_keep_v3 : StableHlo.after colOps X (Proc.devRef .tc main_v3) = X (Proc.devRef .tc main_v3) := by keep_through colOps
theorem col_keep_v28 : StableHlo.after colOps X (Proc.devRef .tc main_v28) = X (Proc.devRef .tc main_v28) := by keep_through colOps
theorem col_keep_v30 : StableHlo.after colOps X (Proc.devRef .tc main_v30_0) = X (Proc.devRef .tc main_v30_0) := by keep_through colOps
theorem range_keep_v3 : StableHlo.after rangeOps X (Proc.devRef .tc main_v3) = X (Proc.devRef .tc main_v3) := by keep_through rangeOps
theorem range_keep_v28 : StableHlo.after rangeOps X (Proc.devRef .tc main_v28) = X (Proc.devRef .tc main_v28) := by keep_through rangeOps
theorem range_keep_v30 : StableHlo.after rangeOps X (Proc.devRef .tc main_v30_0) = X (Proc.devRef .tc main_v30_0) := by keep_through rangeOps
theorem range_keep_v5 : StableHlo.after rangeOps X (Proc.devRef .tc main_call1_v5) = X (Proc.devRef .tc main_call1_v5) := by keep_through rangeOps
theorem gather_keep_v3 : StableHlo.after gatherOps X (Proc.devRef .tc main_v3) = X (Proc.devRef .tc main_v3) := by keep_through gatherOps
theorem gather_keep_v28 : StableHlo.after gatherOps X (Proc.devRef .tc main_v28) = X (Proc.devRef .tc main_v28) := by keep_through gatherOps
theorem fill_keep_v3 : StableHlo.after fillOps X (Proc.devRef .tc main_v3) = X (Proc.devRef .tc main_v3) := by keep_through fillOps
theorem fill_keep_v28 : StableHlo.after fillOps X (Proc.devRef .tc main_v28) = X (Proc.devRef .tc main_v28) := by keep_through fillOps

/-! ## The stretch -/

/-- The aggregated messages after the two lists, from any contents, at any float family. -/
theorem agg_any : StableHlo.after hostOps1_1 (StableHlo.after hostOps1 X) (Proc.devRef .tc main_v37)
    = K.aggTake (F := F) (X (Proc.devRef .tc main_v1)) (X (Proc.devRef .tc main_v3)) (X (Proc.devRef .tc main_v28)) (X (Proc.devRef .tc main_v30_0)) := by
  rw [pieces, after_append, after_append, after_append, after_append]
  rw [sum_v37, fill_v31, fill_keep_v3, fill_keep_v28]
  rw [gather_v12, gather_v13, gather_keep_v3, gather_keep_v28]
  rw [range_v11, range_keep_v5, range_keep_v30, range_keep_v3, range_keep_v28]
  rw [col_v5, col_v7, col_c1, col_keep_v30, col_keep_v3, col_keep_v28]
  rw [wrap_v4, wrap_keep_v30, wrap_keep_v3, wrap_keep_v28]
  unfold K.aggTake K.takeRows K.inRange K.idxCol
  rfl

/-- The aggregated messages the combining call reads, from any contents `W` at the stretch's start. -/
theorem agg : StableHlo.after hostOps1_1 (StableHlo.after hostOps1 W) (Proc.devRef .tc main_v37)
    = K.aggTake (F := Ideal) (W (Proc.devRef .tc main_v1)) (W (Proc.devRef .tc main_v3)) (W (Proc.devRef .tc main_v28)) (W (Proc.devRef .tc main_v30_0)) :=
  agg_any W

end Cert.Arma.Stretch1

end
-- ==== Proof.Stretch2.lean ====
/-
  The host stretch between a dense call and its combining call (layer 2), from ANY buffer contents `W`: the rows of the
  dense call's first output taken at the wrapped source indices (the fill pattern where an index is out of range),
  weighed per edge, and summed into the target nodes' rows — `K.aggTake` of the four buffers the stretch reads.
-/
import proofs.«414211_j44186623541334_1_alg».proof.Proof.Gen.KernelIdeal.Launch
import proofs.«414211_j44186623541334_1_alg».proof.Proof.KDefs
import Idealize.ShloMosaic.Lib.StableHlo.Run
import Idealize.ShloMosaic.PureOps.Ideal

set_option maxRecDepth 16384

noncomputable section

open Idealize.ShloMosaic Idealize.ShloMosaic.TcCoe Idealize.SL.Sem Idealize.ShloMosaic.StableHlo
open Cert.KernelIdeal Cert.KernelIdeal.Gen

namespace Cert.Arma.Stretch2

open Cert.Arma

variable (W : Valuation τ sig (Elt Ideal))

variable {F : FTy → Type} [FloatOps F]

/-! ## The fold over a list cut in two -/

/-- The contents after two lists run one after the other are those after their concatenation. -/
theorem after_append (l₁ l₂ : List (HloOp τ sig (Elt F))) (X : Valuation τ sig (Elt F)) :
    StableHlo.after (l₁ ++ l₂) X = StableHlo.after l₂ (StableHlo.after l₁ X) := by
  induction l₁ generalizing X with
  | nil => rfl
  | cons op l ih => simp only [List.cons_append, StableHlo.after_cons]; exact ih _

/-! ## The take's 23 operations in five consecutive pieces

  operations 0-6 wrap the source indices; 7-11 lay them as a column and test it against zero; 12-15 test the column
  against the last node index and join the two tests; 16-18 reduce the joined test per edge and gather the rows; 19-22
  select between the gathered row and the fill pattern. -/

abbrev wrapOps : List (HloOp τ sig (Elt F)) := (hostOps3 (F := F)).take 7
abbrev colOps : List (HloOp τ sig (Elt F)) := ((hostOps3 (F := F)).drop 7).take 5
abbrev rangeOps : List (HloOp τ sig (Elt F)) := (((hostOps3 (F := F)).drop 7).drop 5).take 4
abbrev gatherOps : List (HloOp τ sig (Elt F)) := ((((hostOps3 (F := F)).drop 7).drop 5).drop 4).take 3
abbrev fillOps : List (HloOp τ sig (Elt F)) := ((((hostOps3 (F := F)).drop 7).drop 5).drop 4).drop 3

theorem pieces : (hostOps3 (F := F)) = wrapOps ++ (colOps ++ (rangeOps ++ (gatherOps ++ fillOps))) := by
  show _ = List.take 7 hostOps3 ++ (List.take 5 (List.drop 7 hostOps3) ++ (List.take 4 (List.drop 5 (List.drop 7 hostOps3))
    ++ (List.take 3 (List.drop 4 (List.drop 5 (List.drop 7 hostOps3))) ++ List.drop 3 (List.drop 4 (List.drop 5 (List.drop 7 hostOps3))))))
  rw [List.take_append_drop, List.take_append_drop, List.take_append_drop, List.take_append_drop]

/-- A buffer that no operation of a piece writes keeps its contents across the piece. -/
local macro "keep_through " piece:ident : tactic => `(tactic|
  exact StableHlo.after_of_forall_not_mem _ _ (List.forall_iff_forall_mem.mp (by
    simp only [$piece:ident, hostOps3, hostOps3_1, List.take, List.drop, List.Forall, StableHlo.nullary_writes, StableHlo.unary_writes, StableHlo.binary_writes, StableHlo.ternary_writes, Finset.mem_singleton]
    repeat' apply And.intro
    all_goals exact StableHlo.devRef_ne_of_ne (by decide))))

variable (X : Valuation τ sig (Elt F))

/-! ## What each piece leaves, from any contents `X`

  A called function's operation moves its operands and its result along the equation "this buffer's type is the value's
  type", which holds by computation at each literal buffer: `cast_eq` removes such a move once the two types are
  seen to be the same. -/

set_option maxHeartbeats 4000000 in
/-- Operations 0-6: the wrapped source indices. -/
theorem wrap_v4 : StableHlo.after wrapOps X (Proc.devRef .tc main_call2_v4) = K.wrapK (X (Proc.devRef .tc main_v1)) := by
  simp only [wrapOps, hostOps3, List.take]
  after_results_simp
  rfl

set_option maxHeartbeats 4000000 in
/-- Operations 7-11: the index column, -/
theorem col_v5 : StableHlo.after colOps X (Proc.devRef .tc main_call2_v5)
    = broadcastInDim S3200000x1 ![0] bcast_S3200000_S3200000x1_0 (X (Proc.devRef .tc main_call2_v4)) := by
  simp only [colOps, hostOps3, List.take, List.drop]
  after_results_simp
  rfl

set_option maxHeartbeats 4000000 in
/-- its test against zero, -/
theorem col_v7 : StableHlo.after colOps X (Proc.devRef .tc main_call2_v7)
    = cmpi .sge (broadcastInDim S3200000x1 ![0] bcast_S3200000_S3200000x1_0 (X (Proc.devRef .tc main_call2_v4))) (broadcastInDim S3200000x1 ![] bcast_S_S3200000x1 (constantI S_ 32 0#32)) := by
  simp only [colOps, hostOps3, List.take, List.drop]
  after_results_simp
  rfl

set_option maxHeartbeats 4000000 in
/-- and the last node index as a constant. -/
theorem col_c1 : StableHlo.after colOps X (Proc.devRef .tc main_call2_c_1) = constantI S1 32 199999#32 := by
  simp only [colOps, hostOps3, List.take, List.drop]
  after_results_simp
  rfl

set_option maxHeartbeats 4000000 in
/-- Operations 12-15: the two range tests joined. -/
theorem range_v11 : StableHlo.after rangeOps X (Proc.devRef .tc main_call2_v11)
    = andi (X (Proc.devRef .tc main_call2_v7)) (cmpi .sle (X (Proc.devRef .tc main_call2_v5)) (broadcastInDim S3200000x1 ![0, 1] bcast_S1x1_S3200000x1_0_1 (broadcastInDim S1x1 ![1] bcast_S1_S1x1_1 (X (Proc.devRef .tc main_call2_c_1))))) := by
  simp only [rangeOps, hostOps3, List.take, List.drop]
  after_results_simp
  rfl

set_option maxHeartbeats 4000000 in
/-- Operations 16-18: the joined test reduced per edge (the reduction is not opened: its operands are freed of their
    moves one by one), -/
theorem gather_v12 : StableHlo.after gatherOps X (Proc.devRef .tc main_call2_v12)
    = Host.reduce IntOp.andi (X (Proc.devRef .tc main_call2_v11)) (constantI S_ 1 1#1) reducesTo_S3200000x1_S3200000_d1 h_S_ := by
  simp only [gatherOps, hostOps3, List.take, List.drop]
  after_results_simp
  refine (cast_eq _ _).trans ?_
  exact congrArg₂ (fun (a : IVec S3200000x1 1) (z : IVec S_ 1) => Host.reduce IntOp.andi a z reducesTo_S3200000x1_S3200000_d1 h_S_)
    (cast_eq _ _) ((cast_eq _ _).trans (cast_eq _ _))

set_option maxHeartbeats 4000000 in
/-- and the rows gathered at the index column (the gather is not opened either). -/
theorem gather_v13 : StableHlo.after gatherOps X (Proc.devRef .tc main_call2_v13)
    = Host.gather gather_S200000x32_S3200000x1_S3200000x32_1_0_n_n_0_1_132 (X (Proc.devRef .tc main_v40_0)) (X (Proc.devRef .tc main_call2_v5)) := by
  simp only [gatherOps, hostOps3, List.take, List.drop]
  after_results_simp
  refine (cast_eq _ _).trans ?_
  exact congrArg₂ (fun (t : FVec F S200000x32 .f32) (i : IVec S3200000x1 32) => Host.gather gather_S200000x32_S3200000x1_S3200000x32_1_0_n_n_0_1_132 t i)
    (cast_eq _ _) (cast_eq _ _)

set_option maxHeartbeats 4000000 in
/-- Operations 19-22: the gathered row where the reduced test holds, the fill pattern elsewhere. -/
theorem fill_v31 : StableHlo.after fillOps X (Proc.devRef .tc main_v41)
    = select (broadcastInDim S3200000x32 ![0] bcast_S3200000_S3200000x32_0 (X (Proc.devRef .tc main_call2_v12)))
        (X (Proc.devRef .tc main_call2_v13))
        (broadcastInDim S3200000x32 ![] bcast_S_S3200000x32 (constant (F := F) S_ .f32 0x7FC00000#32)) := by
  simp only [fillOps, hostOps3, List.take, List.drop]
  after_results_simp
  rfl

set_option maxHeartbeats 4000000 in
/-- The seven operations after the take: the weighted rows summed into the target nodes' rows. -/
theorem sum_v37 : StableHlo.after hostOps3_1 X (Proc.devRef .tc main_v47)
    = Host.scatterAdd scatter_S200000x32_S3200000x1_S3200000x32_1_0_0_1 (broadcastInDim S200000x32 ![] bcast_S_S200000x32 (constant (F := F) S_ .f32 0x00000000#32))
        (broadcastInDim S3200000x1 ![0] bcast_S3200000_S3200000x1_0 (X (Proc.devRef .tc main_v3)))
        (mulf (broadcastInDim S3200000x32 ![0, 1] bcast_S3200000x1_S3200000x32_0_1 (broadcastInDim S3200000x1 ![0] bcast_S3200000_S3200000x1_0 (X (Proc.devRef .tc main_v28)))) (X (Proc.devRef .tc main_v41))) := by
  after_results_simp

/-! ## What each piece passes through -/

theorem wrap_keep_v3 : StableHlo.after wrapOps X (Proc.devRef .tc main_v3) = X (Proc.devRef .tc main_v3) := by keep_through wrapOps
theorem wrap_keep_v28 : StableHlo.after wrapOps X (Proc.devRef .tc main_v28) = X (Proc.devRef .tc main_v28) := by keep_through wrapOps
theorem wrap_keep_v30 : StableHlo.after wrapOps X (Proc.devRef .tc main_v40_0) = X (Proc.devRef .tc main_v40_0) := by keep_through wrapOps
theorem col_keep_v3 : StableHlo.after colOps X (Proc.devRef .tc main_v3) = X (Proc.devRef .tc main_v3) := by keep_through colOps
theorem col_keep_v28 : StableHlo.after colOps X (Proc.devRef .tc main_v28) = X (Proc.devRef .tc main_v28) := by keep_through colOps
theorem col_keep_v30 : StableHlo.after colOps X (Proc.devRef .tc main_v40_0) = X (Proc.devRef .tc main_v40_0) := by keep_through colOps
theorem range_keep_v3 : StableHlo.after rangeOps X (Proc.devRef .tc main_v3) = X (Proc.devRef .tc main_v3) := by keep_through rangeOps
theorem range_keep_v28 : StableHlo.after rangeOps X (Proc.devRef .tc main_v28) = X (Proc.devRef .tc main_v28) := by keep_through rangeOps
theorem range_keep_v30 : StableHlo.after rangeOps X (Proc.devRef .tc main_v40_0) = X (Proc.devRef .tc main_v40_0) := by keep_through rangeOps
theorem range_keep_v5 : StableHlo.after rangeOps X (Proc.devRef .tc main_call2_v5) = X (Proc.devRef .tc main_call2_v5) := by keep_through rangeOps
theorem gather_keep_v3 : StableHlo.after gatherOps X (Proc.devRef .tc main_v3) = X (Proc.devRef .tc main_v3) := by keep_through gatherOps
theorem gather_keep_v28 : StableHlo.after gatherOps X (Proc.devRef .tc main_v28) = X (Proc.devRef .tc main_v28) := by keep_through gatherOps
theorem fill_keep_v3 : StableHlo.after fillOps X (Proc.devRef .tc main_v3) = X (Proc.devRef .tc main_v3) := by keep_through fillOps
theorem fill_keep_v28 : StableHlo.after fillOps X (Proc.devRef .tc main_v28) = X (Proc.devRef .tc main_v28) := by keep_through fillOps

/-! ## The stretch -/

/-- The aggregated messages after the two lists, from any contents, at any float family. -/
theorem agg_any : StableHlo.after hostOps3_1 (StableHlo.after hostOps3 X) (Proc.devRef .tc main_v47)
    = K.aggTake (F := F) (X (Proc.devRef .tc main_v1)) (X (Proc.devRef .tc main_v3)) (X (Proc.devRef .tc main_v28)) (X (Proc.devRef .tc main_v40_0)) := by
  rw [pieces, after_append, after_append, after_append, after_append]
  rw [sum_v37, fill_v31, fill_keep_v3, fill_keep_v28]
  rw [gather_v12, gather_v13, gather_keep_v3, gather_keep_v28]
  rw [range_v11, range_keep_v5, range_keep_v30, range_keep_v3, range_keep_v28]
  rw [col_v5, col_v7, col_c1, col_keep_v30, col_keep_v3, col_keep_v28]
  rw [wrap_v4, wrap_keep_v30, wrap_keep_v3, wrap_keep_v28]
  unfold K.aggTake K.takeRows K.inRange K.idxCol
  rfl

/-- The aggregated messages the combining call reads, from any contents `W` at the stretch's start. -/
theorem agg : StableHlo.after hostOps3_1 (StableHlo.after hostOps3 W) (Proc.devRef .tc main_v47)
    = K.aggTake (F := Ideal) (W (Proc.devRef .tc main_v1)) (W (Proc.devRef .tc main_v3)) (W (Proc.devRef .tc main_v28)) (W (Proc.devRef .tc main_v40_0)) :=
  agg_any W

end Cert.Arma.Stretch2

end
-- ==== Proof.Stretch3.lean ====
/-
  The host stretch between a dense call and its combining call (layer 3), from ANY buffer contents `W`: the rows of the
  dense call's first output taken at the wrapped source indices (the fill pattern where an index is out of range),
  weighed per edge, and summed into the target nodes' rows — `K.aggTake` of the four buffers the stretch reads.
-/
import proofs.«414211_j44186623541334_1_alg».proof.Proof.Gen.KernelIdeal.Launch
import proofs.«414211_j44186623541334_1_alg».proof.Proof.KDefs
import Idealize.ShloMosaic.Lib.StableHlo.Run
import Idealize.ShloMosaic.PureOps.Ideal

set_option maxRecDepth 16384

noncomputable section

open Idealize.ShloMosaic Idealize.ShloMosaic.TcCoe Idealize.SL.Sem Idealize.ShloMosaic.StableHlo
open Cert.KernelIdeal Cert.KernelIdeal.Gen

namespace Cert.Arma.Stretch3

open Cert.Arma

variable (W : Valuation τ sig (Elt Ideal))

variable {F : FTy → Type} [FloatOps F]

/-! ## The fold over a list cut in two -/

/-- The contents after two lists run one after the other are those after their concatenation. -/
theorem after_append (l₁ l₂ : List (HloOp τ sig (Elt F))) (X : Valuation τ sig (Elt F)) :
    StableHlo.after (l₁ ++ l₂) X = StableHlo.after l₂ (StableHlo.after l₁ X) := by
  induction l₁ generalizing X with
  | nil => rfl
  | cons op l ih => simp only [List.cons_append, StableHlo.after_cons]; exact ih _

/-! ## The take's 23 operations in five consecutive pieces

  operations 0-6 wrap the source indices; 7-11 lay them as a column and test it against zero; 12-15 test the column
  against the last node index and join the two tests; 16-18 reduce the joined test per edge and gather the rows; 19-22
  select between the gathered row and the fill pattern. -/

abbrev wrapOps : List (HloOp τ sig (Elt F)) := (hostOps5 (F := F)).take 7
abbrev colOps : List (HloOp τ sig (Elt F)) := ((hostOps5 (F := F)).drop 7).take 5
abbrev rangeOps : List (HloOp τ sig (Elt F)) := (((hostOps5 (F := F)).drop 7).drop 5).take 4
abbrev gatherOps : List (HloOp τ sig (Elt F)) := ((((hostOps5 (F := F)).drop 7).drop 5).drop 4).take 3
abbrev fillOps : List (HloOp τ sig (Elt F)) := ((((hostOps5 (F := F)).drop 7).drop 5).drop 4).drop 3

theorem pieces : (hostOps5 (F := F)) = wrapOps ++ (colOps ++ (rangeOps ++ (gatherOps ++ fillOps))) := by
  show _ = List.take 7 hostOps5 ++ (List.take 5 (List.drop 7 hostOps5) ++ (List.take 4 (List.drop 5 (List.drop 7 hostOps5))
    ++ (List.take 3 (List.drop 4 (List.drop 5 (List.drop 7 hostOps5))) ++ List.drop 3 (List.drop 4 (List.drop 5 (List.drop 7 hostOps5))))))
  rw [List.take_append_drop, List.take_append_drop, List.take_append_drop, List.take_append_drop]

/-- A buffer that no operation of a piece writes keeps its contents across the piece. -/
local macro "keep_through " piece:ident : tactic => `(tactic|
  exact StableHlo.after_of_forall_not_mem _ _ (List.forall_iff_forall_mem.mp (by
    simp only [$piece:ident, hostOps5, hostOps5_1, List.take, List.drop, List.Forall, StableHlo.nullary_writes, StableHlo.unary_writes, StableHlo.binary_writes, StableHlo.ternary_writes, Finset.mem_singleton]
    repeat' apply And.intro
    all_goals exact StableHlo.devRef_ne_of_ne (by decide))))

variable (X : Valuation τ sig (Elt F))

/-! ## What each piece leaves, from any contents `X`

  A called function's operation moves its operands and its result along the equation "this buffer's type is the value's
  type", which holds by computation at each literal buffer: `cast_eq` removes such a move once the two types are
  seen to be the same. -/

set_option maxHeartbeats 4000000 in
/-- Operations 0-6: the wrapped source indices. -/
theorem wrap_v4 : StableHlo.after wrapOps X (Proc.devRef .tc main_call3_v4) = K.wrapK (X (Proc.devRef .tc main_v1)) := by
  simp only [wrapOps, hostOps5, List.take]
  after_results_simp
  rfl

set_option maxHeartbeats 4000000 in
/-- Operations 7-11: the index column, -/
theorem col_v5 : StableHlo.after colOps X (Proc.devRef .tc main_call3_v5)
    = broadcastInDim S3200000x1 ![0] bcast_S3200000_S3200000x1_0 (X (Proc.devRef .tc main_call3_v4)) := by
  simp only [colOps, hostOps5, List.take, List.drop]
  after_results_simp
  rfl

set_option maxHeartbeats 4000000 in
/-- its test against zero, -/
theorem col_v7 : StableHlo.after colOps X (Proc.devRef .tc main_call3_v7)
    = cmpi .sge (broadcastInDim S3200000x1 ![0] bcast_S3200000_S3200000x1_0 (X (Proc.devRef .tc main_call3_v4))) (broadcastInDim S3200000x1 ![] bcast_S_S3200000x1 (constantI S_ 32 0#32)) := by
  simp only [colOps, hostOps5, List.take, List.drop]
  after_results_simp
  rfl

set_option maxHeartbeats 4000000 in
/-- and the last node index as a constant. -/
theorem col_c1 : StableHlo.after colOps X (Proc.devRef .tc main_call3_c_1) = constantI S1 32 199999#32 := by
  simp only [colOps, hostOps5, List.take, List.drop]
  after_results_simp
  rfl

set_option maxHeartbeats 4000000 in
/-- Operations 12-15: the two range tests joined. -/
theorem range_v11 : StableHlo.after rangeOps X (Proc.devRef .tc main_call3_v11)
    = andi (X (Proc.devRef .tc main_call3_v7)) (cmpi .sle (X (Proc.devRef .tc main_call3_v5)) (broadcastInDim S3200000x1 ![0, 1] bcast_S1x1_S3200000x1_0_1 (broadcastInDim S1x1 ![1] bcast_S1_S1x1_1 (X (Proc.devRef .tc main_call3_c_1))))) := by
  simp only [rangeOps, hostOps5, List.take, List.drop]
  after_results_simp
  rfl

set_option maxHeartbeats 4000000 in
/-- Operations 16-18: the joined test reduced per edge (the reduction is not opened: its operands are freed of their
    moves one by one), -/
theorem gather_v12 : StableHlo.after gatherOps X (Proc.devRef .tc main_call3_v12)
    = Host.reduce IntOp.andi (X (Proc.devRef .tc main_call3_v11)) (constantI S_ 1 1#1) reducesTo_S3200000x1_S3200000_d1 h_S_ := by
  simp only [gatherOps, hostOps5, List.take, List.drop]
  after_results_simp
  refine (cast_eq _ _).trans ?_
  exact congrArg₂ (fun (a : IVec S3200000x1 1) (z : IVec S_ 1) => Host.reduce IntOp.andi a z reducesTo_S3200000x1_S3200000_d1 h_S_)
    (cast_eq _ _) ((cast_eq _ _).trans (cast_eq _ _))

set_option maxHeartbeats 4000000 in
/-- and the rows gathered at the index column (the gather is not opened either). -/
theorem gather_v13 : StableHlo.after gatherOps X (Proc.devRef .tc main_call3_v13)
    = Host.gather gather_S200000x32_S3200000x1_S3200000x32_1_0_n_n_0_1_132 (X (Proc.devRef .tc main_v50_0)) (X (Proc.devRef .tc main_call3_v5)) := by
  simp only [gatherOps, hostOps5, List.take, List.drop]
  after_results_simp
  refine (cast_eq _ _).trans ?_
  exact congrArg₂ (fun (t : FVec F S200000x32 .f32) (i : IVec S3200000x1 32) => Host.gather gather_S200000x32_S3200000x1_S3200000x32_1_0_n_n_0_1_132 t i)
    (cast_eq _ _) (cast_eq _ _)

set_option maxHeartbeats 4000000 in
/-- Operations 19-22: the gathered row where the reduced test holds, the fill pattern elsewhere. -/
theorem fill_v31 : StableHlo.after fillOps X (Proc.devRef .tc main_v51)
    = select (broadcastInDim S3200000x32 ![0] bcast_S3200000_S3200000x32_0 (X (Proc.devRef .tc main_call3_v12)))
        (X (Proc.devRef .tc main_call3_v13))
        (broadcastInDim S3200000x32 ![] bcast_S_S3200000x32 (constant (F := F) S_ .f32 0x7FC00000#32)) := by
  simp only [fillOps, hostOps5, List.take, List.drop]
  after_results_simp
  rfl

set_option maxHeartbeats 4000000 in
/-- The seven operations after the take: the weighted rows summed into the target nodes' rows. -/
theorem sum_v37 : StableHlo.after hostOps5_1 X (Proc.devRef .tc main_v57)
    = Host.scatterAdd scatter_S200000x32_S3200000x1_S3200000x32_1_0_0_1 (broadcastInDim S200000x32 ![] bcast_S_S200000x32 (constant (F := F) S_ .f32 0x00000000#32))
        (broadcastInDim S3200000x1 ![0] bcast_S3200000_S3200000x1_0 (X (Proc.devRef .tc main_v3)))
        (mulf (broadcastInDim S3200000x32 ![0, 1] bcast_S3200000x1_S3200000x32_0_1 (broadcastInDim S3200000x1 ![0] bcast_S3200000_S3200000x1_0 (X (Proc.devRef .tc main_v28)))) (X (Proc.devRef .tc main_v51))) := by
  after_results_simp

/-! ## What each piece passes through -/

theorem wrap_keep_v3 : StableHlo.after wrapOps X (Proc.devRef .tc main_v3) = X (Proc.devRef .tc main_v3) := by keep_through wrapOps
theorem wrap_keep_v28 : StableHlo.after wrapOps X (Proc.devRef .tc main_v28) = X (Proc.devRef .tc main_v28) := by keep_through wrapOps
theorem wrap_keep_v30 : StableHlo.after wrapOps X (Proc.devRef .tc main_v50_0) = X (Proc.devRef .tc main_v50_0) := by keep_through wrapOps
theorem col_keep_v3 : StableHlo.after colOps X (Proc.devRef .tc main_v3) = X (Proc.devRef .tc main_v3) := by keep_through colOps
theorem col_keep_v28 : StableHlo.after colOps X (Proc.devRef .tc main_v28) = X (Proc.devRef .tc main_v28) := by keep_through colOps
theorem col_keep_v30 : StableHlo.after colOps X (Proc.devRef .tc main_v50_0) = X (Proc.devRef .tc main_v50_0) := by keep_through colOps
theorem range_keep_v3 : StableHlo.after rangeOps X (Proc.devRef .tc main_v3) = X (Proc.devRef .tc main_v3) := by keep_through rangeOps
theorem range_keep_v28 : StableHlo.after rangeOps X (Proc.devRef .tc main_v28) = X (Proc.devRef .tc main_v28) := by keep_through rangeOps
theorem range_keep_v30 : StableHlo.after rangeOps X (Proc.devRef .tc main_v50_0) = X (Proc.devRef .tc main_v50_0) := by keep_through rangeOps
theorem range_keep_v5 : StableHlo.after rangeOps X (Proc.devRef .tc main_call3_v5) = X (Proc.devRef .tc main_call3_v5) := by keep_through rangeOps
theorem gather_keep_v3 : StableHlo.after gatherOps X (Proc.devRef .tc main_v3) = X (Proc.devRef .tc main_v3) := by keep_through gatherOps
theorem gather_keep_v28 : StableHlo.after gatherOps X (Proc.devRef .tc main_v28) = X (Proc.devRef .tc main_v28) := by keep_through gatherOps
theorem fill_keep_v3 : StableHlo.after fillOps X (Proc.devRef .tc main_v3) = X (Proc.devRef .tc main_v3) := by keep_through fillOps
theorem fill_keep_v28 : StableHlo.after fillOps X (Proc.devRef .tc main_v28) = X (Proc.devRef .tc main_v28) := by keep_through fillOps

/-! ## The stretch -/

/-- The aggregated messages after the two lists, from any contents, at any float family. -/
theorem agg_any : StableHlo.after hostOps5_1 (StableHlo.after hostOps5 X) (Proc.devRef .tc main_v57)
    = K.aggTake (F := F) (X (Proc.devRef .tc main_v1)) (X (Proc.devRef .tc main_v3)) (X (Proc.devRef .tc main_v28)) (X (Proc.devRef .tc main_v50_0)) := by
  rw [pieces, after_append, after_append, after_append, after_append]
  rw [sum_v37, fill_v31, fill_keep_v3, fill_keep_v28]
  rw [gather_v12, gather_v13, gather_keep_v3, gather_keep_v28]
  rw [range_v11, range_keep_v5, range_keep_v30, range_keep_v3, range_keep_v28]
  rw [col_v5, col_v7, col_c1, col_keep_v30, col_keep_v3, col_keep_v28]
  rw [wrap_v4, wrap_keep_v30, wrap_keep_v3, wrap_keep_v28]
  unfold K.aggTake K.takeRows K.inRange K.idxCol
  rfl

/-- The aggregated messages the combining call reads, from any contents `W` at the stretch's start. -/
theorem agg : StableHlo.after hostOps5_1 (StableHlo.after hostOps5 W) (Proc.devRef .tc main_v57)
    = K.aggTake (F := Ideal) (W (Proc.devRef .tc main_v1)) (W (Proc.devRef .tc main_v3)) (W (Proc.devRef .tc main_v28)) (W (Proc.devRef .tc main_v50_0)) :=
  agg_any W

end Cert.Arma.Stretch3

end
-- ==== Proof.Chain.lean ====
/-
  The kernel program's run between its calls: what each call's input arrays hold when the call is entered, in terms of
  what the calls before it left. The segment boundaries' contents are the generated fold `Gen.W0 … Gen.W19`.
  * The long-lived buffers — the edge list's two rows, the per-edge weights (all written by the first host stretch) and
    the arguments later calls read — hold the same contents at every boundary from the third on (`Inv`): no later
    operation writes them.
  * Per layer: the stretch before the combining call takes rows of the layer's first dense output at the source indices,
    weighs them, and sums them into the target rows (`K.aggTake`); the second dense output passes through unchanged.
  * Before the last call: the per-graph sums and counts (`K.sumsK`, `K.cntsK`) and two reshapes.
-/
import proofs.«414211_j44186623541334_1_alg».proof.Proof.Gen.KernelIdeal.Frame
import proofs.«414211_j44186623541334_1_alg».proof.Proof.Gen.ReferenceIdeal
import proofs.«414211_j44186623541334_1_alg».proof.Proof.Model
import proofs.«414211_j44186623541334_1_alg».proof.Proof.KDefs
import proofs.«414211_j44186623541334_1_alg».proof.Proof.Stretch0
import proofs.«414211_j44186623541334_1_alg».proof.Proof.Stretch1
import proofs.«414211_j44186623541334_1_alg».proof.Proof.Stretch2
import proofs.«414211_j44186623541334_1_alg».proof.Proof.Stretch3
import Idealize.ShloMosaic.Lib.StableHlo.Run
import Idealize.ShloMosaic.PureOps.Ideal

set_option maxRecDepth 16384

noncomputable section

namespace Cert.Arma.Chain

open Idealize.ShloMosaic Idealize.ShloMosaic.TcCoe Idealize.SL.Sem Idealize.ShloMosaic.StableHlo
open Cert.KernelIdeal Cert.KernelIdeal.Gen Cert.Arma

variable (m : (ℓ : Loc nD τ sig) → Buf (Elt Ideal) ℓ) (ρ : Dev nD → PrngReg) (c : Dev nD)

/-- A buffer that no operation of a host stretch writes keeps its contents across the stretch. -/
local macro "host_keep " ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

/-! ## The long-lived buffers -/

/-- The edge list's source and target rows, the per-edge weights, and the arguments the later calls read, at one
    boundary's contents `W`: each is its function of the launch arguments. -/
def Inv (W : Valuation τ sig (Elt Ideal)) : Prop :=
  W (Proc.devRef .tc main_v1) = rowOf (m ((c : Thread nD τ).loc main_arg1))
    ∧ W (Proc.devRef .tc main_v3) = colOf (m ((c : Thread nD τ).loc main_arg1))
    ∧ W (Proc.devRef .tc main_v28) = normOf (F := Ideal) (m ((c : Thread nD τ).loc main_arg1))
    ∧ W (Proc.devRef .tc main_arg2) = (m ((c : Thread nD τ).loc main_arg2))
    ∧ W (Proc.devRef .tc main_arg6) = (m ((c : Thread nD τ).loc main_arg6))
    ∧ W (Proc.devRef .tc main_arg7) = (m ((c : Thread nD τ).loc main_arg7))
    ∧ W (Proc.devRef .tc main_arg8) = (m ((c : Thread nD τ).loc main_arg8))
    ∧ W (Proc.devRef .tc main_arg9) = (m ((c : Thread nD τ).loc main_arg9))
    ∧ W (Proc.devRef .tc main_arg10) = (m ((c : Thread nD τ).loc main_arg10))
    ∧ W (Proc.devRef .tc main_arg11) = (m ((c : Thread nD τ).loc main_arg11))
    ∧ W (Proc.devRef .tc main_arg12) = (m ((c : Thread nD τ).loc main_arg12))
    ∧ W (Proc.devRef .tc main_arg13) = (m ((c : Thread nD τ).loc main_arg13))

/-- The same buffers hold at `W'` what they hold at `W`. -/
def Keeps (W W' : Valuation τ sig (Elt Ideal)) : Prop :=
  W' (Proc.devRef .tc main_v1) = W (Proc.devRef .tc main_v1)
    ∧ W' (Proc.devRef .tc main_v3) = W (Proc.devRef .tc main_v3)
    ∧ W' (Proc.devRef .tc main_v28) = W (Proc.devRef .tc main_v28)
    ∧ W' (Proc.devRef .tc main_arg2) = W (Proc.devRef .tc main_arg2)
    ∧ W' (Proc.devRef .tc main_arg6) = W (Proc.devRef .tc main_arg6)
    ∧ W' (Proc.devRef .tc main_arg7) = W (Proc.devRef .tc main_arg7)
    ∧ W' (Proc.devRef .tc main_arg8) = W (Proc.devRef .tc main_arg8)
    ∧ W' (Proc.devRef .tc main_arg9) = W (Proc.devRef .tc main_arg9)
    ∧ W' (Proc.devRef .tc main_arg10) = W (Proc.devRef .tc main_arg10)
    ∧ W' (Proc.devRef .tc main_arg11) = W (Proc.devRef .tc main_arg11)
    ∧ W' (Proc.devRef .tc main_arg12) = W (Proc.devRef .tc main_arg12)
    ∧ W' (Proc.devRef .tc main_arg13) = W (Proc.devRef .tc main_arg13)

theorem Inv.step {W W' : Valuation τ sig (Elt Ideal)} (h : Inv m c W) (k : Keeps W W') : Inv m c W' :=
  ⟨(k.1).trans (h.1),
   (k.2.1).trans (h.2.1),
   (k.2.2.1).trans (h.2.2.1),
   (k.2.2.2.1).trans (h.2.2.2.1),
   (k.2.2.2.2.1).trans (h.2.2.2.2.1),
   (k.2.2.2.2.2.1).trans (h.2.2.2.2.2.1),
   (k.2.2.2.2.2.2.1).trans (h.2.2.2.2.2.2.1),
   (k.2.2.2.2.2.2.2.1).trans (h.2.2.2.2.2.2.2.1),
   (k.2.2.2.2.2.2.2.2.1).trans (h.2.2.2.2.2.2.2.2.1),
   (k.2.2.2.2.2.2.2.2.2.1).trans (h.2.2.2.2.2.2.2.2.2.1),
   (k.2.2.2.2.2.2.2.2.2.2.1).trans (h.2.2.2.2.2.2.2.2.2.2.1),
   (k.2.2.2.2.2.2.2.2.2.2.2).trans (h.2.2.2.2.2.2.2.2.2.2.2)⟩

/-- At the third boundary (the first call's entry): the first host stretches compute the rows and the weights from
    the edge list (`Stretch0`), and touch no argument. -/
theorem inv3 : Inv m c (W3 m ρ c) := by
  have k := Stretch0.keeps (W0 m ρ c)
  exact ⟨(Stretch0.row (W0 m ρ c)).trans (Stretch0.rowK_eq _), (Stretch0.col (W0 m ρ c)).trans (Stretch0.colK_eq _),
    (Stretch0.norm (W0 m ρ c)).trans (Stretch0.normK_eq _),
    k.2.1, k.2.2.2.2.1, k.2.2.2.2.2.1, k.2.2.2.2.2.2.1, k.2.2.2.2.2.2.2.1, k.2.2.2.2.2.2.2.2.1, k.2.2.2.2.2.2.2.2.2.1, k.2.2.2.2.2.2.2.2.2.2.1, k.2.2.2.2.2.2.2.2.2.2.2⟩

/-- Boundary 3 to boundary 4: call 0 writes none of them. -/
theorem keeps4 : Keeps (W3 m ρ c) (W4 m ρ c) :=
  ⟨W4_of_ne m ρ c main_v1 (by decide),
   W4_of_ne m ρ c main_v3 (by decide),
   W4_of_ne m ρ c main_v28 (by decide),
   W4_of_ne m ρ c main_arg2 (by decide),
   W4_of_ne m ρ c main_arg6 (by decide),
   W4_of_ne m ρ c main_arg7 (by decide),
   W4_of_ne m ρ c main_arg8 (by decide),
   W4_of_ne m ρ c main_arg9 (by decide),
   W4_of_ne m ρ c main_arg10 (by decide),
   W4_of_ne m ρ c main_arg11 (by decide),
   W4_of_ne m ρ c main_arg12 (by decide),
   W4_of_ne m ρ c main_arg13 (by decide)⟩
theorem inv4 : Inv m c (W4 m ρ c) := (inv3 m ρ c).step m c (keeps4 m ρ c)

/-- Boundary 4 to boundary 5: the stretch `hostOps1` writes none of them. -/
theorem keeps5 : Keeps (W4 m ρ c) (W5 m ρ c) :=
  ⟨by host_keep hostOps1,
   by host_keep hostOps1,
   by host_keep hostOps1,
   by host_keep hostOps1,
   by host_keep hostOps1,
   by host_keep hostOps1,
   by host_keep hostOps1,
   by host_keep hostOps1,
   by host_keep hostOps1,
   by host_keep hostOps1,
   by host_keep hostOps1,
   by host_keep hostOps1⟩
theorem inv5 : Inv m c (W5 m ρ c) := (inv4 m ρ c).step m c (keeps5 m ρ c)

/-- Boundary 5 to boundary 6: the stretch `hostOps1_1` writes none of them. -/
theorem keeps6 : Keeps (W5 m ρ c) (W6 m ρ c) :=
  ⟨by host_keep hostOps1_1,
   by host_keep hostOps1_1,
   by host_keep hostOps1_1,
   by host_keep hostOps1_1,
   by host_keep hostOps1_1,
   by host_keep hostOps1_1,
   by host_keep hostOps1_1,
   by host_keep hostOps1_1,
   by host_keep hostOps1_1,
   by host_keep hostOps1_1,
   by host_keep hostOps1_1,
   by host_keep hostOps1_1⟩
theorem inv6 : Inv m c (W6 m ρ c) := (inv5 m ρ c).step m c (keeps6 m ρ c)

/-- Boundary 6 to boundary 7: call 1 writes none of them. -/
theorem keeps7 : Keeps (W6 m ρ c) (W7 m ρ c) :=
  ⟨W7_of_ne m ρ c main_v1 (by decide),
   W7_of_ne m ρ c main_v3 (by decide),
   W7_of_ne m ρ c main_v28 (by decide),
   W7_of_ne m ρ c main_arg2 (by decide),
   W7_of_ne m ρ c main_arg6 (by decide),
   W7_of_ne m ρ c main_arg7 (by decide),
   W7_of_ne m ρ c main_arg8 (by decide),
   W7_of_ne m ρ c main_arg9 (by decide),
   W7_of_ne m ρ c main_arg10 (by decide),
   W7_of_ne m ρ c main_arg11 (by decide),
   W7_of_ne m ρ c main_arg12 (by decide),
   W7_of_ne m ρ c main_arg13 (by decide)⟩
theorem inv7 : Inv m c (W7 m ρ c) := (inv6 m ρ c).step m c (keeps7 m ρ c)

/-- Boundary 7 to boundary 8: the stretch `hostOps2` writes none of them. -/
theorem keeps8 : Keeps (W7 m ρ c) (W8 m ρ c) :=
  ⟨by host_keep hostOps2,
   by host_keep hostOps2,
   by host_keep hostOps2,
   by host_keep hostOps2,
   by host_keep hostOps2,
   by host_keep hostOps2,
   by host_keep hostOps2,
   by host_keep hostOps2,
   by host_keep hostOps2,
   by host_keep hostOps2,
   by host_keep hostOps2,
   by host_keep hostOps2⟩
theorem inv8 : Inv m c (W8 m ρ c) := (inv7 m ρ c).step m c (keeps8 m ρ c)

/-- Boundary 8 to boundary 9: call 2 writes none of them (it only reads the two weight matrices among them). -/
theorem keeps9 : Keeps (W8 m ρ c) (W9 m ρ c) :=
  ⟨W9_of_ne m ρ c main_v1 (by decide),
   W9_of_ne m ρ c main_v3 (by decide),
   W9_of_ne m ρ c main_v28 (by decide),
   W9_of_ne m ρ c main_arg2 (by decide),
   (W9_arr m ρ c 1).trans (((dat2 (V8 m ρ) c).arrAt_in 1 rfl _).trans (A_eq2 (V8 m ρ) c 1)),
   (W9_arr m ρ c 2).trans (((dat2 (V8 m ρ) c).arrAt_in 2 rfl _).trans (A_eq2 (V8 m ρ) c 2)),
   W9_of_ne m ρ c main_arg8 (by decide),
   W9_of_ne m ρ c main_arg9 (by decide),
   W9_of_ne m ρ c main_arg10 (by decide),
   W9_of_ne m ρ c main_arg11 (by decide),
   W9_of_ne m ρ c main_arg12 (by decide),
   W9_of_ne m ρ c main_arg13 (by decide)⟩
theorem inv9 : Inv m c (W9 m ρ c) := (inv8 m ρ c).step m c (keeps9 m ρ c)

/-- Boundary 9 to boundary 10: the stretch `hostOps3` writes none of them. -/
theorem keeps10 : Keeps (W9 m ρ c) (W10 m ρ c) :=
  ⟨by host_keep hostOps3,
   by host_keep hostOps3,
   by host_keep hostOps3,
   by host_keep hostOps3,
   by host_keep hostOps3,
   by host_keep hostOps3,
   by host_keep hostOps3,
   by host_keep hostOps3,
   by host_keep hostOps3,
   by host_keep hostOps3,
   by host_keep hostOps3,
   by host_keep hostOps3⟩
theorem inv10 : Inv m c (W10 m ρ c) := (inv9 m ρ c).step m c (keeps10 m ρ c)

/-- Boundary 10 to boundary 11: the stretch `hostOps3_1` writes none of them. -/
theorem keeps11 : Keeps (W10 m ρ c) (W11 m ρ c) :=
  ⟨by host_keep hostOps3_1,
   by host_keep hostOps3_1,
   by host_keep hostOps3_1,
   by host_keep hostOps3_1,
   by host_keep hostOps3_1,
   by host_keep hostOps3_1,
   by host_keep hostOps3_1,
   by host_keep hostOps3_1,
   by host_keep hostOps3_1,
   by host_keep hostOps3_1,
   by host_keep hostOps3_1,
   by host_keep hostOps3_1⟩
theorem inv11 : Inv m c (W11 m ρ c) := (inv10 m ρ c).step m c (keeps11 m ρ c)

/-- Boundary 11 to boundary 12: call 3 writes none of them. -/
theorem keeps12 : Keeps (W11 m ρ c) (W12 m ρ c) :=
  ⟨W12_of_ne m ρ c main_v1 (by decide),
   W12_of_ne m ρ c main_v3 (by decide),
   W12_of_ne m ρ c main_v28 (by decide),
   W12_of_ne m ρ c main_arg2 (by decide),
   W12_of_ne m ρ c main_arg6 (by decide),
   W12_of_ne m ρ c main_arg7 (by decide),
   W12_of_ne m ρ c main_arg8 (by decide),
   W12_of_ne m ρ c main_arg9 (by decide),
   W12_of_ne m ρ c main_arg10 (by decide),
   W12_of_ne m ρ c main_arg11 (by decide),
   W12_of_ne m ρ c main_arg12 (by decide),
   W12_of_ne m ρ c main_arg13 (by decide)⟩
theorem inv12 : Inv m c (W12 m ρ c) := (inv11 m ρ c).step m c (keeps12 m ρ c)

/-- Boundary 12 to boundary 13: the stretch `hostOps4` writes none of them. -/
theorem keeps13 : Keeps (W12 m ρ c) (W13 m ρ c) :=
  ⟨by host_keep hostOps4,
   by host_keep hostOps4,
   by host_keep hostOps4,
   by host_keep hostOps4,
   by host_keep hostOps4,
   by host_keep hostOps4,
   by host_keep hostOps4,
   by host_keep hostOps4,
   by host_keep hostOps4,
   by host_keep hostOps4,
   by host_keep hostOps4,
   by host_keep hostOps4⟩
theorem inv13 : Inv m c (W13 m ρ c) := (inv12 m ρ c).step m c (keeps13 m ρ c)

/-- Boundary 13 to boundary 14: call 4 writes none of them (it only reads the two weight matrices among them). -/
theorem keeps14 : Keeps (W13 m ρ c) (W14 m ρ c) :=
  ⟨W14_of_ne m ρ c main_v1 (by decide),
   W14_of_ne m ρ c main_v3 (by decide),
   W14_of_ne m ρ c main_v28 (by decide),
   W14_of_ne m ρ c main_arg2 (by decide),
   W14_of_ne m ρ c main_arg6 (by decide),
   W14_of_ne m ρ c main_arg7 (by decide),
   W14_of_ne m ρ c main_arg8 (by decide),
   (W14_arr m ρ c 1).trans (((dat4 (V13 m ρ) c).arrAt_in 1 rfl _).trans (A_eq4 (V13 m ρ) c 1)),
   (W14_arr m ρ c 2).trans (((dat4 (V13 m ρ) c).arrAt_in 2 rfl _).trans (A_eq4 (V13 m ρ) c 2)),
   W14_of_ne m ρ c main_arg11 (by decide),
   W14_of_ne m ρ c main_arg12 (by decide),
   W14_of_ne m ρ c main_arg13 (by decide)⟩
theorem inv14 : Inv m c (W14 m ρ c) := (inv13 m ρ c).step m c (keeps14 m ρ c)

/-- Boundary 14 to boundary 15: the stretch `hostOps5` writes none of them. -/
theorem keeps15 : Keeps (W14 m ρ c) (W15 m ρ c) :=
  ⟨by host_keep hostOps5,
   by host_keep hostOps5,
   by host_keep hostOps5,
   by host_keep hostOps5,
   by host_keep hostOps5,
   by host_keep hostOps5,
   by host_keep hostOps5,
   by host_keep hostOps5,
   by host_keep hostOps5,
   by host_keep hostOps5,
   by host_keep hostOps5,
   by host_keep hostOps5⟩
theorem inv15 : Inv m c (W15 m ρ c) := (inv14 m ρ c).step m c (keeps15 m ρ c)

/-- Boundary 15 to boundary 16: the stretch `hostOps5_1` writes none of them. -/
theorem keeps16 : Keeps (W15 m ρ c) (W16 m ρ c) :=
  ⟨by host_keep hostOps5_1,
   by host_keep hostOps5_1,
   by host_keep hostOps5_1,
   by host_keep hostOps5_1,
   by host_keep hostOps5_1,
   by host_keep hostOps5_1,
   by host_keep hostOps5_1,
   by host_keep hostOps5_1,
   by host_keep hostOps5_1,
   by host_keep hostOps5_1,
   by host_keep hostOps5_1,
   by host_keep hostOps5_1⟩
theorem inv16 : Inv m c (W16 m ρ c) := (inv15 m ρ c).step m c (keeps16 m ρ c)

/-- Boundary 16 to boundary 17: call 5 writes none of them. -/
theorem keeps17 : Keeps (W16 m ρ c) (W17 m ρ c) :=
  ⟨W17_of_ne m ρ c main_v1 (by decide),
   W17_of_ne m ρ c main_v3 (by decide),
   W17_of_ne m ρ c main_v28 (by decide),
   W17_of_ne m ρ c main_arg2 (by decide),
   W17_of_ne m ρ c main_arg6 (by decide),
   W17_of_ne m ρ c main_arg7 (by decide),
   W17_of_ne m ρ c main_arg8 (by decide),
   W17_of_ne m ρ c main_arg9 (by decide),
   W17_of_ne m ρ c main_arg10 (by decide),
   W17_of_ne m ρ c main_arg11 (by decide),
   W17_of_ne m ρ c main_arg12 (by decide),
   W17_of_ne m ρ c main_arg13 (by decide)⟩
theorem inv17 : Inv m c (W17 m ρ c) := (inv16 m ρ c).step m c (keeps17 m ρ c)

/-- Boundary 17 to boundary 18: the stretch `hostOps6` writes none of them. -/
theorem keeps18 : Keeps (W17 m ρ c) (W18 m ρ c) :=
  ⟨by host_keep hostOps6,
   by host_keep hostOps6,
   by host_keep hostOps6,
   by host_keep hostOps6,
   by host_keep hostOps6,
   by host_keep hostOps6,
   by host_keep hostOps6,
   by host_keep hostOps6,
   by host_keep hostOps6,
   by host_keep hostOps6,
   by host_keep hostOps6,
   by host_keep hostOps6⟩
theorem inv18 : Inv m c (W18 m ρ c) := (inv17 m ρ c).step m c (keeps18 m ρ c)

/-! ## The first call's inputs -/

theorem in0_x : W3 m ρ c (Proc.devRef .tc main_arg0) = (m ((c : Thread nD τ).loc main_arg0)) := (Stretch0.keeps (W0 m ρ c)).1
theorem in0_w : W3 m ρ c (Proc.devRef .tc main_arg3) = (m ((c : Thread nD τ).loc main_arg3)) := (Stretch0.keeps (W0 m ρ c)).2.2.1
theorem in0_v : W3 m ρ c (Proc.devRef .tc main_arg4) = (m ((c : Thread nD τ).loc main_arg4)) := (Stretch0.keeps (W0 m ρ c)).2.2.2.1
/-- The first bias, reshaped to a row. -/
theorem in0_b : W3 m ρ c (Proc.devRef .tc main_v29) = K.rowVec (F := Ideal) (m ((c : Thread nD τ).loc main_arg5)) := Stretch0.bias (W0 m ρ c)

/-! ## Layer 1 -/

/-- The aggregated messages the first combining call reads. -/
theorem agg1 : W6 m ρ c (Proc.devRef .tc main_v37) = K.aggTake (F := Ideal) (W4 m ρ c (Proc.devRef .tc main_v1)) (W4 m ρ c (Proc.devRef .tc main_v3)) (W4 m ρ c (Proc.devRef .tc main_v28)) (W4 m ρ c (Proc.devRef .tc main_v30_0)) :=
  Stretch1.agg (W4 m ρ c)
/-- The root term passes through the stretch unchanged. -/
theorem root1 : W6 m ρ c (Proc.devRef .tc main_v30_1) = W4 m ρ c (Proc.devRef .tc main_v30_1) :=
  (show W6 m ρ c (Proc.devRef .tc main_v30_1) = W5 m ρ c (Proc.devRef .tc main_v30_1) by host_keep hostOps1_1).trans (by host_keep hostOps1)

/-! ## Layer 2 -/

theorem in2_h : W8 m ρ c (Proc.devRef .tc main_v38) = W7 m ρ c (Proc.devRef .tc main_v38) := by host_keep hostOps2
set_option maxHeartbeats 4000000 in
theorem in2_b : W8 m ρ c (Proc.devRef .tc main_v39) = K.rowVec (F := Ideal) (W7 m ρ c (Proc.devRef .tc main_arg8)) := by
  show StableHlo.after hostOps2 (W7 m ρ c) _ = _
  after_results_simp; rfl
theorem agg2 : W11 m ρ c (Proc.devRef .tc main_v47) = K.aggTake (F := Ideal) (W9 m ρ c (Proc.devRef .tc main_v1)) (W9 m ρ c (Proc.devRef .tc main_v3)) (W9 m ρ c (Proc.devRef .tc main_v28)) (W9 m ρ c (Proc.devRef .tc main_v40_0)) :=
  Stretch2.agg (W9 m ρ c)
theorem root2 : W11 m ρ c (Proc.devRef .tc main_v40_1) = W9 m ρ c (Proc.devRef .tc main_v40_1) :=
  (show W11 m ρ c (Proc.devRef .tc main_v40_1) = W10 m ρ c (Proc.devRef .tc main_v40_1) by host_keep hostOps3_1).trans (by host_keep hostOps3)

/-! ## Layer 3 -/

theorem in4_h : W13 m ρ c (Proc.devRef .tc main_v48) = W12 m ρ c (Proc.devRef .tc main_v48) := by host_keep hostOps4
set_option maxHeartbeats 4000000 in
theorem in4_b : W13 m ρ c (Proc.devRef .tc main_v49) = K.rowVec (F := Ideal) (W12 m ρ c (Proc.devRef .tc main_arg11)) := by
  show StableHlo.after hostOps4 (W12 m ρ c) _ = _
  after_results_simp; rfl
theorem agg3 : W16 m ρ c (Proc.devRef .tc main_v57) = K.aggTake (F := Ideal) (W14 m ρ c (Proc.devRef .tc main_v1)) (W14 m ρ c (Proc.devRef .tc main_v3)) (W14 m ρ c (Proc.devRef .tc main_v28)) (W14 m ρ c (Proc.devRef .tc main_v50_0)) :=
  Stretch3.agg (W14 m ρ c)
theorem root3 : W16 m ρ c (Proc.devRef .tc main_v50_1) = W14 m ρ c (Proc.devRef .tc main_v50_1) :=
  (show W16 m ρ c (Proc.devRef .tc main_v50_1) = W15 m ρ c (Proc.devRef .tc main_v50_1) by host_keep hostOps5_1).trans (by host_keep hostOps5)

/-! ## The pooled head's inputs -/

set_option maxHeartbeats 8000000 in
theorem in6_sums : W18 m ρ c (Proc.devRef .tc main_v62) = K.sumsK (F := Ideal) (W17 m ρ c (Proc.devRef .tc main_arg2)) (W17 m ρ c (Proc.devRef .tc main_v58)) := by
  show StableHlo.after hostOps6 (W17 m ρ c) _ = _
  after_results_simp; rfl
set_option maxHeartbeats 8000000 in
theorem in6_cnts : W18 m ρ c (Proc.devRef .tc main_v66) = K.colVec (K.cntsK (F := Ideal) (W17 m ρ c (Proc.devRef .tc main_arg2))) := by
  show StableHlo.after hostOps6 (W17 m ρ c) _ = _
  after_results_simp; rfl
set_option maxHeartbeats 8000000 in
theorem in6_db : W18 m ρ c (Proc.devRef .tc main_v67) = K.oneVec (F := Ideal) (W17 m ρ c (Proc.devRef .tc main_arg13)) := by
  show StableHlo.after hostOps6 (W17 m ρ c) _ = _
  after_results_simp; rfl
theorem in6_dw : W18 m ρ c (Proc.devRef .tc main_arg12) = W17 m ρ c (Proc.devRef .tc main_arg12) := by host_keep hostOps6

end Cert.Arma.Chain

end
-- ==== Proof.Lin0.lean ====
/-
  Call 0 of the kernel program (a dense layer's two maps, tiled over the nodes in blocks of 20000 rows): whatever
  the arrays hold when the call is entered (`V`), its first output array ends at the dense map of the node table by the
  first weight matrix, its second at the dense map by the second plus the bias row. A block of the output is the
  product of the same block of rows of the input with the whole 8×32 weight matrix, so the ten blocks tile the
  whole-array product.
-/
import proofs.«414211_j44186623541334_1_alg».proof.Proof.Gen.KernelIdeal.Frame
import proofs.«414211_j44186623541334_1_alg».proof.Proof.Gen.ReferenceIdeal
import proofs.«414211_j44186623541334_1_alg».proof.Proof.Model
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

set_option maxRecDepth 16384

noncomputable section

open Idealize.ShloMosaic Idealize.ShloMosaic.TcCoe Idealize.SL.Sem
open Idealize.ShloMosaic.Pipeline (Dat Cfg Window)
open Cert.KernelIdeal Cert.KernelIdeal.Gen

namespace Cert.Arma.Lin0

open Cert.Arma

/-! ## The block product and the whole-array product, each read at an index -/

/-- The operand indices of the block product at output index `j` and contraction index `q`, axis by axis. -/
theorem blk_lhs_0 (j : S20000x32.Idx) (q : dot_S20000x8_S8x32_S20000x32_1_0_0_1_n_n.contr.Idx) :
    (dot_S20000x8_S8x32_S20000x32_1_0_0_1_n_n.lhsIdx j q 0).val = (j 0).val := by
  unfold DotDims.lhsIdx
  rw [dif_neg (show ¬(0 : Fin S20000x8.rank) ∈ dot_S20000x8_S8x32_S20000x32_1_0_0_1_n_n.lhsBatch by decide), dif_pos (show (0 : Fin S20000x8.rank) ∈ dot_S20000x8_S8x32_S20000x32_1_0_0_1_n_n.lhsNonContracting by decide)]
  rfl
theorem blk_lhs_1 (j : S20000x32.Idx) (q : dot_S20000x8_S8x32_S20000x32_1_0_0_1_n_n.contr.Idx) :
    (dot_S20000x8_S8x32_S20000x32_1_0_0_1_n_n.lhsIdx j q 1).val = (q ⟨0, by decide⟩).val :=
  dot_S20000x8_S8x32_S20000x32_1_0_0_1_n_n.lhsIdx_val_of_single rfl j q
theorem blk_rhs_0 (j : S20000x32.Idx) (q : dot_S20000x8_S8x32_S20000x32_1_0_0_1_n_n.contr.Idx) :
    (dot_S20000x8_S8x32_S20000x32_1_0_0_1_n_n.rhsIdx j q 0).val = (q ⟨0, by decide⟩).val :=
  dot_S20000x8_S8x32_S20000x32_1_0_0_1_n_n.rhsIdx_val_of_single rfl j q
theorem blk_rhs_1 (j : S20000x32.Idx) (q : dot_S20000x8_S8x32_S20000x32_1_0_0_1_n_n.contr.Idx) :
    (dot_S20000x8_S8x32_S20000x32_1_0_0_1_n_n.rhsIdx j q 1).val = (j 1).val := by
  unfold DotDims.rhsIdx
  rw [dif_neg (show ¬(1 : Fin S8x32.rank) ∈ dot_S20000x8_S8x32_S20000x32_1_0_0_1_n_n.rhsBatch by decide), dif_pos (show (1 : Fin S8x32.rank) ∈ dot_S20000x8_S8x32_S20000x32_1_0_0_1_n_n.rhsNonContracting by decide)]
  rfl

/-- Row `r`, feature `k` of a table of 8-feature rows. -/
abbrev rowIx {n : Nat} (r : Fin n) (k : Fin 8) : (⟨2, ![n, 8]⟩ : Shape).Idx := ValueIdx.ix2 r k
/-- Feature `k`, output `q` of the weight matrix. -/
abbrev colIx (k : Fin 8) (q : Fin 32) : S8x32.Idx := ValueIdx.ix2 k q

/-- The product of a block of rows with the weight matrix, accumulated into zero, at an index of the block: the sum
    over the 8 features of the row's entry times the matrix's. -/
theorem blockProd_apply (x : FVec Ideal S20000x8 .f32) (w : FVec Ideal S8x32 .f32) (j : S20000x32.Idx) :
    matmul (F := Ideal) dot_S20000x8_S8x32_S20000x32_1_0_0_1_n_n none x w (constant (F := Ideal) S20000x32 .f32 0x00000000#32) j
      = ∑ k : Fin 8, x (rowIx (j 0 : Fin 20000) k) * w (colIx k (j 1 : Fin 32)) := by
  simp only [matmul]
  rw [Ideal.matmul_constant_zero_apply, ← Equiv.sum_comp (ValueIdx.contrEquiv1 dot_S20000x8_S8x32_S20000x32_1_0_0_1_n_n 8 rfl rfl).symm]
  refine Finset.sum_congr rfl fun k _ => ?_
  have hk := ValueIdx.contrEquiv1_symm_val dot_S20000x8_S8x32_S20000x32_1_0_0_1_n_n 8 rfl rfl k
  have el : dot_S20000x8_S8x32_S20000x32_1_0_0_1_n_n.lhsIdx j ((ValueIdx.contrEquiv1 dot_S20000x8_S8x32_S20000x32_1_0_0_1_n_n 8 rfl rfl).symm k) = rowIx (j 0 : Fin 20000) k := funext fun a => Fin.ext (by
    match a with
    | ⟨0, _⟩ => exact blk_lhs_0 _ _
    | ⟨1, _⟩ => exact (blk_lhs_1 _ _).trans hk)
  have er : dot_S20000x8_S8x32_S20000x32_1_0_0_1_n_n.rhsIdx j ((ValueIdx.contrEquiv1 dot_S20000x8_S8x32_S20000x32_1_0_0_1_n_n 8 rfl rfl).symm k) = colIx k (j 1 : Fin 32) := funext fun a => Fin.ext (by
    match a with
    | ⟨0, _⟩ => exact (blk_rhs_0 _ _).trans hk
    | ⟨1, _⟩ => exact blk_rhs_1 _ _)
  exact congrArg₂ (· * ·) (congrArg x el) (congrArg w er)

/-- The same four facts for the whole-array product's dimension numbers. -/
theorem arr_lhs_0 (i : S200000x32.Idx) (q : Cert.ReferenceIdeal.dot_S200000x8_S8x32_S200000x32_1_0_0_1_n_n.contr.Idx) :
    (Cert.ReferenceIdeal.dot_S200000x8_S8x32_S200000x32_1_0_0_1_n_n.lhsIdx i q 0).val = (i 0).val := by
  unfold DotDims.lhsIdx
  rw [dif_neg (show ¬(0 : Fin S200000x8.rank) ∈ Cert.ReferenceIdeal.dot_S200000x8_S8x32_S200000x32_1_0_0_1_n_n.lhsBatch by decide), dif_pos (show (0 : Fin S200000x8.rank) ∈ Cert.ReferenceIdeal.dot_S200000x8_S8x32_S200000x32_1_0_0_1_n_n.lhsNonContracting by decide)]
  rfl
theorem arr_lhs_1 (i : S200000x32.Idx) (q : Cert.ReferenceIdeal.dot_S200000x8_S8x32_S200000x32_1_0_0_1_n_n.contr.Idx) :
    (Cert.ReferenceIdeal.dot_S200000x8_S8x32_S200000x32_1_0_0_1_n_n.lhsIdx i q 1).val = (q ⟨0, by decide⟩).val :=
  Cert.ReferenceIdeal.dot_S200000x8_S8x32_S200000x32_1_0_0_1_n_n.lhsIdx_val_of_single rfl i q
theorem arr_rhs_0 (i : S200000x32.Idx) (q : Cert.ReferenceIdeal.dot_S200000x8_S8x32_S200000x32_1_0_0_1_n_n.contr.Idx) :
    (Cert.ReferenceIdeal.dot_S200000x8_S8x32_S200000x32_1_0_0_1_n_n.rhsIdx i q 0).val = (q ⟨0, by decide⟩).val :=
  Cert.ReferenceIdeal.dot_S200000x8_S8x32_S200000x32_1_0_0_1_n_n.rhsIdx_val_of_single rfl i q
theorem arr_rhs_1 (i : S200000x32.Idx) (q : Cert.ReferenceIdeal.dot_S200000x8_S8x32_S200000x32_1_0_0_1_n_n.contr.Idx) :
    (Cert.ReferenceIdeal.dot_S200000x8_S8x32_S200000x32_1_0_0_1_n_n.rhsIdx i q 1).val = (i 1).val := by
  unfold DotDims.rhsIdx
  rw [dif_neg (show ¬(1 : Fin S8x32.rank) ∈ Cert.ReferenceIdeal.dot_S200000x8_S8x32_S200000x32_1_0_0_1_n_n.rhsBatch by decide), dif_pos (show (1 : Fin S8x32.rank) ∈ Cert.ReferenceIdeal.dot_S200000x8_S8x32_S200000x32_1_0_0_1_n_n.rhsNonContracting by decide)]
  rfl

/-- The dense map of the whole node table at an index: the same sum, over the node's own row. -/
theorem dense8_apply (x : FVec Ideal S200000x8 .f32) (w : FVec Ideal S8x32 .f32) (i : S200000x32.Idx) :
    dense8 (F := Ideal) x w i = ∑ k : Fin 8, x (rowIx (i 0 : Fin 200000) k) * w (colIx k (i 1 : Fin 32)) := by
  unfold dense8
  simp only [Host.dotGeneral]
  rw [Ideal.dotGeneral_apply, ← Equiv.sum_comp (ValueIdx.contrEquiv1 Cert.ReferenceIdeal.dot_S200000x8_S8x32_S200000x32_1_0_0_1_n_n 8 rfl rfl).symm]
  refine Finset.sum_congr rfl fun k _ => ?_
  have hk := ValueIdx.contrEquiv1_symm_val Cert.ReferenceIdeal.dot_S200000x8_S8x32_S200000x32_1_0_0_1_n_n 8 rfl rfl k
  have el : Cert.ReferenceIdeal.dot_S200000x8_S8x32_S200000x32_1_0_0_1_n_n.lhsIdx i ((ValueIdx.contrEquiv1 Cert.ReferenceIdeal.dot_S200000x8_S8x32_S200000x32_1_0_0_1_n_n 8 rfl rfl).symm k) = rowIx (i 0 : Fin 200000) k := funext fun a => Fin.ext (by
    match a with
    | ⟨0, _⟩ => exact arr_lhs_0 _ _
    | ⟨1, _⟩ => exact (arr_lhs_1 _ _).trans hk)
  have er : Cert.ReferenceIdeal.dot_S200000x8_S8x32_S200000x32_1_0_0_1_n_n.rhsIdx i ((ValueIdx.contrEquiv1 Cert.ReferenceIdeal.dot_S200000x8_S8x32_S200000x32_1_0_0_1_n_n 8 rfl rfl).symm k) = colIx k (i 1 : Fin 32) := funext fun a => Fin.ext (by
    match a with
    | ⟨0, _⟩ => exact (arr_rhs_0 _ _).trans hk
    | ⟨1, _⟩ => exact arr_rhs_1 _ _)
  exact congrArg₂ (· * ·) (congrArg x el) (congrArg w er)

/-! ## The first output: from the ten blocks to the array -/

variable (V : (c : Dev nD) → (b : Ref sig .tc) → Buf (Elt Ideal) ((c : Thread nD τ).loc b)) (c : Dev nD)

theorem zero_off : (![0, 0] : Fin 2 → Nat) = fun _ => 0 := funext fun a => by fin_cases a <;> rfl

/-- The printed index maps over the ten grid points: the node table's window and both outputs' are at block
    (point, 0); the two weight windows and the bias window stay at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- One entry of the first output's block is the dense map's entry at the node's own row, once the row block's
    entries and the weight block's are the arrays' there. -/
theorem pay1_point (X : FVec Ideal S200000x8 .f32) (W : FVec Ideal S8x32 .f32) (x0 : FVec Ideal S20000x8 .f32) (x1 : FVec Ideal S8x32 .f32)
    (j : S20000x32.Idx) (i : S200000x32.Idx)
    (hx : ∀ k : Fin 8, x0 (rowIx (j 0 : Fin 20000) k) = X (rowIx (i 0 : Fin 200000) k))
    (hw : ∀ k : Fin 8, x1 (colIx k (j 1 : Fin 32)) = W (colIx k (i 1 : Fin 32))) :
    k0_pay1 (F := Ideal) x0 x1 j = dense8 (F := Ideal) X W i := by
  show matmul (F := Ideal) dot_S20000x8_S8x32_S20000x32_1_0_0_1_n_n none x0 x1 (constant (F := Ideal) S20000x32 .f32 0x00000000#32) j = _
  rw [blockProd_apply, dense8_apply]
  exact Finset.sum_congr rfl fun k _ => by rw [hx k, hw k]

/-- What point `t` writes back to the first output is block `t` of the dense map of the arrays as the call finds them. -/
theorem flushed_w (t : Fin cfg0.N) :
    (dat0 V c).flushed 4 t = ((cfg0.win 4).blk t).view.read (Elt Ideal) (dense8 (F := Ideal) (V c main_arg0) (V c main_arg3)) := by
  show (cfg0.win 4).cut (grid0.coords t) ((dat0 V c).after 4 t) = _
  rw [after0_4]
  unfold out0_4
  rw [View.canon_unit_zero zero_off]
  simp only [View.ld_unit_zero (S := S20000x8) zero_off, View.ld_unit_zero (S := S8x32) zero_off]
  obtain ⟨e00, e01, e10, e11, -, -, -, -, e40, e41, -, -⟩ := idx_facts t
  funext j
  show k0_pay1 (F := Ideal) (iblk0 V c 0 t) (iblk0 V c 1 t) j = dense8 (F := Ideal) (V c main_arg0) (V c main_arg3) (((cfg0.win 4).blk t).view.emb j)
  refine pay1_point _ _ _ _ j _ (fun k => ?_) (fun k => ?_)
  · show V c main_arg0 (((cfg0.win 0).blk t).view.emb (rowIx (j 0 : Fin 20000) k)) = V c main_arg0 (rowIx ((((cfg0.win 4).blk t).view.emb j) 0 : Fin 200000) k)
    refine congrArg _ (funext fun a => Fin.ext ?_)
    match a with
    | ⟨0, _⟩ => show win0_0.index t (0 : Fin 2) * 20000 + 1 * (j 0).val = win0_4.index t (0 : Fin 2) * 20000 + 1 * (j 0).val; omega
    | ⟨1, _⟩ => show win0_0.index t (1 : Fin 2) * 8 + 1 * k.val = k.val; omega
  · show V c main_arg3 (((cfg0.win 1).blk t).view.emb (colIx k (j 1 : Fin 32))) = V c main_arg3 (colIx k ((((cfg0.win 4).blk t).view.emb j) 1 : Fin 32))
    refine congrArg _ (funext fun a => Fin.ext ?_)
    match a with
    | ⟨0, _⟩ => show win0_1.index t (0 : Fin 2) * 8 + 1 * k.val = k.val; omega
    | ⟨1, _⟩ => show win0_1.index t (1 : Fin 2) * 32 + 1 * (j 1).val = win0_4.index t (1 : Fin 2) * 32 + 1 * (j 1).val; omega

/-- An index of the array is in point `t`'s block iff each coordinate is in the block's range on its axis. -/
theorem mem_blk_w (t : Fin cfg0.N) (i : S200000x32.Idx) :
    i ∈ ((cfg0.win 4).blk t).view.set ↔ ∀ a : Fin 2, win0_4.index t a * S20000x32.size a ≤ (i a).val ∧ (i a).val < win0_4.index t a * S20000x32.size a + S20000x32.size a := by
  show i ∈ ((View.whole main_v30_0).slice (win0_4.rect t)).set ↔ _
  rw [View.set_slice_whole, Rect.mem_set_unit]
  exact Iff.rfl

/-- Every row is in some point's block: row `r` in that of point `r / 20000`. -/
theorem cover_w (i : S200000x32.Idx) : ∃ t : Fin cfg0.N, (cfg0.win 4).flush t = true ∧ i ∈ ((cfg0.win 4).blk t).view.set := by
  have hi0 : (i 0).val < 200000 := (i 0).isLt
  have hi1 : (i 1).val < 32 := (i 1).isLt
  have hN : grid0.N = 10 := N_0
  obtain ⟨t, ht⟩ : ∃ t : Fin cfg0.N, t.val = (i 0).val / 20000 := ⟨⟨(i 0).val / 20000, by show _ < grid0.N; rw [hN]; omega⟩, rfl⟩
  obtain ⟨-, -, -, -, -, -, -, -, e40, e41, -, -⟩ := idx_facts t
  refine ⟨t, flush0_4 t, ?_⟩
  rw [mem_blk_w]
  intro a
  match a with
  | ⟨0, _⟩ => show win0_4.index t (0 : Fin 2) * 20000 ≤ (i 0).val ∧ (i 0).val < win0_4.index t (0 : Fin 2) * 20000 + 20000; omega
  | ⟨1, _⟩ => show win0_4.index t (1 : Fin 2) * 32 ≤ (i 1).val ∧ (i 1).val < win0_4.index t (1 : Fin 2) * 32 + 32; omega

/-- The first output: every node's row times the first weight matrix. -/
theorem out_w : (dat0 V c).arrAt 4 cfg0.N = dense8 (F := Ideal) (V c main_arg0) (V c main_arg3) :=
  (dat0 V c).arrAt_eq_of_cover 4 (dense8 (F := Ideal) (V c main_arg0) (V c main_arg3)) (fun t _ => flushed_w V c t) cover_w

/-! ## The second output: the same tiling, with the bias row added -/

/-- The bias row laid down the rows of a block, at an index: the row's entry in that column. -/
theorem biasBlock_apply (b : FVec Ideal S1x32 .f32) (h1 : S1x32.ShapeCasts S1x32) (h2 : S1x32.Broadcasts S20000x32) (j : S20000x32.Idx) :
    broadcastTo S20000x32 (shapeCast S1x32 b h1) h2 j = b (ValueIdx.ix2 (0 : Fin 1) (j 1 : Fin 32)) := by
  rw [shapeCast_self]
  exact broadcastTo_apply b h2 j (ValueIdx.ix2 (0 : Fin 1) (j 1 : Fin 32)) (fun a => match a with
    | ⟨0, _⟩ => rfl
    | ⟨1, _⟩ => by show (j 1).val = if (32 : Nat) = 1 then 0 else (j 1).val; rw [if_neg (by decide)])

/-- The bias row laid down the rows of the whole array, at an index: the same entry. -/
theorem biasArr_apply (b : FVec Ideal S1x32 .f32) (h : S1x32.BroadcastsInDim S200000x32 (![0, 1] : Fin 2 → Fin S200000x32.rank)) (i : S200000x32.Idx) :
    broadcastInDim S200000x32 ![0, 1] h b i = b (ValueIdx.ix2 (0 : Fin 1) (i 1 : Fin 32)) :=
  broadcastInDim_apply _ h b i (ValueIdx.ix2 (0 : Fin 1) (i 1 : Fin 32)) (fun a => match a with
    | ⟨0, _⟩ => rfl
    | ⟨1, _⟩ => by show (i 1).val = if (32 : Nat) = 1 then 0 else (i 1).val; rw [if_neg (by decide)])

/-- One entry of the second output's block is the biased dense map's entry at the node's own row, once the row block's
    entries, the weight block's and the bias block's are the arrays' there. -/
theorem pay2_point (X : FVec Ideal S200000x8 .f32) (W : FVec Ideal S8x32 .f32) (B : FVec Ideal S1x32 .f32)
    (x0 : FVec Ideal S20000x8 .f32) (x2 : FVec Ideal S8x32 .f32) (x3 : FVec Ideal S1x32 .f32)
    (j : S20000x32.Idx) (i : S200000x32.Idx)
    (hx : ∀ k : Fin 8, x0 (rowIx (j 0 : Fin 20000) k) = X (rowIx (i 0 : Fin 200000) k))
    (hw : ∀ k : Fin 8, x2 (colIx k (j 1 : Fin 32)) = W (colIx k (i 1 : Fin 32)))
    (hb : x3 (ValueIdx.ix2 (0 : Fin 1) (j 1 : Fin 32)) = B (ValueIdx.ix2 (0 : Fin 1) (i 1 : Fin 32))) :
    k0_pay2 (F := Ideal) x0 x2 x3 j = addBiasRow (F := Ideal) (dense8 (F := Ideal) X W) B i := by
  show matmul (F := Ideal) dot_S20000x8_S8x32_S20000x32_1_0_0_1_n_n none x0 x2 (constant (F := Ideal) S20000x32 .f32 0x00000000#32) j
      + broadcastTo S20000x32 (shapeCast S1x32 x3 _) _ j
    = dense8 (F := Ideal) X W i + broadcastInDim S200000x32 ![0, 1] _ B i
  rw [blockProd_apply, biasBlock_apply, dense8_apply, biasArr_apply, hb]
  refine congrArg (· + _) (Finset.sum_congr rfl fun k _ => ?_)
  rw [hx k, hw k]

/-- What point `t` writes back to the second output is block `t` of the biased dense map of the arrays as the call finds them. -/
theorem flushed_vb (t : Fin cfg0.N) :
    (dat0 V c).flushed 5 t = ((cfg0.win 5).blk t).view.read (Elt Ideal) (addBiasRow (F := Ideal) (dense8 (F := Ideal) (V c main_arg0) (V c main_arg4)) (V c main_v29)) := by
  show (cfg0.win 5).cut (grid0.coords t) ((dat0 V c).after 5 t) = _
  rw [after0_5]
  unfold out0_5
  rw [View.canon_unit_zero zero_off]
  simp only [View.ld_unit_zero (S := S20000x8) zero_off, View.ld_unit_zero (S := S8x32) zero_off, View.ld_unit_zero (S := S1x32) zero_off]
  obtain ⟨e00, e01, -, -, e20, e21, e30, e31, -, -, e50, e51⟩ := idx_facts t
  funext j
  show k0_pay2 (F := Ideal) (iblk0 V c 0 t) (iblk0 V c 2 t) (iblk0 V c 3 t) j
    = addBiasRow (F := Ideal) (dense8 (F := Ideal) (V c main_arg0) (V c main_arg4)) (V c main_v29) (((cfg0.win 5).blk t).view.emb j)
  refine pay2_point _ _ _ _ _ _ j _ (fun k => ?_) (fun k => ?_) ?_
  · show V c main_arg0 (((cfg0.win 0).blk t).view.emb (rowIx (j 0 : Fin 20000) k)) = V c main_arg0 (rowIx ((((cfg0.win 5).blk t).view.emb j) 0 : Fin 200000) k)
    refine congrArg _ (funext fun a => Fin.ext ?_)
    match a with
    | ⟨0, _⟩ => show win0_0.index t (0 : Fin 2) * 20000 + 1 * (j 0).val = win0_5.index t (0 : Fin 2) * 20000 + 1 * (j 0).val; omega
    | ⟨1, _⟩ => show win0_0.index t (1 : Fin 2) * 8 + 1 * k.val = k.val; omega
  · show V c main_arg4 (((cfg0.win 2).blk t).view.emb (colIx k (j 1 : Fin 32))) = V c main_arg4 (colIx k ((((cfg0.win 5).blk t).view.emb j) 1 : Fin 32))
    refine congrArg _ (funext fun a => Fin.ext ?_)
    match a with
    | ⟨0, _⟩ => show win0_2.index t (0 : Fin 2) * 8 + 1 * k.val = k.val; omega
    | ⟨1, _⟩ => show win0_2.index t (1 : Fin 2) * 32 + 1 * (j 1).val = win0_5.index t (1 : Fin 2) * 32 + 1 * (j 1).val; omega
  · show V c main_v29 (((cfg0.win 3).blk t).view.emb (ValueIdx.ix2 (0 : Fin 1) (j 1 : Fin 32))) = V c main_v29 (ValueIdx.ix2 (0 : Fin 1) ((((cfg0.win 5).blk t).view.emb j) 1 : Fin 32))
    refine congrArg _ (funext fun a => Fin.ext ?_)
    match a with
    | ⟨0, _⟩ => show win0_3.index t (0 : Fin 2) * 1 + 1 * 0 = 0; omega
    | ⟨1, _⟩ => show win0_3.index t (1 : Fin 2) * 32 + 1 * (j 1).val = win0_5.index t (1 : Fin 2) * 32 + 1 * (j 1).val; omega

/-- An index of the array is in point `t`'s block of the second output iff each coordinate is in the block's range. -/
theorem mem_blk_vb (t : Fin cfg0.N) (i : S200000x32.Idx) :
    i ∈ ((cfg0.win 5).blk t).view.set ↔ ∀ a : Fin 2, win0_5.index t a * S20000x32.size a ≤ (i a).val ∧ (i a).val < win0_5.index t a * S20000x32.size a + S20000x32.size a := by
  show i ∈ ((View.whole main_v30_1).slice (win0_5.rect t)).set ↔ _
  rw [View.set_slice_whole, Rect.mem_set_unit]
  exact Iff.rfl

/-- Every row is in some point's block of the second output: row `r` in that of point `r / 20000`. -/
theorem cover_vb (i : S200000x32.Idx) : ∃ t : Fin cfg0.N, (cfg0.win 5).flush t = true ∧ i ∈ ((cfg0.win 5).blk t).view.set := by
  have hi0 : (i 0).val < 200000 := (i 0).isLt
  have hi1 : (i 1).val < 32 := (i 1).isLt
  have hN : grid0.N = 10 := N_0
  obtain ⟨t, ht⟩ : ∃ t : Fin cfg0.N, t.val = (i 0).val / 20000 := ⟨⟨(i 0).val / 20000, by show _ < grid0.N; rw [hN]; omega⟩, rfl⟩
  obtain ⟨-, -, -, -, -, -, -, -, -, -, e50, e51⟩ := idx_facts t
  refine ⟨t, flush0_5 t, ?_⟩
  rw [mem_blk_vb]
  intro a
  match a with
  | ⟨0, _⟩ => show win0_5.index t (0 : Fin 2) * 20000 ≤ (i 0).val ∧ (i 0).val < win0_5.index t (0 : Fin 2) * 20000 + 20000; omega
  | ⟨1, _⟩ => show win0_5.index t (1 : Fin 2) * 32 ≤ (i 1).val ∧ (i 1).val < win0_5.index t (1 : Fin 2) * 32 + 32; omega

/-- The second output: every node's row times the second weight matrix, plus the bias row. -/
theorem out_vb : (dat0 V c).arrAt 5 cfg0.N = addBiasRow (F := Ideal) (dense8 (F := Ideal) (V c main_arg0) (V c main_arg4)) (V c main_v29) :=
  (dat0 V c).arrAt_eq_of_cover 5 (addBiasRow (F := Ideal) (dense8 (F := Ideal) (V c main_arg0) (V c main_arg4)) (V c main_v29)) (fun t _ => flushed_vb V c t) cover_vb

end Cert.Arma.Lin0

end
-- ==== Proof.Lin2.lean ====
/-
  Call 2 of the kernel program (a dense layer's two maps, tiled over the nodes in blocks of 20000 rows): whatever
  the arrays hold when the call is entered (`V`), its first output array ends at the dense map of the node table by the
  first weight matrix, its second at the dense map by the second plus the bias row. A block of the output is the
  product of the same block of rows of the input with the whole 32×32 weight matrix, so the ten blocks tile the
  whole-array product.
-/
import proofs.«414211_j44186623541334_1_alg».proof.Proof.Gen.KernelIdeal.Frame
import proofs.«414211_j44186623541334_1_alg».proof.Proof.Gen.ReferenceIdeal
import proofs.«414211_j44186623541334_1_alg».proof.Proof.Model
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

set_option maxRecDepth 16384

noncomputable section

open Idealize.ShloMosaic Idealize.ShloMosaic.TcCoe Idealize.SL.Sem
open Idealize.ShloMosaic.Pipeline (Dat Cfg Window)
open Cert.KernelIdeal Cert.KernelIdeal.Gen

namespace Cert.Arma.Lin2

open Cert.Arma

/-! ## The block product and the whole-array product, each read at an index -/

/-- The operand indices of the block product at output index `j` and contraction index `q`, axis by axis. -/
theorem blk_lhs_0 (j : S20000x32.Idx) (q : dot_S20000x32_S32x32_S20000x32_1_0_0_1_n_n.contr.Idx) :
    (dot_S20000x32_S32x32_S20000x32_1_0_0_1_n_n.lhsIdx j q 0).val = (j 0).val := by
  unfold DotDims.lhsIdx
  rw [dif_neg (show ¬(0 : Fin S20000x32.rank) ∈ dot_S20000x32_S32x32_S20000x32_1_0_0_1_n_n.lhsBatch by decide), dif_pos (show (0 : Fin S20000x32.rank) ∈ dot_S20000x32_S32x32_S20000x32_1_0_0_1_n_n.lhsNonContracting by decide)]
  rfl
theorem blk_lhs_1 (j : S20000x32.Idx) (q : dot_S20000x32_S32x32_S20000x32_1_0_0_1_n_n.contr.Idx) :
    (dot_S20000x32_S32x32_S20000x32_1_0_0_1_n_n.lhsIdx j q 1).val = (q ⟨0, by decide⟩).val :=
  dot_S20000x32_S32x32_S20000x32_1_0_0_1_n_n.lhsIdx_val_of_single rfl j q
theorem blk_rhs_0 (j : S20000x32.Idx) (q : dot_S20000x32_S32x32_S20000x32_1_0_0_1_n_n.contr.Idx) :
    (dot_S20000x32_S32x32_S20000x32_1_0_0_1_n_n.rhsIdx j q 0).val = (q ⟨0, by decide⟩).val :=
  dot_S20000x32_S32x32_S20000x32_1_0_0_1_n_n.rhsIdx_val_of_single rfl j q
theorem blk_rhs_1 (j : S20000x32.Idx) (q : dot_S20000x32_S32x32_S20000x32_1_0_0_1_n_n.contr.Idx) :
    (dot_S20000x32_S32x32_S20000x32_1_0_0_1_n_n.rhsIdx j q 1).val = (j 1).val := by
  unfold DotDims.rhsIdx
  rw [dif_neg (show ¬(1 : Fin S32x32.rank) ∈ dot_S20000x32_S32x32_S20000x32_1_0_0_1_n_n.rhsBatch by decide), dif_pos (show (1 : Fin S32x32.rank) ∈ dot_S20000x32_S32x32_S20000x32_1_0_0_1_n_n.rhsNonContracting by decide)]
  rfl

/-- Row `r`, feature `k` of a table of 32-feature rows. -/
abbrev rowIx {n : Nat} (r : Fin n) (k : Fin 32) : (⟨2, ![n, 32]⟩ : Shape).Idx := ValueIdx.ix2 r k
/-- Feature `k`, output `q` of the weight matrix. -/
abbrev colIx (k : Fin 32) (q : Fin 32) : S32x32.Idx := ValueIdx.ix2 k q

/-- The product of a block of rows with the weight matrix, accumulated into zero, at an index of the block: the sum
    over the 32 features of the row's entry times the matrix's. -/
theorem blockProd_apply (x : FVec Ideal S20000x32 .f32) (w : FVec Ideal S32x32 .f32) (j : S20000x32.Idx) :
    matmul (F := Ideal) dot_S20000x32_S32x32_S20000x32_1_0_0_1_n_n none x w (constant (F := Ideal) S20000x32 .f32 0x00000000#32) j
      = ∑ k : Fin 32, x (rowIx (j 0 : Fin 20000) k) * w (colIx k (j 1 : Fin 32)) := by
  simp only [matmul]
  rw [Ideal.matmul_constant_zero_apply, ← Equiv.sum_comp (ValueIdx.contrEquiv1 dot_S20000x32_S32x32_S20000x32_1_0_0_1_n_n 32 rfl rfl).symm]
  refine Finset.sum_congr rfl fun k _ => ?_
  have hk := ValueIdx.contrEquiv1_symm_val dot_S20000x32_S32x32_S20000x32_1_0_0_1_n_n 32 rfl rfl k
  have el : dot_S20000x32_S32x32_S20000x32_1_0_0_1_n_n.lhsIdx j ((ValueIdx.contrEquiv1 dot_S20000x32_S32x32_S20000x32_1_0_0_1_n_n 32 rfl rfl).symm k) = rowIx (j 0 : Fin 20000) k := funext fun a => Fin.ext (by
    match a with
    | ⟨0, _⟩ => exact blk_lhs_0 _ _
    | ⟨1, _⟩ => exact (blk_lhs_1 _ _).trans hk)
  have er : dot_S20000x32_S32x32_S20000x32_1_0_0_1_n_n.rhsIdx j ((ValueIdx.contrEquiv1 dot_S20000x32_S32x32_S20000x32_1_0_0_1_n_n 32 rfl rfl).symm k) = colIx k (j 1 : Fin 32) := funext fun a => Fin.ext (by
    match a with
    | ⟨0, _⟩ => exact (blk_rhs_0 _ _).trans hk
    | ⟨1, _⟩ => exact blk_rhs_1 _ _)
  exact congrArg₂ (· * ·) (congrArg x el) (congrArg w er)

/-- The same four facts for the whole-array product's dimension numbers. -/
theorem arr_lhs_0 (i : S200000x32.Idx) (q : Cert.ReferenceIdeal.dot_S200000x32_S32x32_S200000x32_1_0_0_1_n_n.contr.Idx) :
    (Cert.ReferenceIdeal.dot_S200000x32_S32x32_S200000x32_1_0_0_1_n_n.lhsIdx i q 0).val = (i 0).val := by
  unfold DotDims.lhsIdx
  rw [dif_neg (show ¬(0 : Fin S200000x32.rank) ∈ Cert.ReferenceIdeal.dot_S200000x32_S32x32_S200000x32_1_0_0_1_n_n.lhsBatch by decide), dif_pos (show (0 : Fin S200000x32.rank) ∈ Cert.ReferenceIdeal.dot_S200000x32_S32x32_S200000x32_1_0_0_1_n_n.lhsNonContracting by decide)]
  rfl
theorem arr_lhs_1 (i : S200000x32.Idx) (q : Cert.ReferenceIdeal.dot_S200000x32_S32x32_S200000x32_1_0_0_1_n_n.contr.Idx) :
    (Cert.ReferenceIdeal.dot_S200000x32_S32x32_S200000x32_1_0_0_1_n_n.lhsIdx i q 1).val = (q ⟨0, by decide⟩).val :=
  Cert.ReferenceIdeal.dot_S200000x32_S32x32_S200000x32_1_0_0_1_n_n.lhsIdx_val_of_single rfl i q
theorem arr_rhs_0 (i : S200000x32.Idx) (q : Cert.ReferenceIdeal.dot_S200000x32_S32x32_S200000x32_1_0_0_1_n_n.contr.Idx) :
    (Cert.ReferenceIdeal.dot_S200000x32_S32x32_S200000x32_1_0_0_1_n_n.rhsIdx i q 0).val = (q ⟨0, by decide⟩).val :=
  Cert.ReferenceIdeal.dot_S200000x32_S32x32_S200000x32_1_0_0_1_n_n.rhsIdx_val_of_single rfl i q
theorem arr_rhs_1 (i : S200000x32.Idx) (q : Cert.ReferenceIdeal.dot_S200000x32_S32x32_S200000x32_1_0_0_1_n_n.contr.Idx) :
    (Cert.ReferenceIdeal.dot_S200000x32_S32x32_S200000x32_1_0_0_1_n_n.rhsIdx i q 1).val = (i 1).val := by
  unfold DotDims.rhsIdx
  rw [dif_neg (show ¬(1 : Fin S32x32.rank) ∈ Cert.ReferenceIdeal.dot_S200000x32_S32x32_S200000x32_1_0_0_1_n_n.rhsBatch by decide), dif_pos (show (1 : Fin S32x32.rank) ∈ Cert.ReferenceIdeal.dot_S200000x32_S32x32_S200000x32_1_0_0_1_n_n.rhsNonContracting by decide)]
  rfl

/-- The dense map of the whole node table at an index: the same sum, over the node's own row. -/
theorem dense32_apply (x : FVec Ideal S200000x32 .f32) (w : FVec Ideal S32x32 .f32) (i : S200000x32.Idx) :
    dense32 (F := Ideal) x w i = ∑ k : Fin 32, x (rowIx (i 0 : Fin 200000) k) * w (colIx k (i 1 : Fin 32)) := by
  unfold dense32
  simp only [Host.dotGeneral]
  rw [Ideal.dotGeneral_apply, ← Equiv.sum_comp (ValueIdx.contrEquiv1 Cert.ReferenceIdeal.dot_S200000x32_S32x32_S200000x32_1_0_0_1_n_n 32 rfl rfl).symm]
  refine Finset.sum_congr rfl fun k _ => ?_
  have hk := ValueIdx.contrEquiv1_symm_val Cert.ReferenceIdeal.dot_S200000x32_S32x32_S200000x32_1_0_0_1_n_n 32 rfl rfl k
  have el : Cert.ReferenceIdeal.dot_S200000x32_S32x32_S200000x32_1_0_0_1_n_n.lhsIdx i ((ValueIdx.contrEquiv1 Cert.ReferenceIdeal.dot_S200000x32_S32x32_S200000x32_1_0_0_1_n_n 32 rfl rfl).symm k) = rowIx (i 0 : Fin 200000) k := funext fun a => Fin.ext (by
    match a with
    | ⟨0, _⟩ => exact arr_lhs_0 _ _
    | ⟨1, _⟩ => exact (arr_lhs_1 _ _).trans hk)
  have er : Cert.ReferenceIdeal.dot_S200000x32_S32x32_S200000x32_1_0_0_1_n_n.rhsIdx i ((ValueIdx.contrEquiv1 Cert.ReferenceIdeal.dot_S200000x32_S32x32_S200000x32_1_0_0_1_n_n 32 rfl rfl).symm k) = colIx k (i 1 : Fin 32) := funext fun a => Fin.ext (by
    match a with
    | ⟨0, _⟩ => exact (arr_rhs_0 _ _).trans hk
    | ⟨1, _⟩ => exact arr_rhs_1 _ _)
  exact congrArg₂ (· * ·) (congrArg x el) (congrArg w er)

/-! ## The first output: from the ten blocks to the array -/

variable (V : (c : Dev nD) → (b : Ref sig .tc) → Buf (Elt Ideal) ((c : Thread nD τ).loc b)) (c : Dev nD)

theorem zero_off : (![0, 0] : Fin 2 → Nat) = fun _ => 0 := funext fun a => by fin_cases a <;> rfl

/-- The printed index maps over the ten grid points: the node table's window and both outputs' are at block
    (point, 0); the two weight windows and the bias window stay at block (0, 0). -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ win2_5.index t (0 : Fin 2) = t.val ∧ win2_5.index t (1 : Fin 2) = 0 :=
  (by decide +kernel : ∀ t : Fin grid2.N, _)

/-- One entry of the first output's block is the dense map's entry at the node's own row, once the row block's
    entries and the weight block's are the arrays' there (the block passes through a cast to its own shape first). -/
theorem pay2_point (X : FVec Ideal S200000x32 .f32) (W : FVec Ideal S32x32 .f32) (x0 : FVec Ideal S20000x32 .f32) (x1 : FVec Ideal S32x32 .f32)
    (j : S20000x32.Idx) (i : S200000x32.Idx)
    (hx : ∀ k : Fin 32, x0 (rowIx (j 0 : Fin 20000) k) = X (rowIx (i 0 : Fin 200000) k))
    (hw : ∀ k : Fin 32, x1 (colIx k (j 1 : Fin 32)) = W (colIx k (i 1 : Fin 32))) :
    k2_pay2 (F := Ideal) x0 x1 j = dense32 (F := Ideal) X W i := by
  show matmul (F := Ideal) dot_S20000x32_S32x32_S20000x32_1_0_0_1_n_n none (shapeCast S20000x32 x0 _) x1 (constant (F := Ideal) S20000x32 .f32 0x00000000#32) j = _
  rw [shapeCast_self, blockProd_apply, dense32_apply]
  exact Finset.sum_congr rfl fun k _ => by rw [hx k, hw k]

/-- What point `t` writes back to the first output is block `t` of the dense map of the arrays as the call finds them. -/
theorem flushed_w (t : Fin cfg2.N) :
    (dat2 V c).flushed 4 t = ((cfg2.win 4).blk t).view.read (Elt Ideal) (dense32 (F := Ideal) (V c main_v38) (V c main_arg6)) := by
  show (cfg2.win 4).cut (grid2.coords t) ((dat2 V c).after 4 t) = _
  rw [after2_4]
  unfold out2_4
  rw [View.canon_unit_zero zero_off]
  simp only [View.ld_unit_zero (S := S20000x32) zero_off, View.ld_unit_zero (S := S32x32) zero_off]
  obtain ⟨e00, e01, e10, e11, -, -, -, -, e40, e41, -, -⟩ := idx_facts t
  funext j
  show k2_pay2 (F := Ideal) (iblk2 V c 0 t) (iblk2 V c 1 t) j = dense32 (F := Ideal) (V c main_v38) (V c main_arg6) (((cfg2.win 4).blk t).view.emb j)
  refine pay2_point _ _ _ _ j _ (fun k => ?_) (fun k => ?_)
  · show V c main_v38 (((cfg2.win 0).blk t).view.emb (rowIx (j 0 : Fin 20000) k)) = V c main_v38 (rowIx ((((cfg2.win 4).blk t).view.emb j) 0 : Fin 200000) k)
    refine congrArg _ (funext fun a => Fin.ext ?_)
    match a with
    | ⟨0, _⟩ => show win2_0.index t (0 : Fin 2) * 20000 + 1 * (j 0).val = win2_4.index t (0 : Fin 2) * 20000 + 1 * (j 0).val; omega
    | ⟨1, _⟩ => show win2_0.index t (1 : Fin 2) * 32 + 1 * k.val = k.val; omega
  · show V c main_arg6 (((cfg2.win 1).blk t).view.emb (colIx k (j 1 : Fin 32))) = V c main_arg6 (colIx k ((((cfg2.win 4).blk t).view.emb j) 1 : Fin 32))
    refine congrArg _ (funext fun a => Fin.ext ?_)
    match a with
    | ⟨0, _⟩ => show win2_1.index t (0 : Fin 2) * 32 + 1 * k.val = k.val; omega
    | ⟨1, _⟩ => show win2_1.index t (1 : Fin 2) * 32 + 1 * (j 1).val = win2_4.index t (1 : Fin 2) * 32 + 1 * (j 1).val; omega

/-- An index of the array is in point `t`'s block iff each coordinate is in the block's range on its axis. -/
theorem mem_blk_w (t : Fin cfg2.N) (i : S200000x32.Idx) :
    i ∈ ((cfg2.win 4).blk t).view.set ↔ ∀ a : Fin 2, win2_4.index t a * S20000x32.size a ≤ (i a).val ∧ (i a).val < win2_4.index t a * S20000x32.size a + S20000x32.size a := by
  show i ∈ ((View.whole main_v40_0).slice (win2_4.rect t)).set ↔ _
  rw [View.set_slice_whole, Rect.mem_set_unit]
  exact Iff.rfl

/-- Every row is in some point's block: row `r` in that of point `r / 20000`. -/
theorem cover_w (i : S200000x32.Idx) : ∃ t : Fin cfg2.N, (cfg2.win 4).flush t = true ∧ i ∈ ((cfg2.win 4).blk t).view.set := by
  have hi0 : (i 0).val < 200000 := (i 0).isLt
  have hi1 : (i 1).val < 32 := (i 1).isLt
  have hN : grid2.N = 10 := N_2
  obtain ⟨t, ht⟩ : ∃ t : Fin cfg2.N, t.val = (i 0).val / 20000 := ⟨⟨(i 0).val / 20000, by show _ < grid2.N; rw [hN]; omega⟩, rfl⟩
  obtain ⟨-, -, -, -, -, -, -, -, e40, e41, -, -⟩ := idx_facts t
  refine ⟨t, flush2_4 t, ?_⟩
  rw [mem_blk_w]
  intro a
  match a with
  | ⟨0, _⟩ => show win2_4.index t (0 : Fin 2) * 20000 ≤ (i 0).val ∧ (i 0).val < win2_4.index t (0 : Fin 2) * 20000 + 20000; omega
  | ⟨1, _⟩ => show win2_4.index t (1 : Fin 2) * 32 ≤ (i 1).val ∧ (i 1).val < win2_4.index t (1 : Fin 2) * 32 + 32; omega

/-- The first output: every node's row times the first weight matrix. -/
theorem out_w : (dat2 V c).arrAt 4 cfg2.N = dense32 (F := Ideal) (V c main_v38) (V c main_arg6) :=
  (dat2 V c).arrAt_eq_of_cover 4 (dense32 (F := Ideal) (V c main_v38) (V c main_arg6)) (fun t _ => flushed_w V c t) cover_w

/-! ## The second output: the same tiling, with the bias row added -/

/-- The bias row laid down the rows of a block, at an index: the row's entry in that column. -/
theorem biasBlock_apply (b : FVec Ideal S1x32 .f32) (h1 : S1x32.ShapeCasts S1x32) (h2 : S1x32.Broadcasts S20000x32) (j : S20000x32.Idx) :
    broadcastTo S20000x32 (shapeCast S1x32 b h1) h2 j = b (ValueIdx.ix2 (0 : Fin 1) (j 1 : Fin 32)) := by
  rw [shapeCast_self]
  exact broadcastTo_apply b h2 j (ValueIdx.ix2 (0 : Fin 1) (j 1 : Fin 32)) (fun a => match a with
    | ⟨0, _⟩ => rfl
    | ⟨1, _⟩ => by show (j 1).val = if (32 : Nat) = 1 then 0 else (j 1).val; rw [if_neg (by decide)])

/-- The bias row laid down the rows of the whole array, at an index: the same entry. -/
theorem biasArr_apply (b : FVec Ideal S1x32 .f32) (h : S1x32.BroadcastsInDim S200000x32 (![0, 1] : Fin 2 → Fin S200000x32.rank)) (i : S200000x32.Idx) :
    broadcastInDim S200000x32 ![0, 1] h b i = b (ValueIdx.ix2 (0 : Fin 1) (i 1 : Fin 32)) :=
  broadcastInDim_apply _ h b i (ValueIdx.ix2 (0 : Fin 1) (i 1 : Fin 32)) (fun a => match a with
    | ⟨0, _⟩ => rfl
    | ⟨1, _⟩ => by show (i 1).val = if (32 : Nat) = 1 then 0 else (i 1).val; rw [if_neg (by decide)])

/-- One entry of the second output's block is the biased dense map's entry at the node's own row, once the row block's
    entries, the weight block's and the bias block's are the arrays' there. -/
theorem pay3_point (X : FVec Ideal S200000x32 .f32) (W : FVec Ideal S32x32 .f32) (B : FVec Ideal S1x32 .f32)
    (x0 : FVec Ideal S20000x32 .f32) (x2 : FVec Ideal S32x32 .f32) (x3 : FVec Ideal S1x32 .f32)
    (j : S20000x32.Idx) (i : S200000x32.Idx)
    (hx : ∀ k : Fin 32, x0 (rowIx (j 0 : Fin 20000) k) = X (rowIx (i 0 : Fin 200000) k))
    (hw : ∀ k : Fin 32, x2 (colIx k (j 1 : Fin 32)) = W (colIx k (i 1 : Fin 32)))
    (hb : x3 (ValueIdx.ix2 (0 : Fin 1) (j 1 : Fin 32)) = B (ValueIdx.ix2 (0 : Fin 1) (i 1 : Fin 32))) :
    k2_pay3 (F := Ideal) x0 x2 x3 j = addBiasRow (F := Ideal) (dense32 (F := Ideal) X W) B i := by
  show matmul (F := Ideal) dot_S20000x32_S32x32_S20000x32_1_0_0_1_n_n none (shapeCast S20000x32 x0 _) x2 (constant (F := Ideal) S20000x32 .f32 0x00000000#32) j
      + broadcastTo S20000x32 (shapeCast S1x32 x3 _) _ j
    = dense32 (F := Ideal) X W i + broadcastInDim S200000x32 ![0, 1] _ B i
  rw [shapeCast_self x0, blockProd_apply, biasBlock_apply, dense32_apply, biasArr_apply, hb]
  refine congrArg (· + _) (Finset.sum_congr rfl fun k _ => ?_)
  rw [hx k, hw k]

/-- What point `t` writes back to the second output is block `t` of the biased dense map of the arrays as the call finds them. -/
theorem flushed_vb (t : Fin cfg2.N) :
    (dat2 V c).flushed 5 t = ((cfg2.win 5).blk t).view.read (Elt Ideal) (addBiasRow (F := Ideal) (dense32 (F := Ideal) (V c main_v38) (V c main_arg7)) (V c main_v39)) := by
  show (cfg2.win 5).cut (grid2.coords t) ((dat2 V c).after 5 t) = _
  rw [after2_5]
  unfold out2_5
  rw [View.canon_unit_zero zero_off]
  simp only [View.ld_unit_zero (S := S20000x32) zero_off, View.ld_unit_zero (S := S32x32) zero_off, View.ld_unit_zero (S := S1x32) zero_off]
  obtain ⟨e00, e01, -, -, e20, e21, e30, e31, -, -, e50, e51⟩ := idx_facts t
  funext j
  show k2_pay3 (F := Ideal) (iblk2 V c 0 t) (iblk2 V c 2 t) (iblk2 V c 3 t) j
    = addBiasRow (F := Ideal) (dense32 (F := Ideal) (V c main_v38) (V c main_arg7)) (V c main_v39) (((cfg2.win 5).blk t).view.emb j)
  refine pay3_point _ _ _ _ _ _ j _ (fun k => ?_) (fun k => ?_) ?_
  · show V c main_v38 (((cfg2.win 0).blk t).view.emb (rowIx (j 0 : Fin 20000) k)) = V c main_v38 (rowIx ((((cfg2.win 5).blk t).view.emb j) 0 : Fin 200000) k)
    refine congrArg _ (funext fun a => Fin.ext ?_)
    match a with
    | ⟨0, _⟩ => show win2_0.index t (0 : Fin 2) * 20000 + 1 * (j 0).val = win2_5.index t (0 : Fin 2) * 20000 + 1 * (j 0).val; omega
    | ⟨1, _⟩ => show win2_0.index t (1 : Fin 2) * 32 + 1 * k.val = k.val; omega
  · show V c main_arg7 (((cfg2.win 2).blk t).view.emb (colIx k (j 1 : Fin 32))) = V c main_arg7 (colIx k ((((cfg2.win 5).blk t).view.emb j) 1 : Fin 32))
    refine congrArg _ (funext fun a => Fin.ext ?_)
    match a with
    | ⟨0, _⟩ => show win2_2.index t (0 : Fin 2) * 32 + 1 * k.val = k.val; omega
    | ⟨1, _⟩ => show win2_2.index t (1 : Fin 2) * 32 + 1 * (j 1).val = win2_5.index t (1 : Fin 2) * 32 + 1 * (j 1).val; omega
  · show V c main_v39 (((cfg2.win 3).blk t).view.emb (ValueIdx.ix2 (0 : Fin 1) (j 1 : Fin 32))) = V c main_v39 (ValueIdx.ix2 (0 : Fin 1) ((((cfg2.win 5).blk t).view.emb j) 1 : Fin 32))
    refine congrArg _ (funext fun a => Fin.ext ?_)
    match a with
    | ⟨0, _⟩ => show win2_3.index t (0 : Fin 2) * 1 + 1 * 0 = 0; omega
    | ⟨1, _⟩ => show win2_3.index t (1 : Fin 2) * 32 + 1 * (j 1).val = win2_5.index t (1 : Fin 2) * 32 + 1 * (j 1).val; omega

/-- An index of the array is in point `t`'s block of the second output iff each coordinate is in the block's range. -/
theorem mem_blk_vb (t : Fin cfg2.N) (i : S200000x32.Idx) :
    i ∈ ((cfg2.win 5).blk t).view.set ↔ ∀ a : Fin 2, win2_5.index t a * S20000x32.size a ≤ (i a).val ∧ (i a).val < win2_5.index t a * S20000x32.size a + S20000x32.size a := by
  show i ∈ ((View.whole main_v40_1).slice (win2_5.rect t)).set ↔ _
  rw [View.set_slice_whole, Rect.mem_set_unit]
  exact Iff.rfl

/-- Every row is in some point's block of the second output: row `r` in that of point `r / 20000`. -/
theorem cover_vb (i : S200000x32.Idx) : ∃ t : Fin cfg2.N, (cfg2.win 5).flush t = true ∧ i ∈ ((cfg2.win 5).blk t).view.set := by
  have hi0 : (i 0).val < 200000 := (i 0).isLt
  have hi1 : (i 1).val < 32 := (i 1).isLt
  have hN : grid2.N = 10 := N_2
  obtain ⟨t, ht⟩ : ∃ t : Fin cfg2.N, t.val = (i 0).val / 20000 := ⟨⟨(i 0).val / 20000, by show _ < grid2.N; rw [hN]; omega⟩, rfl⟩
  obtain ⟨-, -, -, -, -, -, -, -, -, -, e50, e51⟩ := idx_facts t
  refine ⟨t, flush2_5 t, ?_⟩
  rw [mem_blk_vb]
  intro a
  match a with
  | ⟨0, _⟩ => show win2_5.index t (0 : Fin 2) * 20000 ≤ (i 0).val ∧ (i 0).val < win2_5.index t (0 : Fin 2) * 20000 + 20000; omega
  | ⟨1, _⟩ => show win2_5.index t (1 : Fin 2) * 32 ≤ (i 1).val ∧ (i 1).val < win2_5.index t (1 : Fin 2) * 32 + 32; omega

/-- The second output: every node's row times the second weight matrix, plus the bias row. -/
theorem out_vb : (dat2 V c).arrAt 5 cfg2.N = addBiasRow (F := Ideal) (dense32 (F := Ideal) (V c main_v38) (V c main_arg7)) (V c main_v39) :=
  (dat2 V c).arrAt_eq_of_cover 5 (addBiasRow (F := Ideal) (dense32 (F := Ideal) (V c main_v38) (V c main_arg7)) (V c main_v39)) (fun t _ => flushed_vb V c t) cover_vb

end Cert.Arma.Lin2

end
-- ==== Proof.Lin4.lean ====
/-
  Call 4 of the kernel program (a dense layer's two maps, tiled over the nodes in blocks of 20000 rows): whatever
  the arrays hold when the call is entered (`V`), its first output array ends at the dense map of the node table by the
  first weight matrix, its second at the dense map by the second plus the bias row. A block of the output is the
  product of the same block of rows of the input with the whole 32×32 weight matrix, so the ten blocks tile the
  whole-array product.
-/
import proofs.«414211_j44186623541334_1_alg».proof.Proof.Gen.KernelIdeal.Frame
import proofs.«414211_j44186623541334_1_alg».proof.Proof.Gen.ReferenceIdeal
import proofs.«414211_j44186623541334_1_alg».proof.Proof.Model
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

set_option maxRecDepth 16384

noncomputable section

open Idealize.ShloMosaic Idealize.ShloMosaic.TcCoe Idealize.SL.Sem
open Idealize.ShloMosaic.Pipeline (Dat Cfg Window)
open Cert.KernelIdeal Cert.KernelIdeal.Gen

namespace Cert.Arma.Lin4

open Cert.Arma

/-! ## The block product and the whole-array product, each read at an index -/

/-- The operand indices of the block product at output index `j` and contraction index `q`, axis by axis. -/
theorem blk_lhs_0 (j : S20000x32.Idx) (q : dot_S20000x32_S32x32_S20000x32_1_0_0_1_n_n.contr.Idx) :
    (dot_S20000x32_S32x32_S20000x32_1_0_0_1_n_n.lhsIdx j q 0).val = (j 0).val := by
  unfold DotDims.lhsIdx
  rw [dif_neg (show ¬(0 : Fin S20000x32.rank) ∈ dot_S20000x32_S32x32_S20000x32_1_0_0_1_n_n.lhsBatch by decide), dif_pos (show (0 : Fin S20000x32.rank) ∈ dot_S20000x32_S32x32_S20000x32_1_0_0_1_n_n.lhsNonContracting by decide)]
  rfl
theorem blk_lhs_1 (j : S20000x32.Idx) (q : dot_S20000x32_S32x32_S20000x32_1_0_0_1_n_n.contr.Idx) :
    (dot_S20000x32_S32x32_S20000x32_1_0_0_1_n_n.lhsIdx j q 1).val = (q ⟨0, by decide⟩).val :=
  dot_S20000x32_S32x32_S20000x32_1_0_0_1_n_n.lhsIdx_val_of_single rfl j q
theorem blk_rhs_0 (j : S20000x32.Idx) (q : dot_S20000x32_S32x32_S20000x32_1_0_0_1_n_n.contr.Idx) :
    (dot_S20000x32_S32x32_S20000x32_1_0_0_1_n_n.rhsIdx j q 0).val = (q ⟨0, by decide⟩).val :=
  dot_S20000x32_S32x32_S20000x32_1_0_0_1_n_n.rhsIdx_val_of_single rfl j q
theorem blk_rhs_1 (j : S20000x32.Idx) (q : dot_S20000x32_S32x32_S20000x32_1_0_0_1_n_n.contr.Idx) :
    (dot_S20000x32_S32x32_S20000x32_1_0_0_1_n_n.rhsIdx j q 1).val = (j 1).val := by
  unfold DotDims.rhsIdx
  rw [dif_neg (show ¬(1 : Fin S32x32.rank) ∈ dot_S20000x32_S32x32_S20000x32_1_0_0_1_n_n.rhsBatch by decide), dif_pos (show (1 : Fin S32x32.rank) ∈ dot_S20000x32_S32x32_S20000x32_1_0_0_1_n_n.rhsNonContracting by decide)]
  rfl

/-- Row `r`, feature `k` of a table of 32-feature rows. -/
abbrev rowIx {n : Nat} (r : Fin n) (k : Fin 32) : (⟨2, ![n, 32]⟩ : Shape).Idx := ValueIdx.ix2 r k
/-- Feature `k`, output `q` of the weight matrix. -/
abbrev colIx (k : Fin 32) (q : Fin 32) : S32x32.Idx := ValueIdx.ix2 k q

/-- The product of a block of rows with the weight matrix, accumulated into zero, at an index of the block: the sum
    over the 32 features of the row's entry times the matrix's. -/
theorem blockProd_apply (x : FVec Ideal S20000x32 .f32) (w : FVec Ideal S32x32 .f32) (j : S20000x32.Idx) :
    matmul (F := Ideal) dot_S20000x32_S32x32_S20000x32_1_0_0_1_n_n none x w (constant (F := Ideal) S20000x32 .f32 0x00000000#32) j
      = ∑ k : Fin 32, x (rowIx (j 0 : Fin 20000) k) * w (colIx k (j 1 : Fin 32)) := by
  simp only [matmul]
  rw [Ideal.matmul_constant_zero_apply, ← Equiv.sum_comp (ValueIdx.contrEquiv1 dot_S20000x32_S32x32_S20000x32_1_0_0_1_n_n 32 rfl rfl).symm]
  refine Finset.sum_congr rfl fun k _ => ?_
  have hk := ValueIdx.contrEquiv1_symm_val dot_S20000x32_S32x32_S20000x32_1_0_0_1_n_n 32 rfl rfl k
  have el : dot_S20000x32_S32x32_S20000x32_1_0_0_1_n_n.lhsIdx j ((ValueIdx.contrEquiv1 dot_S20000x32_S32x32_S20000x32_1_0_0_1_n_n 32 rfl rfl).symm k) = rowIx (j 0 : Fin 20000) k := funext fun a => Fin.ext (by
    match a with
    | ⟨0, _⟩ => exact blk_lhs_0 _ _
    | ⟨1, _⟩ => exact (blk_lhs_1 _ _).trans hk)
  have er : dot_S20000x32_S32x32_S20000x32_1_0_0_1_n_n.rhsIdx j ((ValueIdx.contrEquiv1 dot_S20000x32_S32x32_S20000x32_1_0_0_1_n_n 32 rfl rfl).symm k) = colIx k (j 1 : Fin 32) := funext fun a => Fin.ext (by
    match a with
    | ⟨0, _⟩ => exact (blk_rhs_0 _ _).trans hk
    | ⟨1, _⟩ => exact blk_rhs_1 _ _)
  exact congrArg₂ (· * ·) (congrArg x el) (congrArg w er)

/-- The same four facts for the whole-array product's dimension numbers. -/
theorem arr_lhs_0 (i : S200000x32.Idx) (q : Cert.ReferenceIdeal.dot_S200000x32_S32x32_S200000x32_1_0_0_1_n_n.contr.Idx) :
    (Cert.ReferenceIdeal.dot_S200000x32_S32x32_S200000x32_1_0_0_1_n_n.lhsIdx i q 0).val = (i 0).val := by
  unfold DotDims.lhsIdx
  rw [dif_neg (show ¬(0 : Fin S200000x32.rank) ∈ Cert.ReferenceIdeal.dot_S200000x32_S32x32_S200000x32_1_0_0_1_n_n.lhsBatch by decide), dif_pos (show (0 : Fin S200000x32.rank) ∈ Cert.ReferenceIdeal.dot_S200000x32_S32x32_S200000x32_1_0_0_1_n_n.lhsNonContracting by decide)]
  rfl
theorem arr_lhs_1 (i : S200000x32.Idx) (q : Cert.ReferenceIdeal.dot_S200000x32_S32x32_S200000x32_1_0_0_1_n_n.contr.Idx) :
    (Cert.ReferenceIdeal.dot_S200000x32_S32x32_S200000x32_1_0_0_1_n_n.lhsIdx i q 1).val = (q ⟨0, by decide⟩).val :=
  Cert.ReferenceIdeal.dot_S200000x32_S32x32_S200000x32_1_0_0_1_n_n.lhsIdx_val_of_single rfl i q
theorem arr_rhs_0 (i : S200000x32.Idx) (q : Cert.ReferenceIdeal.dot_S200000x32_S32x32_S200000x32_1_0_0_1_n_n.contr.Idx) :
    (Cert.ReferenceIdeal.dot_S200000x32_S32x32_S200000x32_1_0_0_1_n_n.rhsIdx i q 0).val = (q ⟨0, by decide⟩).val :=
  Cert.ReferenceIdeal.dot_S200000x32_S32x32_S200000x32_1_0_0_1_n_n.rhsIdx_val_of_single rfl i q
theorem arr_rhs_1 (i : S200000x32.Idx) (q : Cert.ReferenceIdeal.dot_S200000x32_S32x32_S200000x32_1_0_0_1_n_n.contr.Idx) :
    (Cert.ReferenceIdeal.dot_S200000x32_S32x32_S200000x32_1_0_0_1_n_n.rhsIdx i q 1).val = (i 1).val := by
  unfold DotDims.rhsIdx
  rw [dif_neg (show ¬(1 : Fin S32x32.rank) ∈ Cert.ReferenceIdeal.dot_S200000x32_S32x32_S200000x32_1_0_0_1_n_n.rhsBatch by decide), dif_pos (show (1 : Fin S32x32.rank) ∈ Cert.ReferenceIdeal.dot_S200000x32_S32x32_S200000x32_1_0_0_1_n_n.rhsNonContracting by decide)]
  rfl

/-- The dense map of the whole node table at an index: the same sum, over the node's own row. -/
theorem dense32_apply (x : FVec Ideal S200000x32 .f32) (w : FVec Ideal S32x32 .f32) (i : S200000x32.Idx) :
    dense32 (F := Ideal) x w i = ∑ k : Fin 32, x (rowIx (i 0 : Fin 200000) k) * w (colIx k (i 1 : Fin 32)) := by
  unfold dense32
  simp only [Host.dotGeneral]
  rw [Ideal.dotGeneral_apply, ← Equiv.sum_comp (ValueIdx.contrEquiv1 Cert.ReferenceIdeal.dot_S200000x32_S32x32_S200000x32_1_0_0_1_n_n 32 rfl rfl).symm]
  refine Finset.sum_congr rfl fun k _ => ?_
  have hk := ValueIdx.contrEquiv1_symm_val Cert.ReferenceIdeal.dot_S200000x32_S32x32_S200000x32_1_0_0_1_n_n 32 rfl rfl k
  have el : Cert.ReferenceIdeal.dot_S200000x32_S32x32_S200000x32_1_0_0_1_n_n.lhsIdx i ((ValueIdx.contrEquiv1 Cert.ReferenceIdeal.dot_S200000x32_S32x32_S200000x32_1_0_0_1_n_n 32 rfl rfl).symm k) = rowIx (i 0 : Fin 200000) k := funext fun a => Fin.ext (by
    match a with
    | ⟨0, _⟩ => exact arr_lhs_0 _ _
    | ⟨1, _⟩ => exact (arr_lhs_1 _ _).trans hk)
  have er : Cert.ReferenceIdeal.dot_S200000x32_S32x32_S200000x32_1_0_0_1_n_n.rhsIdx i ((ValueIdx.contrEquiv1 Cert.ReferenceIdeal.dot_S200000x32_S32x32_S200000x32_1_0_0_1_n_n 32 rfl rfl).symm k) = colIx k (i 1 : Fin 32) := funext fun a => Fin.ext (by
    match a with
    | ⟨0, _⟩ => exact (arr_rhs_0 _ _).trans hk
    | ⟨1, _⟩ => exact arr_rhs_1 _ _)
  exact congrArg₂ (· * ·) (congrArg x el) (congrArg w er)

/-! ## The first output: from the ten blocks to the array -/

variable (V : (c : Dev nD) → (b : Ref sig .tc) → Buf (Elt Ideal) ((c : Thread nD τ).loc b)) (c : Dev nD)

theorem zero_off : (![0, 0] : Fin 2 → Nat) = fun _ => 0 := funext fun a => by fin_cases a <;> rfl

/-- The printed index maps over the ten grid points: the node table's window and both outputs' are at block
    (point, 0); the two weight windows and the bias window stay at block (0, 0). -/
theorem idx_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0
    ∧ win4_5.index t (0 : Fin 2) = t.val ∧ win4_5.index t (1 : Fin 2) = 0 :=
  (by decide +kernel : ∀ t : Fin grid4.N, _)

/-- One entry of the first output's block is the dense map's entry at the node's own row, once the row block's
    entries and the weight block's are the arrays' there (the block passes through a cast to its own shape first). -/
theorem pay2_point (X : FVec Ideal S200000x32 .f32) (W : FVec Ideal S32x32 .f32) (x0 : FVec Ideal S20000x32 .f32) (x1 : FVec Ideal S32x32 .f32)
    (j : S20000x32.Idx) (i : S200000x32.Idx)
    (hx : ∀ k : Fin 32, x0 (rowIx (j 0 : Fin 20000) k) = X (rowIx (i 0 : Fin 200000) k))
    (hw : ∀ k : Fin 32, x1 (colIx k (j 1 : Fin 32)) = W (colIx k (i 1 : Fin 32))) :
    k4_pay2 (F := Ideal) x0 x1 j = dense32 (F := Ideal) X W i := by
  show matmul (F := Ideal) dot_S20000x32_S32x32_S20000x32_1_0_0_1_n_n none (shapeCast S20000x32 x0 _) x1 (constant (F := Ideal) S20000x32 .f32 0x00000000#32) j = _
  rw [shapeCast_self, blockProd_apply, dense32_apply]
  exact Finset.sum_congr rfl fun k _ => by rw [hx k, hw k]

/-- What point `t` writes back to the first output is block `t` of the dense map of the arrays as the call finds them. -/
theorem flushed_w (t : Fin cfg4.N) :
    (dat4 V c).flushed 4 t = ((cfg4.win 4).blk t).view.read (Elt Ideal) (dense32 (F := Ideal) (V c main_v48) (V c main_arg9)) := by
  show (cfg4.win 4).cut (grid4.coords t) ((dat4 V c).after 4 t) = _
  rw [after4_4]
  unfold out4_4
  rw [View.canon_unit_zero zero_off]
  simp only [View.ld_unit_zero (S := S20000x32) zero_off, View.ld_unit_zero (S := S32x32) zero_off]
  obtain ⟨e00, e01, e10, e11, -, -, -, -, e40, e41, -, -⟩ := idx_facts t
  funext j
  show k4_pay2 (F := Ideal) (iblk4 V c 0 t) (iblk4 V c 1 t) j = dense32 (F := Ideal) (V c main_v48) (V c main_arg9) (((cfg4.win 4).blk t).view.emb j)
  refine pay2_point _ _ _ _ j _ (fun k => ?_) (fun k => ?_)
  · show V c main_v48 (((cfg4.win 0).blk t).view.emb (rowIx (j 0 : Fin 20000) k)) = V c main_v48 (rowIx ((((cfg4.win 4).blk t).view.emb j) 0 : Fin 200000) k)
    refine congrArg _ (funext fun a => Fin.ext ?_)
    match a with
    | ⟨0, _⟩ => show win4_0.index t (0 : Fin 2) * 20000 + 1 * (j 0).val = win4_4.index t (0 : Fin 2) * 20000 + 1 * (j 0).val; omega
    | ⟨1, _⟩ => show win4_0.index t (1 : Fin 2) * 32 + 1 * k.val = k.val; omega
  · show V c main_arg9 (((cfg4.win 1).blk t).view.emb (colIx k (j 1 : Fin 32))) = V c main_arg9 (colIx k ((((cfg4.win 4).blk t).view.emb j) 1 : Fin 32))
    refine congrArg _ (funext fun a => Fin.ext ?_)
    match a with
    | ⟨0, _⟩ => show win4_1.index t (0 : Fin 2) * 32 + 1 * k.val = k.val; omega
    | ⟨1, _⟩ => show win4_1.index t (1 : Fin 2) * 32 + 1 * (j 1).val = win4_4.index t (1 : Fin 2) * 32 + 1 * (j 1).val; omega

/-- An index of the array is in point `t`'s block iff each coordinate is in the block's range on its axis. -/
theorem mem_blk_w (t : Fin cfg4.N) (i : S200000x32.Idx) :
    i ∈ ((cfg4.win 4).blk t).view.set ↔ ∀ a : Fin 2, win4_4.index t a * S20000x32.size a ≤ (i a).val ∧ (i a).val < win4_4.index t a * S20000x32.size a + S20000x32.size a := by
  show i ∈ ((View.whole main_v50_0).slice (win4_4.rect t)).set ↔ _
  rw [View.set_slice_whole, Rect.mem_set_unit]
  exact Iff.rfl

/-- Every row is in some point's block: row `r` in that of point `r / 20000`. -/
theorem cover_w (i : S200000x32.Idx) : ∃ t : Fin cfg4.N, (cfg4.win 4).flush t = true ∧ i ∈ ((cfg4.win 4).blk t).view.set := by
  have hi0 : (i 0).val < 200000 := (i 0).isLt
  have hi1 : (i 1).val < 32 := (i 1).isLt
  have hN : grid4.N = 10 := N_4
  obtain ⟨t, ht⟩ : ∃ t : Fin cfg4.N, t.val = (i 0).val / 20000 := ⟨⟨(i 0).val / 20000, by show _ < grid4.N; rw [hN]; omega⟩, rfl⟩
  obtain ⟨-, -, -, -, -, -, -, -, e40, e41, -, -⟩ := idx_facts t
  refine ⟨t, flush4_4 t, ?_⟩
  rw [mem_blk_w]
  intro a
  match a with
  | ⟨0, _⟩ => show win4_4.index t (0 : Fin 2) * 20000 ≤ (i 0).val ∧ (i 0).val < win4_4.index t (0 : Fin 2) * 20000 + 20000; omega
  | ⟨1, _⟩ => show win4_4.index t (1 : Fin 2) * 32 ≤ (i 1).val ∧ (i 1).val < win4_4.index t (1 : Fin 2) * 32 + 32; omega

/-- The first output: every node's row times the first weight matrix. -/
theorem out_w : (dat4 V c).arrAt 4 cfg4.N = dense32 (F := Ideal) (V c main_v48) (V c main_arg9) :=
  (dat4 V c).arrAt_eq_of_cover 4 (dense32 (F := Ideal) (V c main_v48) (V c main_arg9)) (fun t _ => flushed_w V c t) cover_w

/-! ## The second output: the same tiling, with the bias row added -/

/-- The bias row laid down the rows of a block, at an index: the row's entry in that column. -/
theorem biasBlock_apply (b : FVec Ideal S1x32 .f32) (h1 : S1x32.ShapeCasts S1x32) (h2 : S1x32.Broadcasts S20000x32) (j : S20000x32.Idx) :
    broadcastTo S20000x32 (shapeCast S1x32 b h1) h2 j = b (ValueIdx.ix2 (0 : Fin 1) (j 1 : Fin 32)) := by
  rw [shapeCast_self]
  exact broadcastTo_apply b h2 j (ValueIdx.ix2 (0 : Fin 1) (j 1 : Fin 32)) (fun a => match a with
    | ⟨0, _⟩ => rfl
    | ⟨1, _⟩ => by show (j 1).val = if (32 : Nat) = 1 then 0 else (j 1).val; rw [if_neg (by decide)])

/-- The bias row laid down the rows of the whole array, at an index: the same entry. -/
theorem biasArr_apply (b : FVec Ideal S1x32 .f32) (h : S1x32.BroadcastsInDim S200000x32 (![0, 1] : Fin 2 → Fin S200000x32.rank)) (i : S200000x32.Idx) :
    broadcastInDim S200000x32 ![0, 1] h b i = b (ValueIdx.ix2 (0 : Fin 1) (i 1 : Fin 32)) :=
  broadcastInDim_apply _ h b i (ValueIdx.ix2 (0 : Fin 1) (i 1 : Fin 32)) (fun a => match a with
    | ⟨0, _⟩ => rfl
    | ⟨1, _⟩ => by show (i 1).val = if (32 : Nat) = 1 then 0 else (i 1).val; rw [if_neg (by decide)])

/-- One entry of the second output's block is the biased dense map's entry at the node's own row, once the row block's
    entries, the weight block's and the bias block's are the arrays' there. -/
theorem pay3_point (X : FVec Ideal S200000x32 .f32) (W : FVec Ideal S32x32 .f32) (B : FVec Ideal S1x32 .f32)
    (x0 : FVec Ideal S20000x32 .f32) (x2 : FVec Ideal S32x32 .f32) (x3 : FVec Ideal S1x32 .f32)
    (j : S20000x32.Idx) (i : S200000x32.Idx)
    (hx : ∀ k : Fin 32, x0 (rowIx (j 0 : Fin 20000) k) = X (rowIx (i 0 : Fin 200000) k))
    (hw : ∀ k : Fin 32, x2 (colIx k (j 1 : Fin 32)) = W (colIx k (i 1 : Fin 32)))
    (hb : x3 (ValueIdx.ix2 (0 : Fin 1) (j 1 : Fin 32)) = B (ValueIdx.ix2 (0 : Fin 1) (i 1 : Fin 32))) :
    k4_pay3 (F := Ideal) x0 x2 x3 j = addBiasRow (F := Ideal) (dense32 (F := Ideal) X W) B i := by
  show matmul (F := Ideal) dot_S20000x32_S32x32_S20000x32_1_0_0_1_n_n none (shapeCast S20000x32 x0 _) x2 (constant (F := Ideal) S20000x32 .f32 0x00000000#32) j
      + broadcastTo S20000x32 (shapeCast S1x32 x3 _) _ j
    = dense32 (F := Ideal) X W i + broadcastInDim S200000x32 ![0, 1] _ B i
  rw [shapeCast_self x0, blockProd_apply, biasBlock_apply, dense32_apply, biasArr_apply, hb]
  refine congrArg (· + _) (Finset.sum_congr rfl fun k _ => ?_)
  rw [hx k, hw k]

/-- What point `t` writes back to the second output is block `t` of the biased dense map of the arrays as the call finds them. -/
theorem flushed_vb (t : Fin cfg4.N) :
    (dat4 V c).flushed 5 t = ((cfg4.win 5).blk t).view.read (Elt Ideal) (addBiasRow (F := Ideal) (dense32 (F := Ideal) (V c main_v48) (V c main_arg10)) (V c main_v49)) := by
  show (cfg4.win 5).cut (grid4.coords t) ((dat4 V c).after 5 t) = _
  rw [after4_5]
  unfold out4_5
  rw [View.canon_unit_zero zero_off]
  simp only [View.ld_unit_zero (S := S20000x32) zero_off, View.ld_unit_zero (S := S32x32) zero_off, View.ld_unit_zero (S := S1x32) zero_off]
  obtain ⟨e00, e01, -, -, e20, e21, e30, e31, -, -, e50, e51⟩ := idx_facts t
  funext j
  show k4_pay3 (F := Ideal) (iblk4 V c 0 t) (iblk4 V c 2 t) (iblk4 V c 3 t) j
    = addBiasRow (F := Ideal) (dense32 (F := Ideal) (V c main_v48) (V c main_arg10)) (V c main_v49) (((cfg4.win 5).blk t).view.emb j)
  refine pay3_point _ _ _ _ _ _ j _ (fun k => ?_) (fun k => ?_) ?_
  · show V c main_v48 (((cfg4.win 0).blk t).view.emb (rowIx (j 0 : Fin 20000) k)) = V c main_v48 (rowIx ((((cfg4.win 5).blk t).view.emb j) 0 : Fin 200000) k)
    refine congrArg _ (funext fun a => Fin.ext ?_)
    match a with
    | ⟨0, _⟩ => show win4_0.index t (0 : Fin 2) * 20000 + 1 * (j 0).val = win4_5.index t (0 : Fin 2) * 20000 + 1 * (j 0).val; omega
    | ⟨1, _⟩ => show win4_0.index t (1 : Fin 2) * 32 + 1 * k.val = k.val; omega
  · show V c main_arg10 (((cfg4.win 2).blk t).view.emb (colIx k (j 1 : Fin 32))) = V c main_arg10 (colIx k ((((cfg4.win 5).blk t).view.emb j) 1 : Fin 32))
    refine congrArg _ (funext fun a => Fin.ext ?_)
    match a with
    | ⟨0, _⟩ => show win4_2.index t (0 : Fin 2) * 32 + 1 * k.val = k.val; omega
    | ⟨1, _⟩ => show win4_2.index t (1 : Fin 2) * 32 + 1 * (j 1).val = win4_5.index t (1 : Fin 2) * 32 + 1 * (j 1).val; omega
  · show V c main_v49 (((cfg4.win 3).blk t).view.emb (ValueIdx.ix2 (0 : Fin 1) (j 1 : Fin 32))) = V c main_v49 (ValueIdx.ix2 (0 : Fin 1) ((((cfg4.win 5).blk t).view.emb j) 1 : Fin 32))
    refine congrArg _ (funext fun a => Fin.ext ?_)
    match a with
    | ⟨0, _⟩ => show win4_3.index t (0 : Fin 2) * 1 + 1 * 0 = 0; omega
    | ⟨1, _⟩ => show win4_3.index t (1 : Fin 2) * 32 + 1 * (j 1).val = win4_5.index t (1 : Fin 2) * 32 + 1 * (j 1).val; omega

/-- An index of the array is in point `t`'s block of the second output iff each coordinate is in the block's range. -/
theorem mem_blk_vb (t : Fin cfg4.N) (i : S200000x32.Idx) :
    i ∈ ((cfg4.win 5).blk t).view.set ↔ ∀ a : Fin 2, win4_5.index t a * S20000x32.size a ≤ (i a).val ∧ (i a).val < win4_5.index t a * S20000x32.size a + S20000x32.size a := by
  show i ∈ ((View.whole main_v50_1).slice (win4_5.rect t)).set ↔ _
  rw [View.set_slice_whole, Rect.mem_set_unit]
  exact Iff.rfl

/-- Every row is in some point's block of the second output: row `r` in that of point `r / 20000`. -/
theorem cover_vb (i : S200000x32.Idx) : ∃ t : Fin cfg4.N, (cfg4.win 5).flush t = true ∧ i ∈ ((cfg4.win 5).blk t).view.set := by
  have hi0 : (i 0).val < 200000 := (i 0).isLt
  have hi1 : (i 1).val < 32 := (i 1).isLt
  have hN : grid4.N = 10 := N_4
  obtain ⟨t, ht⟩ : ∃ t : Fin cfg4.N, t.val = (i 0).val / 20000 := ⟨⟨(i 0).val / 20000, by show _ < grid4.N; rw [hN]; omega⟩, rfl⟩
  obtain ⟨-, -, -, -, -, -, -, -, -, -, e50, e51⟩ := idx_facts t
  refine ⟨t, flush4_5 t, ?_⟩
  rw [mem_blk_vb]
  intro a
  match a with
  | ⟨0, _⟩ => show win4_5.index t (0 : Fin 2) * 20000 ≤ (i 0).val ∧ (i 0).val < win4_5.index t (0 : Fin 2) * 20000 + 20000; omega
  | ⟨1, _⟩ => show win4_5.index t (1 : Fin 2) * 32 ≤ (i 1).val ∧ (i 1).val < win4_5.index t (1 : Fin 2) * 32 + 32; omega

/-- The second output: every node's row times the second weight matrix, plus the bias row. -/
theorem out_vb : (dat4 V c).arrAt 5 cfg4.N = addBiasRow (F := Ideal) (dense32 (F := Ideal) (V c main_v48) (V c main_arg10)) (V c main_v49) :=
  (dat4 V c).arrAt_eq_of_cover 5 (addBiasRow (F := Ideal) (dense32 (F := Ideal) (V c main_v48) (V c main_arg10)) (V c main_v49)) (fun t _ => flushed_vb V c t) cover_vb

end Cert.Arma.Lin4

end
-- ==== Proof.Comb1.lean ====
/-
  Call 1 of the kernel program (the layer's epilogue, tiled over the nodes in blocks of 20000 rows): whatever the
  arrays hold when the call is entered (`V`), its output array ends at relu of the sum of its two input arrays, entry
  by entry.
-/
import proofs.«414211_j44186623541334_1_alg».proof.Proof.Gen.KernelIdeal.Frame
import proofs.«414211_j44186623541334_1_alg».proof.Proof.Gen.ReferenceIdeal
import proofs.«414211_j44186623541334_1_alg».proof.Proof.Model
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

set_option maxRecDepth 16384

noncomputable section

open Idealize.ShloMosaic Idealize.ShloMosaic.TcCoe Idealize.SL.Sem
open Idealize.ShloMosaic.Pipeline (Dat Cfg Window)
open Cert.KernelIdeal Cert.KernelIdeal.Gen

namespace Cert.Arma.Comb1

open Cert.Arma

variable (V : (c : Dev nD) → (b : Ref sig .tc) → Buf (Elt Ideal) ((c : Thread nD τ).loc b)) (c : Dev nD)

/-- The one store of the body starts at the origin of its block. -/
theorem origin : (![0, 0] : Fin 2 → Nat) = fun _ => 0 := funext fun a => by fin_cases a <;> rfl

/-- The body's payload: relu of the sum of its two loaded blocks (the two shape casts are identities). -/
theorem pay_eq (x0 x1 : FVec Ideal S20000x32 .f32) :
    k1_pay1 (F := Ideal) x0 x1 = maximumf (F := Ideal) (addf (F := Ideal) x0 x1) (broadcast S20000x32 (Scalar.ofBits (F := Ideal) .f32 0x00000000#32)) := by
  show maximumf (F := Ideal) (addf (F := Ideal) (shapeCast S20000x32 x0 shapeCasts_S20000x32_S20000x32) (shapeCast S20000x32 x1 shapeCasts_S20000x32_S20000x32))
      (broadcast S20000x32 (Scalar.ofBits (F := Ideal) .f32 0x00000000#32)) = _
  rw [shapeCast_self, shapeCast_self]

/-- The index maps over the grid: all three windows sit at block (t, 0), and there are ten row blocks. -/
theorem idx_facts : ∀ t : Fin cfg1.N, win1_0.index t (0 : Fin 2) = win1_2.index t (0 : Fin 2)
    ∧ win1_0.index t (1 : Fin 2) = win1_2.index t (1 : Fin 2)
    ∧ win1_1.index t (0 : Fin 2) = win1_2.index t (0 : Fin 2)
    ∧ win1_1.index t (1 : Fin 2) = win1_2.index t (1 : Fin 2)
    ∧ win1_2.index t (0 : Fin 2) ≤ 9
    ∧ win1_2.index t (1 : Fin 2) = 0 :=
  (by decide +kernel : ∀ t : Fin grid1.N, _)

/-- Every one of the ten row blocks is some point's. -/
theorem idx_onto : ∀ q : Fin 10, ∃ t : Fin cfg1.N, win1_2.index t = ![q.val, 0] :=
  (by decide +kernel : ∀ q : Fin 10, ∃ t : Fin grid1.N, win1_2.index t = ![q.val, 0])

/-- What point `t` writes back is block `t` of relu (aggregated + root term) of the arrays as the call finds them. -/
theorem flushed_eq (t : Fin cfg1.N) :
    (dat1 V c).flushed 2 t
      = ((cfg1.win 2).blk t).view.read (Elt Ideal) (relu0 (F := Ideal) (addf (V c main_v37) (V c main_v30_1))) := by
  show (cfg1.win 2).cut (grid1.coords t) ((dat1 V c).after 2 t) = _
  rw [after1_2]
  unfold out1_2
  rw [View.canon_unit_zero origin]
  simp only [View.ld_unit_zero (S := S20000x32) origin]
  rw [pay_eq]
  obtain ⟨e0, e1, e2, e3, e4, e5⟩ := idx_facts t
  funext j
  show FloatOps.maximumf (F := Ideal) (φ := .f32) (FloatOps.addf (F := Ideal) (φ := .f32) (V c main_v37 (((cfg1.win 0).blk t).view.emb j)) (V c main_v30_1 (((cfg1.win 1).blk t).view.emb j))) (Scalar.ofBits (F := Ideal) .f32 0x00000000#32)
    = FloatOps.maximumf (F := Ideal) (φ := .f32) (FloatOps.addf (F := Ideal) (φ := .f32) (V c main_v37 (((cfg1.win 2).blk t).view.emb j)) (V c main_v30_1 (((cfg1.win 2).blk t).view.emb j))) (Scalar.ofBits (F := Ideal) .f32 0x00000000#32)
  have h0 : ((cfg1.win 0).blk t).view.emb j = ((cfg1.win 2).blk t).view.emb j := by
    funext a; apply Fin.ext
    match a with
    | ⟨0, _⟩ => show win1_0.index t (0 : Fin 2) * 20000 + 1 * (j 0).val = win1_2.index t (0 : Fin 2) * 20000 + 1 * (j 0).val; omega
    | ⟨1, _⟩ => show win1_0.index t (1 : Fin 2) * 32 + 1 * (j 1).val = win1_2.index t (1 : Fin 2) * 32 + 1 * (j 1).val; omega
  have h1 : ((cfg1.win 1).blk t).view.emb j = ((cfg1.win 2).blk t).view.emb j := by
    funext a; apply Fin.ext
    match a with
    | ⟨0, _⟩ => show win1_1.index t (0 : Fin 2) * 20000 + 1 * (j 0).val = win1_2.index t (0 : Fin 2) * 20000 + 1 * (j 0).val; omega
    | ⟨1, _⟩ => show win1_1.index t (1 : Fin 2) * 32 + 1 * (j 1).val = win1_2.index t (1 : Fin 2) * 32 + 1 * (j 1).val; omega
  rw [h0, h1]

/-- An index of the array is in point `t`'s block iff each coordinate is in the block's range on its axis. -/
theorem mem_blk (t : Fin cfg1.N) (i : S200000x32.Idx) :
    i ∈ ((cfg1.win 2).blk t).view.set
      ↔ ∀ a : Fin 2, win1_2.index t a * S20000x32.size a ≤ (i a).val ∧ (i a).val < win1_2.index t a * S20000x32.size a + S20000x32.size a := by
  show i ∈ ((View.whole main_v38).slice (win1_2.rect t)).set ↔ _
  rw [View.set_slice_whole, Rect.mem_set_unit]
  exact Iff.rfl

/-- The ten blocks of 20000 rows cover the array: row `r` lies in the block of point `r / 20000`. -/
theorem cover (i : S200000x32.Idx) :
    ∃ t : Fin cfg1.N, (cfg1.win 2).flush t = true ∧ i ∈ ((cfg1.win 2).blk t).view.set := by
  have hi0 : (i 0).val < 200000 := (i 0).isLt
  have hi1 : (i 1).val < 32 := (i 1).isLt
  obtain ⟨t, ht⟩ := idx_onto ⟨(i 0).val / 20000, by omega⟩
  have q0 : win1_2.index t (0 : Fin 2) = (i 0).val / 20000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 20000 ≤ (i 0).val ∧ (i 0).val < win1_2.index t (0 : Fin 2) * 20000 + 20000; omega
  | ⟨1, _⟩ => show win1_2.index t (1 : Fin 2) * 32 ≤ (i 1).val ∧ (i 1).val < win1_2.index t (1 : Fin 2) * 32 + 32; omega

/-- The output: relu (aggregated + root term), entry by entry. -/
theorem out : (dat1 V c).arrAt 2 cfg1.N = relu0 (F := Ideal) (addf (V c main_v37) (V c main_v30_1)) := by
  exact (dat1 V c).arrAt_eq_of_cover 2 (relu0 (F := Ideal) (addf (V c main_v37) (V c main_v30_1)))
    (fun t _ => flushed_eq V c t) cover

end Cert.Arma.Comb1

end
-- ==== Proof.Comb3.lean ====
/-
  Call 3 of the kernel program (the layer's epilogue, tiled over the nodes in blocks of 20000 rows): whatever the
  arrays hold when the call is entered (`V`), its output array ends at relu of the sum of its two input arrays, entry
  by entry.
-/
import proofs.«414211_j44186623541334_1_alg».proof.Proof.Gen.KernelIdeal.Frame
import proofs.«414211_j44186623541334_1_alg».proof.Proof.Gen.ReferenceIdeal
import proofs.«414211_j44186623541334_1_alg».proof.Proof.Model
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

set_option maxRecDepth 16384

noncomputable section

open Idealize.ShloMosaic Idealize.ShloMosaic.TcCoe Idealize.SL.Sem
open Idealize.ShloMosaic.Pipeline (Dat Cfg Window)
open Cert.KernelIdeal Cert.KernelIdeal.Gen

namespace Cert.Arma.Comb3

open Cert.Arma

variable (V : (c : Dev nD) → (b : Ref sig .tc) → Buf (Elt Ideal) ((c : Thread nD τ).loc b)) (c : Dev nD)

/-- The one store of the body starts at the origin of its block. -/
theorem origin : (![0, 0] : Fin 2 → Nat) = fun _ => 0 := funext fun a => by fin_cases a <;> rfl

/-- The body's payload: relu of the sum of its two loaded blocks (the two shape casts are identities). -/
theorem pay_eq (x0 x1 : FVec Ideal S20000x32 .f32) :
    k3_pay1 (F := Ideal) x0 x1 = maximumf (F := Ideal) (addf (F := Ideal) x0 x1) (broadcast S20000x32 (Scalar.ofBits (F := Ideal) .f32 0x00000000#32)) := by
  show maximumf (F := Ideal) (addf (F := Ideal) (shapeCast S20000x32 x0 shapeCasts_S20000x32_S20000x32) (shapeCast S20000x32 x1 shapeCasts_S20000x32_S20000x32))
      (broadcast S20000x32 (Scalar.ofBits (F := Ideal) .f32 0x00000000#32)) = _
  rw [shapeCast_self, shapeCast_self]

/-- The index maps over the grid: all three windows sit at block (t, 0), and there are ten row blocks. -/
theorem idx_facts : ∀ t : Fin cfg3.N, win3_0.index t (0 : Fin 2) = win3_2.index t (0 : Fin 2)
    ∧ win3_0.index t (1 : Fin 2) = win3_2.index t (1 : Fin 2)
    ∧ win3_1.index t (0 : Fin 2) = win3_2.index t (0 : Fin 2)
    ∧ win3_1.index t (1 : Fin 2) = win3_2.index t (1 : Fin 2)
    ∧ win3_2.index t (0 : Fin 2) ≤ 9
    ∧ win3_2.index t (1 : Fin 2) = 0 :=
  (by decide +kernel : ∀ t : Fin grid3.N, _)

/-- Every one of the ten row blocks is some point's. -/
theorem idx_onto : ∀ q : Fin 10, ∃ t : Fin cfg3.N, win3_2.index t = ![q.val, 0] :=
  (by decide +kernel : ∀ q : Fin 10, ∃ t : Fin grid3.N, win3_2.index t = ![q.val, 0])

/-- What point `t` writes back is block `t` of relu (aggregated + root term) of the arrays as the call finds them. -/
theorem flushed_eq (t : Fin cfg3.N) :
    (dat3 V c).flushed 2 t
      = ((cfg3.win 2).blk t).view.read (Elt Ideal) (relu0 (F := Ideal) (addf (V c main_v47) (V c main_v40_1))) := by
  show (cfg3.win 2).cut (grid3.coords t) ((dat3 V c).after 2 t) = _
  rw [after3_2]
  unfold out3_2
  rw [View.canon_unit_zero origin]
  simp only [View.ld_unit_zero (S := S20000x32) origin]
  rw [pay_eq]
  obtain ⟨e0, e1, e2, e3, e4, e5⟩ := idx_facts t
  funext j
  show FloatOps.maximumf (F := Ideal) (φ := .f32) (FloatOps.addf (F := Ideal) (φ := .f32) (V c main_v47 (((cfg3.win 0).blk t).view.emb j)) (V c main_v40_1 (((cfg3.win 1).blk t).view.emb j))) (Scalar.ofBits (F := Ideal) .f32 0x00000000#32)
    = FloatOps.maximumf (F := Ideal) (φ := .f32) (FloatOps.addf (F := Ideal) (φ := .f32) (V c main_v47 (((cfg3.win 2).blk t).view.emb j)) (V c main_v40_1 (((cfg3.win 2).blk t).view.emb j))) (Scalar.ofBits (F := Ideal) .f32 0x00000000#32)
  have h0 : ((cfg3.win 0).blk t).view.emb j = ((cfg3.win 2).blk t).view.emb j := by
    funext a; apply Fin.ext
    match a with
    | ⟨0, _⟩ => show win3_0.index t (0 : Fin 2) * 20000 + 1 * (j 0).val = win3_2.index t (0 : Fin 2) * 20000 + 1 * (j 0).val; omega
    | ⟨1, _⟩ => show win3_0.index t (1 : Fin 2) * 32 + 1 * (j 1).val = win3_2.index t (1 : Fin 2) * 32 + 1 * (j 1).val; omega
  have h1 : ((cfg3.win 1).blk t).view.emb j = ((cfg3.win 2).blk t).view.emb j := by
    funext a; apply Fin.ext
    match a with
    | ⟨0, _⟩ => show win3_1.index t (0 : Fin 2) * 20000 + 1 * (j 0).val = win3_2.index t (0 : Fin 2) * 20000 + 1 * (j 0).val; omega
    | ⟨1, _⟩ => show win3_1.index t (1 : Fin 2) * 32 + 1 * (j 1).val = win3_2.index t (1 : Fin 2) * 32 + 1 * (j 1).val; omega
  rw [h0, h1]

/-- An index of the array is in point `t`'s block iff each coordinate is in the block's range on its axis. -/
theorem mem_blk (t : Fin cfg3.N) (i : S200000x32.Idx) :
    i ∈ ((cfg3.win 2).blk t).view.set
      ↔ ∀ a : Fin 2, win3_2.index t a * S20000x32.size a ≤ (i a).val ∧ (i a).val < win3_2.index t a * S20000x32.size a + S20000x32.size a := by
  show i ∈ ((View.whole main_v48).slice (win3_2.rect t)).set ↔ _
  rw [View.set_slice_whole, Rect.mem_set_unit]
  exact Iff.rfl

/-- The ten blocks of 20000 rows cover the array: row `r` lies in the block of point `r / 20000`. -/
theorem cover (i : S200000x32.Idx) :
    ∃ t : Fin cfg3.N, (cfg3.win 2).flush t = true ∧ i ∈ ((cfg3.win 2).blk t).view.set := by
  have hi0 : (i 0).val < 200000 := (i 0).isLt
  have hi1 : (i 1).val < 32 := (i 1).isLt
  obtain ⟨t, ht⟩ := idx_onto ⟨(i 0).val / 20000, by omega⟩
  have q0 : win3_2.index t (0 : Fin 2) = (i 0).val / 20000 := congrFun ht 0
  have q1 : win3_2.index t (1 : Fin 2) = 0 := congrFun ht 1
  refine ⟨t, flush3_2 t, ?_⟩
  rw [mem_blk]
  intro a
  match a with
  | ⟨0, _⟩ => show win3_2.index t (0 : Fin 2) * 20000 ≤ (i 0).val ∧ (i 0).val < win3_2.index t (0 : Fin 2) * 20000 + 20000; omega
  | ⟨1, _⟩ => show win3_2.index t (1 : Fin 2) * 32 ≤ (i 1).val ∧ (i 1).val < win3_2.index t (1 : Fin 2) * 32 + 32; omega

/-- The output: relu (aggregated + root term), entry by entry. -/
theorem out : (dat3 V c).arrAt 2 cfg3.N = relu0 (F := Ideal) (addf (V c main_v47) (V c main_v40_1)) := by
  exact (dat3 V c).arrAt_eq_of_cover 2 (relu0 (F := Ideal) (addf (V c main_v47) (V c main_v40_1)))
    (fun t _ => flushed_eq V c t) cover

end Cert.Arma.Comb3

end
-- ==== Proof.Comb5.lean ====
/-
  Call 5 of the kernel program (the layer's epilogue, tiled over the nodes in blocks of 20000 rows): whatever the
  arrays hold when the call is entered (`V`), its output array ends at relu of the sum of its two input arrays, entry
  by entry.
-/
import proofs.«414211_j44186623541334_1_alg».proof.Proof.Gen.KernelIdeal.Frame
import proofs.«414211_j44186623541334_1_alg».proof.Proof.Gen.ReferenceIdeal
import proofs.«414211_j44186623541334_1_alg».proof.Proof.Model
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

set_option maxRecDepth 16384

noncomputable section

open Idealize.ShloMosaic Idealize.ShloMosaic.TcCoe Idealize.SL.Sem
open Idealize.ShloMosaic.Pipeline (Dat Cfg Window)
open Cert.KernelIdeal Cert.KernelIdeal.Gen

namespace Cert.Arma.Comb5

open Cert.Arma

variable (V : (c : Dev nD) → (b : Ref sig .tc) → Buf (Elt Ideal) ((c : Thread nD τ).loc b)) (c : Dev nD)

/-- The one store of the body starts at the origin of its block. -/
theorem origin : (![0, 0] : Fin 2 → Nat) = fun _ => 0 := funext fun a => by fin_cases a <;> rfl

/-- The body's payload: relu of the sum of its two loaded blocks (the two shape casts are identities). -/
theorem pay_eq (x0 x1 : FVec Ideal S20000x32 .f32) :
    k5_pay1 (F := Ideal) x0 x1 = maximumf (F := Ideal) (addf (F := Ideal) x0 x1) (broadcast S20000x32 (Scalar.ofBits (F := Ideal) .f32 0x00000000#32)) := by
  show maximumf (F := Ideal) (addf (F := Ideal) (shapeCast S20000x32 x0 shapeCasts_S20000x32_S20000x32) (shapeCast S20000x32 x1 shapeCasts_S20000x32_S20000x32))
      (broadcast S20000x32 (Scalar.ofBits (F := Ideal) .f32 0x00000000#32)) = _
  rw [shapeCast_self, shapeCast_self]

/-- The index maps over the grid: all three windows sit at block (t, 0), and there are ten row blocks. -/
theorem idx_facts : ∀ t : Fin cfg5.N, win5_0.index t (0 : Fin 2) = win5_2.index t (0 : Fin 2)
    ∧ win5_0.index t (1 : Fin 2) = win5_2.index t (1 : Fin 2)
    ∧ win5_1.index t (0 : Fin 2) = win5_2.index t (0 : Fin 2)
    ∧ win5_1.index t (1 : Fin 2) = win5_2.index t (1 : Fin 2)
    ∧ win5_2.index t (0 : Fin 2) ≤ 9
    ∧ win5_2.index t (1 : Fin 2) = 0 :=
  (by decide +kernel : ∀ t : Fin grid5.N, _)

/-- Every one of the ten row blocks is some point's. -/
theorem idx_onto : ∀ q : Fin 10, ∃ t : Fin cfg5.N, win5_2.index t = ![q.val, 0] :=
  (by decide +kernel : ∀ q : Fin 10, ∃ t : Fin grid5.N, win5_2.index t = ![q.val, 0])

/-- What point `t` writes back is block `t` of relu (aggregated + root term) of the arrays as the call finds them. -/
theorem flushed_eq (t : Fin cfg5.N) :
    (dat5 V c).flushed 2 t
      = ((cfg5.win 2).blk t).view.read (Elt Ideal) (relu0 (F := Ideal) (addf (V c main_v57) (V c main_v50_1))) := by
  show (cfg5.win 2).cut (grid5.coords t) ((dat5 V c).after 2 t) = _
  rw [after5_2]
  unfold out5_2
  rw [View.canon_unit_zero origin]
  simp only [View.ld_unit_zero (S := S20000x32) origin]
  rw [pay_eq]
  obtain ⟨e0, e1, e2, e3, e4, e5⟩ := idx_facts t
  funext j
  show FloatOps.maximumf (F := Ideal) (φ := .f32) (FloatOps.addf (F := Ideal) (φ := .f32) (V c main_v57 (((cfg5.win 0).blk t).view.emb j)) (V c main_v50_1 (((cfg5.win 1).blk t).view.emb j))) (Scalar.ofBits (F := Ideal) .f32 0x00000000#32)
    = FloatOps.maximumf (F := Ideal) (φ := .f32) (FloatOps.addf (F := Ideal) (φ := .f32) (V c main_v57 (((cfg5.win 2).blk t).view.emb j)) (V c main_v50_1 (((cfg5.win 2).blk t).view.emb j))) (Scalar.ofBits (F := Ideal) .f32 0x00000000#32)
  have h0 : ((cfg5.win 0).blk t).view.emb j = ((cfg5.win 2).blk t).view.emb j := by
    funext a; apply Fin.ext
    match a with
    | ⟨0, _⟩ => show win5_0.index t (0 : Fin 2) * 20000 + 1 * (j 0).val = win5_2.index t (0 : Fin 2) * 20000 + 1 * (j 0).val; omega
    | ⟨1, _⟩ => show win5_0.index t (1 : Fin 2) * 32 + 1 * (j 1).val = win5_2.index t (1 : Fin 2) * 32 + 1 * (j 1).val; omega
  have h1 : ((cfg5.win 1).blk t).view.emb j = ((cfg5.win 2).blk t).view.emb j := by
    funext a; apply Fin.ext
    match a with
    | ⟨0, _⟩ => show win5_1.index t (0 : Fin 2) * 20000 + 1 * (j 0).val = win5_2.index t (0 : Fin 2) * 20000 + 1 * (j 0).val; omega
    | ⟨1, _⟩ => show win5_1.index t (1 : Fin 2) * 32 + 1 * (j 1).val = win5_2.index t (1 : Fin 2) * 32 + 1 * (j 1).val; omega
  rw [h0, h1]

/-- An index of the array is in point `t`'s block iff each coordinate is in the block's range on its axis. -/
theorem mem_blk (t : Fin cfg5.N) (i : S200000x32.Idx) :
    i ∈ ((cfg5.win 2).blk t).view.set
      ↔ ∀ a : Fin 2, win5_2.index t a * S20000x32.size a ≤ (i a).val ∧ (i a).val < win5_2.index t a * S20000x32.size a + S20000x32.size a := by
  show i ∈ ((View.whole main_v58).slice (win5_2.rect t)).set ↔ _
  rw [View.set_slice_whole, Rect.mem_set_unit]
  exact Iff.rfl

/-- The ten blocks of 20000 rows cover the array: row `r` lies in the block of point `r / 20000`. -/
theorem cover (i : S200000x32.Idx) :
    ∃ t : Fin cfg5.N, (cfg5.win 2).flush t = true ∧ i ∈ ((cfg5.win 2).blk t).view.set := by
  have hi0 : (i 0).val < 200000 := (i 0).isLt
  have hi1 : (i 1).val < 32 := (i 1).isLt
  obtain ⟨t, ht⟩ := idx_onto ⟨(i 0).val / 20000, by omega⟩
  have q0 : win5_2.index t (0 : Fin 2) = (i 0).val / 20000 := congrFun ht 0
  have q1 : win5_2.index t (1 : Fin 2) = 0 := congrFun ht 1
  refine ⟨t, flush5_2 t, ?_⟩
  rw [mem_blk]
  intro a
  match a with
  | ⟨0, _⟩ => show win5_2.index t (0 : Fin 2) * 20000 ≤ (i 0).val ∧ (i 0).val < win5_2.index t (0 : Fin 2) * 20000 + 20000; omega
  | ⟨1, _⟩ => show win5_2.index t (1 : Fin 2) * 32 ≤ (i 1).val ∧ (i 1).val < win5_2.index t (1 : Fin 2) * 32 + 32; omega

/-- The output: relu (aggregated + root term), entry by entry. -/
theorem out : (dat5 V c).arrAt 2 cfg5.N = relu0 (F := Ideal) (addf (V c main_v57) (V c main_v50_1)) := by
  exact (dat5 V c).arrAt_eq_of_cover 2 (relu0 (F := Ideal) (addf (V c main_v57) (V c main_v50_1)))
    (fun t _ => flushed_eq V c t) cover

end Cert.Arma.Comb5

end
-- ==== Proof.Pool6.lean ====
/-
  Call 6 of the kernel program (one block: the whole [4000, 32] table of per-graph sums): whatever the arrays hold when
  the call is entered (`V`), its output array ends at the pooled head of them: sums over the counts floored at one, the
  dense map to one output, the bias, the logistic.
-/
import proofs.«414211_j44186623541334_1_alg».proof.Proof.Gen.KernelIdeal.Frame
import proofs.«414211_j44186623541334_1_alg».proof.Proof.Gen.ReferenceIdeal
import proofs.«414211_j44186623541334_1_alg».proof.Proof.Model
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

set_option maxRecDepth 16384

noncomputable section

open Idealize.ShloMosaic Idealize.ShloMosaic.TcCoe Idealize.SL.Sem
open Idealize.ShloMosaic.Pipeline (Dat Cfg Window)
open Cert.KernelIdeal Cert.KernelIdeal.Gen

namespace Cert.Arma.Pool6

open Cert.Arma

variable (V : (c : Dev nD) → (b : Ref sig .tc) → Buf (Elt Ideal) ((c : Thread nD τ).loc b)) (c : Dev nD)

/-- Every load and the one store of the body start at the origin of their blocks. -/
theorem origin : (![0, 0] : Fin 2 → Nat) = fun _ => 0 := funext fun a => by fin_cases a <;> rfl

/-- The bit pattern of one. -/
theorem one_bits : Ideal.ofBits .f32 0x3F800000#32 = 1 := by
  simp [Ideal.ofBits, Ideal.ieee, -EReal.coe_mul]; norm_num

/-! ## The payload is the pooled head of its four loaded blocks -/

/-- The kernel's logistic is the host's expansion `1 / (1 + exp (-z))` of it. -/
theorem logistic_host (z : FVec Ideal S4000x1 .f32) : logistic (F := Ideal) z = logisticHost (F := Ideal) z := by
  funext i
  show Ideal.logistic (z i) = Ideal.div (Ideal.ofBits .f32 0x3F800000#32) (Ideal.ofBits .f32 0x3F800000#32 + Ideal.exp (-(z i)))
  rw [one_bits]
  rfl

/-- The kernel's product accumulated into the zero column is the host's product: the same sum over the 32 features. -/
theorem dot_host (a : FVec Ideal S4000x32 .f32) (dw : FVec Ideal S32x1 .f32) :
    matmul Cert.KernelIdeal.dot_S4000x32_S32x1_S4000x1_1_0_0_1_n_n none a dw (constant S4000x1 .f32 0x00000000#32)
      = Host.dotGeneral Cert.ReferenceIdeal.dot_S4000x32_S32x1_S4000x1_1_0_0_1_n_n none a dw := by
  funext j
  show FloatOps.matmul Cert.KernelIdeal.dot_S4000x32_S32x1_S4000x1_1_0_0_1_n_n none a dw (constant S4000x1 .f32 0x00000000#32) j
    = FloatOps.dotGeneral Cert.ReferenceIdeal.dot_S4000x32_S32x1_S4000x1_1_0_0_1_n_n none _ a dw j
  rw [Ideal.matmul_constant_zero_apply, Ideal.dotGeneral_apply]
  rfl

/-- The count column floored at one, laid along the 32 features: the kernel's broadcast over the trailing axes and the
    host's broadcast in dimensions (0, 1) both read entry (row, 0), and the two columns of ones are the same scalar. -/
theorem floor_host (cnt : FVec Ideal S4000x1 .f32) (h' : S4000x1.BroadcastsInDim S4000x32 ![0, 1])
    (h0 : (⟨0, ![]⟩ : Shape).BroadcastsInDim S4000x1 ![]) :
    broadcastTo S4000x32 (maximumf (F := Ideal) cnt (broadcast S4000x1 (Scalar.ofBits (F := Ideal) .f32 0x3F800000#32))) broadcasts_S4000x1_S4000x32
      = broadcastInDim S4000x32 ![0, 1] h'
          (maximumf (F := Ideal) cnt (broadcastInDim S4000x1 ![] h0 (constant (F := Ideal) (⟨0, ![]⟩ : Shape) .f32 0x3F800000#32))) := by
  funext i
  refine (broadcastTo_apply _ broadcasts_S4000x1_S4000x32 i (ValueIdx.ix2 (⟨(i 0).val, (i 0).isLt⟩ : Fin 4000) (0 : Fin 1)) (fun a => ?_)).trans
    (Eq.trans ?_ (broadcastInDim_apply ![0, 1] h' _ i (ValueIdx.ix2 (⟨(i 0).val, (i 0).isLt⟩ : Fin 4000) (0 : Fin 1)) (fun a => ?_)).symm)
  · match a with
    | ⟨0, _⟩ => rfl
    | ⟨1, _⟩ => rfl
  · rfl
  · match a with
    | ⟨0, _⟩ => rfl
    | ⟨1, _⟩ => rfl

/-- The [1, 1] bias laid along the 4000 graphs: both broadcasts read entry (0, 0). -/
theorem bias_host (db : FVec Ideal S1x1 .f32) (h' : S1x1.BroadcastsInDim S4000x1 ![0, 1]) :
    broadcastTo S4000x1 db broadcasts_S1x1_S4000x1 = broadcastInDim S4000x1 ![0, 1] h' db := by
  funext i
  refine (broadcastTo_apply db broadcasts_S1x1_S4000x1 i (ValueIdx.ix2 (0 : Fin 1) (0 : Fin 1)) (fun a => ?_)).trans
    (broadcastInDim_apply ![0, 1] h' db i (ValueIdx.ix2 (0 : Fin 1) (0 : Fin 1)) (fun a => ?_)).symm
  · match a with
    | ⟨0, _⟩ => rfl
    | ⟨1, _⟩ => rfl
  · match a with
    | ⟨0, _⟩ => rfl
    | ⟨1, _⟩ => rfl

/-- The body's payload, its identity shape casts removed. -/
theorem pay_plain (cnt : FVec Ideal S4000x1 .f32) (sums : FVec Ideal S4000x32 .f32) (dw : FVec Ideal S32x1 .f32) (db : FVec Ideal S1x1 .f32) :
    k6_pay1 (F := Ideal) cnt sums dw db
      = logistic (F := Ideal) (addf (F := Ideal)
          (matmul Cert.KernelIdeal.dot_S4000x32_S32x1_S4000x1_1_0_0_1_n_n none
            (divf (F := Ideal) sums (broadcastTo S4000x32 (maximumf (F := Ideal) cnt (broadcast S4000x1 (Scalar.ofBits (F := Ideal) .f32 0x3F800000#32))) broadcasts_S4000x1_S4000x32))
            dw (constant S4000x1 .f32 0x00000000#32))
          (broadcastTo S4000x1 db broadcasts_S1x1_S4000x1)) := by
  show logistic (F := Ideal) (addf (F := Ideal)
          (matmul Cert.KernelIdeal.dot_S4000x32_S32x1_S4000x1_1_0_0_1_n_n none
            (divf (F := Ideal) (shapeCast S4000x32 sums shapeCasts_S4000x32_S4000x32)
              (broadcastTo S4000x32 (maximumf (F := Ideal) (shapeCast S4000x1 cnt shapeCasts_S4000x1_S4000x1) (broadcast S4000x1 (Scalar.ofBits (F := Ideal) .f32 0x3F800000#32))) broadcasts_S4000x1_S4000x32))
            dw (constant S4000x1 .f32 0x00000000#32))
          (broadcastTo S4000x1 (shapeCast S1x1 db shapeCasts_S1x1_S1x1) broadcasts_S1x1_S4000x1)) = _
  rw [shapeCast_self, shapeCast_self, shapeCast_self]

/-- The body's payload is the pooled head of the blocks it loads. -/
theorem pay_eq (cnt : FVec Ideal S4000x1 .f32) (sums : FVec Ideal S4000x32 .f32) (dw : FVec Ideal S32x1 .f32) (db : FVec Ideal S1x1 .f32) :
    k6_pay1 (F := Ideal) cnt sums dw db = poolHead (F := Ideal) sums cnt dw db := by
  rw [pay_plain]
  unfold poolHead
  refine (logistic_host _).trans (congrArg (logisticHost (F := Ideal)) ?_)
  refine congrArg₂ (addf (F := Ideal)) ((dot_host _ dw).trans ?_) (bias_host db _)
  exact congrArg (fun a => Host.dotGeneral Cert.ReferenceIdeal.dot_S4000x32_S32x1_S4000x1_1_0_0_1_n_n none a dw)
    (congrArg (divf (F := Ideal) sums) (floor_host cnt _ _))

/-! ## From the one block to the array -/

/-- The index maps over the one-point grid: every window sits at block (0, 0). -/
theorem idx_facts : ∀ t : Fin cfg6.N,
    win6_0.index t (0 : Fin 2) = 0 ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0 :=
  (by decide +kernel : ∀ t : Fin grid6.N, _)

/-- Window 0's block is its whole array, the [4000, 32] per-graph sums. -/
theorem blk0 (t : Fin cfg6.N) : iblk6 V c 0 t = V c main_v62 := by
  obtain ⟨e0, e1, -⟩ := idx_facts t
  funext y
  show V c main_v62 (((cfg6.win 0).blk t).view.emb y) = V c main_v62 y
  refine congrArg (V c main_v62) (funext fun a => Fin.ext ?_)
  match a with
  | ⟨0, _⟩ => show win6_0.index t (0 : Fin 2) * 4000 + 1 * (y 0).val = (y 0).val; omega
  | ⟨1, _⟩ => show win6_0.index t (1 : Fin 2) * 32 + 1 * (y 1).val = (y 1).val; omega

/-- Window 1's block is its whole array, the [4000, 1] column of node counts. -/
theorem blk1 (t : Fin cfg6.N) : iblk6 V c 1 t = V c main_v66 := by
  obtain ⟨-, -, e0, e1, -⟩ := idx_facts t
  funext y
  show V c main_v66 (((cfg6.win 1).blk t).view.emb y) = V c main_v66 y
  refine congrArg (V c main_v66) (funext fun a => Fin.ext ?_)
  match a with
  | ⟨0, _⟩ => show win6_1.index t (0 : Fin 2) * 4000 + 1 * (y 0).val = (y 0).val; omega
  | ⟨1, _⟩ => show win6_1.index t (1 : Fin 2) * 1 + 1 * (y 1).val = (y 1).val; omega

/-- Window 2's block is its whole array, the [32, 1] weight column. -/
theorem blk2 (t : Fin cfg6.N) : iblk6 V c 2 t = V c main_arg12 := by
  obtain ⟨-, -, -, -, e0, e1, -⟩ := idx_facts t
  funext y
  show V c main_arg12 (((cfg6.win 2).blk t).view.emb y) = V c main_arg12 y
  refine congrArg (V c main_arg12) (funext fun a => Fin.ext ?_)
  match a with
  | ⟨0, _⟩ => show win6_2.index t (0 : Fin 2) * 32 + 1 * (y 0).val = (y 0).val; omega
  | ⟨1, _⟩ => show win6_2.index t (1 : Fin 2) * 1 + 1 * (y 1).val = (y 1).val; omega

/-- Window 3's block is its whole array, the [1, 1] bias. -/
theorem blk3 (t : Fin cfg6.N) : iblk6 V c 3 t = V c main_v67 := by
  obtain ⟨-, -, -, -, -, -, e0, e1, -⟩ := idx_facts t
  funext y
  show V c main_v67 (((cfg6.win 3).blk t).view.emb y) = V c main_v67 y
  refine congrArg (V c main_v67) (funext fun a => Fin.ext ?_)
  match a with
  | ⟨0, _⟩ => show win6_3.index t (0 : Fin 2) * 1 + 1 * (y 0).val = (y 0).val; omega
  | ⟨1, _⟩ => show win6_3.index t (1 : Fin 2) * 1 + 1 * (y 1).val = (y 1).val; omega

/-- What the one point writes back is its block of the pooled head of the arrays as the call finds them. -/
theorem flushed_eq (t : Fin cfg6.N) :
    (dat6 V c).flushed 4 t
      = ((cfg6.win 4).blk t).view.read (Elt Ideal) (poolHead (F := Ideal) (V c main_v62) (V c main_v66) (V c main_arg12) (V c main_v67)) := by
  show (cfg6.win 4).cut (grid6.coords t) ((dat6 V c).after 4 t) = _
  rw [after6_4]
  unfold out6_4
  rw [View.canon_unit_zero origin]
  simp only [View.ld_unit_zero (S := S4000x1) origin, View.ld_unit_zero (S := S4000x32) origin,
    View.ld_unit_zero (S := S32x1) origin, View.ld_unit_zero (S := S1x1) origin]
  rw [blk0 V c t, blk1 V c t, blk2 V c t, blk3 V c t, pay_eq]
  obtain ⟨-, -, -, -, -, -, -, -, e0, e1⟩ := idx_facts t
  funext j
  show poolHead (F := Ideal) (V c main_v62) (V c main_v66) (V c main_arg12) (V c main_v67) j
    = poolHead (F := Ideal) (V c main_v62) (V c main_v66) (V c main_arg12) (V c main_v67) (((cfg6.win 4).blk t).view.emb j)
  refine congrArg _ (funext fun a => Fin.ext ?_)
  match a with
  | ⟨0, _⟩ => show (j 0).val = win6_4.index t (0 : Fin 2) * 4000 + 1 * (j 0).val; omega
  | ⟨1, _⟩ => show (j 1).val = win6_4.index t (1 : Fin 2) * 1 + 1 * (j 1).val; omega

/-- An index of the array is in point `t`'s block iff each coordinate is in the block's range on its axis. -/
theorem mem_blk (t : Fin cfg6.N) (i : S4000x1.Idx) :
    i ∈ ((cfg6.win 4).blk t).view.set
      ↔ ∀ a : Fin 2, win6_4.index t a * S4000x1.size a ≤ (i a).val ∧ (i a).val < win6_4.index t a * S4000x1.size a + S4000x1.size a := by
  show i ∈ ((View.whole main_v68).slice (win6_4.rect t)).set ↔ _
  rw [View.set_slice_whole, Rect.mem_set_unit]
  exact Iff.rfl

/-- The one block is the whole [4000, 1] array, so it covers it. -/
theorem cover (i : S4000x1.Idx) :
    ∃ t : Fin cfg6.N, (cfg6.win 4).flush t = true ∧ i ∈ ((cfg6.win 4).blk t).view.set := by
  have hi0 : (i 0).val < 4000 := (i 0).isLt
  have hi1 : (i 1).val < 1 := (i 1).isLt
  obtain ⟨-, -, -, -, -, -, -, -, e0, e1⟩ := idx_facts t6_0
  refine ⟨t6_0, flush6_4 t6_0, ?_⟩
  rw [mem_blk]
  intro a
  match a with
  | ⟨0, _⟩ => show win6_4.index t6_0 (0 : Fin 2) * 4000 ≤ (i 0).val ∧ (i 0).val < win6_4.index t6_0 (0 : Fin 2) * 4000 + 4000; omega
  | ⟨1, _⟩ => show win6_4.index t6_0 (1 : Fin 2) * 1 ≤ (i 1).val ∧ (i 1).val < win6_4.index t6_0 (1 : Fin 2) * 1 + 1; omega

/-- The output: the pooled head of the sums, the count column, the weight column and the bias. -/
theorem out : (dat6 V c).arrAt 4 cfg6.N = poolHead (F := Ideal) (V c main_v62) (V c main_v66) (V c main_arg12) (V c main_v67) := by
  exact (dat6 V c).arrAt_eq_of_cover 4 (poolHead (F := Ideal) (V c main_v62) (V c main_v66) (V c main_arg12) (V c main_v67))
    (fun t _ => flushed_eq V c t) cover

end Cert.Arma.Pool6

end
-- ==== Proof.RowOk.lean ====
/-
  The one thing the proof uses of the precondition: every edge's SOURCE index is a node index.
-/
import proofs.«414211_j44186623541334_1_alg».proof.Proof.Model

namespace Cert.Arma

open Idealize.ShloMosaic

variable [Cert.ReferenceIdeal.Facts]

/-- Every edge's source is a node index: `0 ≤ row e < 200000`, as signed 32-bit words. -/
def RowOk (ei : IVec Cert.ReferenceIdeal.S2x3200000 32) : Prop :=
  ∀ e : Cert.ReferenceIdeal.S3200000.Idx, IntOp.cmpi .sge (rowOf ei e) 0#32 = 1#1 ∧ IntOp.cmpi .slt (rowOf ei e) 200000#32 = 1#1

end Cert.Arma
-- ==== Proof.Take.lean ====
/-
  jnp.take against plain indexing. The kernel program takes rows with jnp.take, whose default mode answers the float
  pattern 0x7FC00000 where the (wrapped) index falls outside [0, 199999]; the reference indexes `h[row]`, which clamps.
  Where every source index is a node index the range test is true at every edge, the fill is never selected, and the
  two read the same rows: the kernel's aggregation stretch is the model's `aggOf`.
-/
import proofs.«414211_j44186623541334_1_alg».proof.Proof.Gen.KernelIdeal
import proofs.«414211_j44186623541334_1_alg».proof.Proof.Gen.ReferenceIdeal
import proofs.«414211_j44186623541334_1_alg».proof.Proof.Model
import proofs.«414211_j44186623541334_1_alg».proof.Proof.KDefs
import proofs.«414211_j44186623541334_1_alg».proof.Proof.RowOk
import Idealize.ShloMosaic.Lib.Pipeline.Value
import Idealize.ShloMosaic.Lib.ValueIdx
import Idealize.ShloMosaic.Lib.ValueLayout
import Idealize.ShloMosaic.Lib.StableHlo.Predicate
import Idealize.ShloMosaic.PureOps.Reduce
import Idealize.ShloMosaic.PureOps.Ideal
import Idealize.ShloMosaic.PureOps.Ideal.Laws

set_option maxRecDepth 16384

noncomputable section

open Idealize.ShloMosaic

namespace Cert.Arma.Take

open Cert.Arma

open ValueIdx StableHlo.Predicate

/-- A left fold by `and` over one-bit words that are all 1, started at 1, is 1. -/
theorem foldl_andi_ones {ι : Type} (x : ι → BitVec 1) (hx : ∀ i, x i = 1#1) (l : List ι) :
    l.foldl (fun r i => IntOp.andi r (x i)) 1#1 = 1#1 := by
  induction l with
  | nil => rfl
  | cons a l ih =>
    rw [List.foldl_cons, hx a, show IntOp.andi 1#1 1#1 = 1#1 from by decide]
    exact ih

/-- A word that is non-negative and below 200000 as a signed integer: jnp's wrap keeps it, and the range test
    `0 ≤ · ≤ 199999` answers 1. -/
theorem word_inRange (w : BitVec 32) (h0 : IntOp.cmpi .sge w 0#32 = 1#1) (h1 : IntOp.cmpi .slt w 200000#32 = 1#1) :
    IntOp.andi (IntOp.cmpi .sge (Scalar.select (IntOp.cmpi .slt w 0#32) (IntOp.addi w 200000#32) w) 0#32)
      (IntOp.cmpi .sle (Scalar.select (IntOp.cmpi .slt w 0#32) (IntOp.addi w 200000#32) w) 199999#32) = 1#1 := by
  have z0 : (0#32 : BitVec 32).toInt = 0 := toInt_ofNat_small 0 (by norm_num)
  have z1 : (200000#32 : BitVec 32).toInt = 200000 := toInt_ofNat_small 200000 (by norm_num)
  have z2 : (199999#32 : BitVec 32).toInt = 199999 := toInt_ofNat_small 199999 (by norm_num)
  have a0 : (0 : Int) ≤ w.toInt := by
    have := (ofBool_eq_one_iff _).1 h0
    simp only [BitVec.sle, z0, decide_eq_true_eq] at this
    exact this
  have a1 : w.toInt < 200000 := by
    have := (ofBool_eq_one_iff _).1 h1
    simp only [BitVec.slt, z1, decide_eq_true_eq] at this
    exact this
  have hneg : IntOp.cmpi .slt w 0#32 = 0#1 := by
    have : w.slt 0#32 = false := by
      simp only [BitVec.slt, z0, decide_eq_false_iff_not]; omega
    show BitVec.ofBool (w.slt 0#32) = 0#1
    rw [this]; rfl
  have hle : IntOp.cmpi .sle w 199999#32 = 1#1 := by
    have : w.sle 199999#32 = true := by
      simp only [BitVec.sle, z2, decide_eq_true_eq]; omega
    show BitVec.ofBool (w.sle 199999#32) = 1#1
    rw [this]; rfl
  rw [hneg, select_zero, h0, hle]
  decide

/-- The wrapped source indices as an [edges, 1] column read, at (edge, 0), the wrap of the edge's word. -/
theorem idxCol_apply (r : IVec ⟨1, ![3200000]⟩ 32) (e : Fin 3200000) (u : Fin 1) :
    K.idxCol r (ix2 e u)
      = Scalar.select (IntOp.cmpi .slt (r (ix1 e)) 0#32) (IntOp.addi (r (ix1 e)) 200000#32) (r (ix1 e)) := by
  unfold K.idxCol
  refine (broadcastInDim_apply (s := ⟨1, ![3200000]⟩) (t := ⟨2, ![3200000, 1]⟩) ![0] _ (K.wrapK r) (ix2 e u) (ix1 e) (fun a => ?_)).trans ?_
  · match a with
    | ⟨0, _⟩ => rfl
  · rfl

/-- Where every word is a node index, the range test of jnp.take answers 1 at every edge. -/
theorem inRange_ones (r : IVec ⟨1, ![3200000]⟩ 32)
    (hr : ∀ e, IntOp.cmpi .sge (r e) 0#32 = 1#1 ∧ IntOp.cmpi .slt (r e) 200000#32 = 1#1) :
    K.inRange r = fun _ => 1#1 := by
  funext e
  unfold K.inRange
  rw [Host.reduce_eq_foldl]
  refine foldl_andi_ones _ (fun k => ?_) _
  obtain ⟨q, u, rfl⟩ : ∃ (q : Fin 3200000) (u : Fin 1), k = ix2 q u := ⟨k 0, k 1, eq_ix2 k⟩
  show IntOp.andi (IntOp.cmpi .sge (K.idxCol r (ix2 q u)) 0#32) (IntOp.cmpi .sle (K.idxCol r (ix2 q u)) 199999#32) = 1#1
  rw [idxCol_apply r q u]
  exact word_inRange (r (ix1 q)) (hr (ix1 q)).1 (hr (ix1 q)).2

/-- With every source index in range jnp.take never selects its fill: the taken rows are the gathered rows. -/
theorem takeRows_eq (ei : IVec Cert.ReferenceIdeal.S2x3200000 32) (h : RowOk ei) (t : FVec Ideal Cert.ReferenceIdeal.S200000x32 .f32) :
    K.takeRows (F := Ideal) (rowOf ei) t = gatherRows (F := Ideal) ei t := by
  unfold K.takeRows
  rw [inRange_ones (rowOf ei) h]
  funext i
  rw [select_apply]
  show Scalar.select 1#1 _ _ = _
  rw [select_one]
  -- the same gather of the same wrapped indices, spelt with each program's own shape facts
  rfl

/-- With every source index in range, the kernel program's take-weigh-scatter stretch is the model's normalised
    adjacency applied to the table. -/
theorem aggTake_eq (ei : IVec Cert.ReferenceIdeal.S2x3200000 32) (h : RowOk ei) (t : FVec Ideal Cert.ReferenceIdeal.S200000x32 .f32) :
    K.aggTake (F := Ideal) (rowOf ei) (colOf ei) (normOf (F := Ideal) ei) t = aggOf (F := Ideal) ei t := by
  unfold K.aggTake aggOf scatterRows normRows
  rw [takeRows_eq ei h t]
  -- the same scatter-add of the same weighted rows, spelt with each program's own shape facts
  rfl

end Cert.Arma.Take

end
-- ==== Proof.Algebra.lean ====
/-
  The layer and the head as the kernel's calls compute them against the model's spelling.
  * A layer: the kernel adds the bias to the root term first, `A t + (h V + b)`, and applies relu once; the model has
    `(A t + h V) + b` under relu twice. Addition of extended reals is associative and commutative (no cancellation is
    used, so no finiteness), relu is idempotent, and the bias as a reshaped [1, 32] row broadcast along the nodes is the
    bias broadcast in two steps.
  * The head: the node counts floored at one and then laid as a column, or laid as a column and then floored, are the
    same column; the [1] bias reshaped to [1, 1] is the bias broadcast to [1, 1]; the per-graph sums and counts are the
    same scatter-adds.
-/
import proofs.«414211_j44186623541334_1_alg».proof.Proof.Gen.KernelIdeal
import proofs.«414211_j44186623541334_1_alg».proof.Proof.Gen.ReferenceIdeal
import proofs.«414211_j44186623541334_1_alg».proof.Proof.Model
import proofs.«414211_j44186623541334_1_alg».proof.Proof.KDefs
import proofs.«414211_j44186623541334_1_alg».proof.Proof.RowOk
import Idealize.ShloMosaic.Lib.Pipeline.Value
import Idealize.ShloMosaic.Lib.ValueIdx
import Idealize.ShloMosaic.Lib.ValueLayout
import Idealize.ShloMosaic.Lib.StableHlo.Predicate
import Idealize.ShloMosaic.PureOps.Reduce
import Idealize.ShloMosaic.PureOps.Ideal
import Idealize.ShloMosaic.PureOps.Ideal.Laws

set_option maxRecDepth 16384

noncomputable section

open Idealize.ShloMosaic

namespace Cert.Arma.Algebra

open Cert.Arma

open ValueIdx

/-! ## The bias, read at a node and a feature -/

/-- A [1, 32] row laid along the nodes reads, at (node, feature), the row at the feature. -/
theorem rows_of_row_apply (hb : (⟨2, ![1, 32]⟩ : Shape).BroadcastsInDim ⟨2, ![200000, 32]⟩ ![0, 1])
    (r : (⟨2, ![1, 32]⟩ : Shape).Idx → EReal) (p : Fin 200000) (c : Fin 32) :
    broadcastInDim ⟨2, ![200000, 32]⟩ ![0, 1] hb r (ix2 p c) = r (ix2 (0 : Fin 1) c) := by
  refine broadcastInDim_apply (s := ⟨2, ![1, 32]⟩) (t := ⟨2, ![200000, 32]⟩) ![0, 1] hb r (ix2 p c) (ix2 (0 : Fin 1) c) (fun a => ?_)
  match a with
  | ⟨0, _⟩ => rfl
  | ⟨1, _⟩ => rfl

/-- A [32] vector broadcast to a [1, 32] row reads, at (0, feature), the vector at the feature. -/
theorem row_of_vec_apply (hb : (⟨1, ![32]⟩ : Shape).BroadcastsInDim ⟨2, ![1, 32]⟩ ![1])
    (b : (⟨1, ![32]⟩ : Shape).Idx → EReal) (u : Fin 1) (c : Fin 32) :
    broadcastInDim ⟨2, ![1, 32]⟩ ![1] hb b (ix2 u c) = b (ix1 c) := by
  refine broadcastInDim_apply (s := ⟨1, ![32]⟩) (t := ⟨2, ![1, 32]⟩) ![1] hb b (ix2 u c) (ix1 c) (fun a => ?_)
  match a with
  | ⟨0, _⟩ => rfl

/-- A [32] vector reshaped to a [1, 32] row and laid along the nodes reads, at (node, feature), the vector at the feature. -/
theorem rowVec_rows_apply (hb : (⟨2, ![1, 32]⟩ : Shape).BroadcastsInDim ⟨2, ![200000, 32]⟩ ![0, 1])
    (b : FVec Ideal ⟨1, ![32]⟩ .f32) (p : Fin 200000) (c : Fin 32) :
    broadcastInDim ⟨2, ![200000, 32]⟩ ![0, 1] hb (K.rowVec (F := Ideal) b) (ix2 p c) = b (ix1 c) := by
  rw [rows_of_row_apply hb _ p c]
  unfold K.rowVec
  exact shapeCast_a_1a_apply b _ 0 c

/-- The model's bias, broadcast to a [1, 32] row and then along the nodes, reads the same entry. -/
theorem biasRows_apply (b : FVec Ideal ⟨1, ![32]⟩ .f32) (p : Fin 200000) (c : Fin 32) :
    biasRows (F := Ideal) b (ix2 p c) = b (ix1 c) := by
  unfold biasRows
  rw [rows_of_row_apply _ _ p c]
  exact row_of_vec_apply _ b 0 c

/-! ## A layer: the bias added to the root term first, relu once, against the sum then the bias, relu twice -/

/-- On extended reals: `max (a + (x + b)) z = max (max ((a + x) + b) z) z`. Addition is associative, and taking the
    maximum with `z` a second time changes nothing. -/
theorem relu_add_assoc (a x b z : EReal) : max (a + (x + b)) z = max (max ((a + x) + b) z) z := by
  rw [max_assoc, max_self, add_assoc]

/-- The layer identity over any aggregated table `A` and any root table `X`. -/
theorem layer_eq (hb : (⟨2, ![1, 32]⟩ : Shape).BroadcastsInDim ⟨2, ![200000, 32]⟩ ![0, 1])
    (A X : FVec Ideal ⟨2, ![200000, 32]⟩ .f32) (b : FVec Ideal ⟨1, ![32]⟩ .f32) :
    maximumf (addf A (addf X (broadcastInDim ⟨2, ![200000, 32]⟩ ![0, 1] hb (K.rowVec (F := Ideal) b)))) (zeroRows (F := Ideal))
      = maximumf (maximumf (addf (addf A X) (biasRows (F := Ideal) b)) (zeroRows (F := Ideal))) (zeroRows (F := Ideal)) := by
  funext i
  obtain ⟨p, c, rfl⟩ : ∃ (p : Fin 200000) (c : Fin 32), i = ix2 p c := ⟨i 0, i 1, eq_ix2 i⟩
  show max (A (ix2 p c) + (X (ix2 p c) + broadcastInDim ⟨2, ![200000, 32]⟩ ![0, 1] hb (K.rowVec (F := Ideal) b) (ix2 p c))) (zeroRows (F := Ideal) (ix2 p c))
    = max (max ((A (ix2 p c) + X (ix2 p c)) + biasRows (F := Ideal) b (ix2 p c)) (zeroRows (F := Ideal) (ix2 p c))) (zeroRows (F := Ideal) (ix2 p c))
  rw [rowVec_rows_apply hb b p c, biasRows_apply b p c]
  exact relu_add_assoc _ _ _ _

/-- The first layer as the kernel's two calls leave it. -/
theorem layer8_eq (ei : IVec Cert.ReferenceIdeal.S2x3200000 32) (x : FVec Ideal Cert.ReferenceIdeal.S200000x8 .f32)
    (w v : FVec Ideal Cert.ReferenceIdeal.S8x32 .f32) (b : FVec Ideal Cert.ReferenceIdeal.S32 .f32) :
    relu0 (F := Ideal) (addf (aggOf ei (dense8 x w)) (addBiasRow (dense8 x v) (K.rowVec (F := Ideal) b))) = layerOf8 ei x w v b := by
  unfold layerOf8 relu0 addBiasRow dense8
  exact layer_eq _ _ _ b

/-- A later layer as the kernel's two calls leave it. -/
theorem layer32_eq (ei : IVec Cert.ReferenceIdeal.S2x3200000 32) (h : FVec Ideal Cert.ReferenceIdeal.S200000x32 .f32)
    (w v : FVec Ideal Cert.ReferenceIdeal.S32x32 .f32) (b : FVec Ideal Cert.ReferenceIdeal.S32 .f32) :
    relu0 (F := Ideal) (addf (aggOf ei (dense32 h w)) (addBiasRow (dense32 h v) (K.rowVec (F := Ideal) b))) = layerOf32 ei h w v b := by
  unfold layerOf32 relu0 addBiasRow dense32
  exact layer_eq _ _ _ b

/-! ## The head: the counts as a column, and the one-entry bias -/

/-- A [4000] vector reshaped to a [4000, 1] column reads, at (graph, 0), the vector at the graph. -/
theorem colVec_apply (x : FVec Ideal ⟨1, ![4000]⟩ .f32) (p : Fin 4000) (u : Fin 1) :
    K.colVec (F := Ideal) x (ix2 p u) = x (ix1 p) := by
  unfold K.colVec
  refine shapeCast_apply (s := ⟨1, ![4000]⟩) (t := ⟨2, ![4000, 1]⟩) x _ (ix2 p u) (ix1 p) ?_
  have hu : u.val = 0 := by omega
  rw [Shape.rowMajor_val_two, Shape.rowMajor_val_one]
  show p.val = p.val * 1 + u.val
  rw [hu, Nat.mul_one, Nat.add_zero]

/-- Flooring the counts at a constant and then laying them as a column, or laying them as a column and then flooring:
    the same column. -/
theorem floorCol_eq (hb0 : (⟨0, ![]⟩ : Shape).BroadcastsInDim ⟨2, ![4000, 1]⟩ ![])
    (hb1 : (⟨0, ![]⟩ : Shape).BroadcastsInDim ⟨1, ![4000]⟩ ![])
    (hb : (⟨1, ![4000]⟩ : Shape).BroadcastsInDim ⟨2, ![4000, 1]⟩ ![0])
    (x : FVec Ideal ⟨1, ![4000]⟩ .f32) (k : BitVec 32) :
    maximumf (K.colVec (F := Ideal) x) (broadcastInDim ⟨2, ![4000, 1]⟩ ![] hb0 (constant (F := Ideal) ⟨0, ![]⟩ .f32 k))
      = broadcastInDim ⟨2, ![4000, 1]⟩ ![0] hb (maximumf x (broadcastInDim ⟨1, ![4000]⟩ ![] hb1 (constant (F := Ideal) ⟨0, ![]⟩ .f32 k))) := by
  funext j
  obtain ⟨p, u, rfl⟩ : ∃ (p : Fin 4000) (u : Fin 1), j = ix2 p u := ⟨j 0, j 1, eq_ix2 j⟩
  rw [broadcastInDim_apply (s := ⟨1, ![4000]⟩) (t := ⟨2, ![4000, 1]⟩) ![0] hb _ (ix2 p u) (ix1 p) (fun a => by
    match a with
    | ⟨0, _⟩ => rfl)]
  show max (K.colVec (F := Ideal) x (ix2 p u)) (Ideal.ofBits .f32 k) = max (x (ix1 p)) (Ideal.ofBits .f32 k)
  rw [colVec_apply x p u]

/-- A [1] vector reshaped to [1, 1] is that vector broadcast to [1, 1]. -/
theorem oneVec_eq (hb : (⟨1, ![1]⟩ : Shape).BroadcastsInDim ⟨2, ![1, 1]⟩ ![1]) (x : FVec Ideal ⟨1, ![1]⟩ .f32) :
    K.oneVec (F := Ideal) x = broadcastInDim ⟨2, ![1, 1]⟩ ![1] hb x := by
  funext j
  obtain ⟨u, v, rfl⟩ : ∃ (u : Fin 1) (v : Fin 1), j = ix2 u v := ⟨j 0, j 1, eq_ix2 j⟩
  obtain rfl : v = 0 := Subsingleton.elim _ _
  unfold K.oneVec
  rw [broadcastInDim_apply (s := ⟨1, ![1]⟩) (t := ⟨2, ![1, 1]⟩) ![1] hb x (ix2 u (0 : Fin 1)) (ix1 (0 : Fin 1)) (fun a => by
    match a with
    | ⟨0, _⟩ => rfl)]
  exact shapeCast_a_1a_apply x _ u 0

/-- The pooled head as the kernel's last stretch and call leave it. -/
theorem pool_eq (bt : IVec Cert.ReferenceIdeal.S200000 32) (h : FVec Ideal Cert.ReferenceIdeal.S200000x32 .f32)
    (dw : FVec Ideal Cert.ReferenceIdeal.S32x1 .f32) (db : FVec Ideal Cert.ReferenceIdeal.S1 .f32) :
    poolHead (F := Ideal) (K.sumsK (F := Ideal) bt h) (K.colVec (K.cntsK (F := Ideal) bt)) dw (K.oneVec (F := Ideal) db) = poolOf bt h dw db := by
  -- the per-graph sums and counts are the same scatter-adds
  have e1 : K.sumsK (F := Ideal) bt h = sumsOf (F := Ideal) bt h := rfl
  have e2 : K.cntsK (F := Ideal) bt = cntsOf (F := Ideal) bt := rfl
  unfold poolHead poolOf
  rw [e1, e2, floorCol_eq _ _ Cert.ReferenceIdeal.Facts₀.bcast_S4000_S4000x1_0, oneVec_eq Cert.ReferenceIdeal.Facts₀.bcast_S1_S1x1_1]

end Cert.Arma.Algebra

end
-- ==== Proof.PreRange.lean ====
/-
  What the precondition says of the edge list: every edge's SOURCE index is a node index, `0 ≤ row < 200000` as
  signed 32-bit words. The precondition is printed as one conjunction of `jnp.all`s; its last conjunct is the
  `all` of `(row ≥ 0) ∧ (row < 200000)` over the source row of `edge_index`, and a reduce by `and` that is 1 had a 1 at
  every element.
-/
import proofs.«414211_j44186623541334_1_alg».proof.Defs
import proofs.«414211_j44186623541334_1_alg».proof.Proof.Gen.KernelIdeal
import proofs.«414211_j44186623541334_1_alg».proof.Proof.Gen.ReferenceIdeal
import proofs.«414211_j44186623541334_1_alg».proof.Proof.Gen.Pre_finite_inputs
import proofs.«414211_j44186623541334_1_alg».proof.Proof.RowOk
import Idealize.ShloMosaic.Lib.ReduceAll
import Idealize.ShloMosaic.Lib.ValueIdx
import Idealize.ShloMosaic.PureOps.Ideal

set_option maxRecDepth 16384

noncomputable section

namespace Cert.Arma

open Idealize.ShloMosaic Idealize.ShloMosaic.TcCoe Idealize.SL.Sem

instance : Subsingleton Cert.Pre_finite_inputs.S_.Idx := ⟨fun a b => funext fun d => d.elim0⟩

/-- The kernel program's precondition gives the range of the source indices on every device. -/
theorem rowOk_of_pre (m : (ℓ : Loc Cert.KernelIdeal.nD Cert.KernelIdeal.τ Cert.KernelIdeal.sig) → Buf (Elt Ideal) ℓ)
    (h : Cert.Pre_KernelIdeal m) (c : Dev Cert.KernelIdeal.nD) :
    RowOk (m ((c.tc : Thread Cert.KernelIdeal.nD Cert.KernelIdeal.τ).loc Cert.KernelIdeal.main_arg1)) := by
  intro e
  have h0 := congrFun (h c) (fun d => d.elim0)
  unfold Cert.Pre_finite_inputs.fn Cert.Pre_finite_inputs.fn_part1 Cert.Pre_finite_inputs.fn_part2 Cert.Pre_finite_inputs.fn_part3 Cert.Pre_finite_inputs.fn_part4 at h0
  dsimp only at h0
  have h1 := (IntOp.andi_eq_one.1 h0).2
  have h2 := Host.reduce_andi_all _ _ _ _ _ h1 e
  have h3 := IntOp.andi_eq_one.1 h2
  exact ⟨h3.1, h3.2⟩

end Cert.Arma

end
-- ==== Proof.KernelValue.lean ====
/-
  The kernel program's result array as the model of its arguments. Boundary by boundary through the run
  (`Gen.W0 … Gen.W19`): a dense call's two outputs are the dense maps of what it was given (`Lin0`, `Lin2`, `Lin4`), the
  stretch after it aggregates the first output along the edges (`Chain.aggN`; with every source index in range the take
  is the model's gather, `Take.aggTake_eq`), the combining call adds the second output and applies relu (`Comb1`, `Comb3`,
  `Comb5`), which is the model's layer (`Algebra.layer8_eq`, `layer32_eq`); after three layers the last stretch pools
  per graph and the last call is the pooled head (`Pool6`, `Algebra.pool_eq`).
-/
import proofs.«414211_j44186623541334_1_alg».proof.Defs
import proofs.«414211_j44186623541334_1_alg».proof.Proof.Gen.Pre_finite_inputs
import proofs.«414211_j44186623541334_1_alg».proof.Proof.KernelRun
import proofs.«414211_j44186623541334_1_alg».proof.Proof.Chain
import proofs.«414211_j44186623541334_1_alg».proof.Proof.Lin0
import proofs.«414211_j44186623541334_1_alg».proof.Proof.Lin2
import proofs.«414211_j44186623541334_1_alg».proof.Proof.Lin4
import proofs.«414211_j44186623541334_1_alg».proof.Proof.Comb1
import proofs.«414211_j44186623541334_1_alg».proof.Proof.Comb3
import proofs.«414211_j44186623541334_1_alg».proof.Proof.Comb5
import proofs.«414211_j44186623541334_1_alg».proof.Proof.Pool6
import proofs.«414211_j44186623541334_1_alg».proof.Proof.Take
import proofs.«414211_j44186623541334_1_alg».proof.Proof.Algebra
import proofs.«414211_j44186623541334_1_alg».proof.Proof.PreRange

set_option maxRecDepth 16384

noncomputable section

namespace Cert.Arma.KernelValue

open Idealize.ShloMosaic Idealize.ShloMosaic.TcCoe Idealize.SL.Sem
open Cert.KernelIdeal Cert.KernelIdeal.Gen Cert.Arma

variable (m : (ℓ : Loc nD τ sig) → Buf (Elt Ideal) ℓ) (ρ : Dev nD → PrngReg) (c : Dev nD)

/-! ## Layer 1 -/

/-- The layer's first dense output: the node table times the first weight matrix. -/
theorem xw1 : W4 m ρ c (Proc.devRef .tc main_v30_0) = dense8 (F := Ideal) (m ((c : Thread nD τ).loc main_arg0)) (m ((c : Thread nD τ).loc main_arg3)) :=
  (W4_arr m ρ c 4).trans ((Lin0.out_w (V3 m ρ) c).trans (by
    show dense8 (F := Ideal) (W3 m ρ c (Proc.devRef .tc main_arg0)) (W3 m ρ c (Proc.devRef .tc main_arg3)) = _
    rw [Chain.in0_x m ρ c, Chain.in0_w m ρ c]))

/-- The layer's second dense output: the node table times the second weight matrix, plus the bias row. -/
theorem xvb1 : W4 m ρ c (Proc.devRef .tc main_v30_1) = addBiasRow (F := Ideal) (dense8 (m ((c : Thread nD τ).loc main_arg0)) (m ((c : Thread nD τ).loc main_arg4))) (K.rowVec (m ((c : Thread nD τ).loc main_arg5))) :=
  (W4_arr m ρ c 5).trans ((Lin0.out_vb (V3 m ρ) c).trans (by
    show addBiasRow (F := Ideal) (dense8 (W3 m ρ c (Proc.devRef .tc main_arg0)) (W3 m ρ c (Proc.devRef .tc main_arg4))) (W3 m ρ c (Proc.devRef .tc main_v29)) = _
    rw [Chain.in0_x m ρ c, Chain.in0_v m ρ c, Chain.in0_b m ρ c]))

/-- The layer's output: relu of the aggregated first output plus the second — the model's layer. -/
theorem h1 (hrow : RowOk (m ((c : Thread nD τ).loc main_arg1))) : W7 m ρ c (Proc.devRef .tc main_v38) = (layerOf8 (F := Ideal) (m ((c : Thread nD τ).loc main_arg1)) (m ((c : Thread nD τ).loc main_arg0)) (m ((c : Thread nD τ).loc main_arg3)) (m ((c : Thread nD τ).loc main_arg4)) (m ((c : Thread nD τ).loc main_arg5))) :=
  (W7_arr m ρ c 2).trans ((Comb1.out (V6 m ρ) c).trans (by
    show relu0 (F := Ideal) (addf (W6 m ρ c (Proc.devRef .tc main_v37)) (W6 m ρ c (Proc.devRef .tc main_v30_1))) = _
    rw [Chain.agg1 m ρ c, Chain.root1 m ρ c, (Chain.inv4 m ρ c).1, (Chain.inv4 m ρ c).2.1, (Chain.inv4 m ρ c).2.2.1,
      xw1 m ρ c, xvb1 m ρ c, Take.aggTake_eq _ hrow]
    exact Algebra.layer8_eq _ _ _ _ _))

/-! ## Layer 2 -/

/-- The layer's first dense output: the node table times the first weight matrix. -/
theorem xw2 (hrow : RowOk (m ((c : Thread nD τ).loc main_arg1))) : W9 m ρ c (Proc.devRef .tc main_v40_0) = dense32 (F := Ideal) (layerOf8 (F := Ideal) (m ((c : Thread nD τ).loc main_arg1)) (m ((c : Thread nD τ).loc main_arg0)) (m ((c : Thread nD τ).loc main_arg3)) (m ((c : Thread nD τ).loc main_arg4)) (m ((c : Thread nD τ).loc main_arg5))) (m ((c : Thread nD τ).loc main_arg6)) :=
  (W9_arr m ρ c 4).trans ((Lin2.out_w (V8 m ρ) c).trans (by
    show dense32 (F := Ideal) (W8 m ρ c (Proc.devRef .tc main_v38)) (W8 m ρ c (Proc.devRef .tc main_arg6)) = _
    rw [Chain.in2_h m ρ c, h1 m ρ c hrow, (Chain.inv8 m ρ c).2.2.2.2.1]))

/-- The layer's second dense output: the node table times the second weight matrix, plus the bias row. -/
theorem xvb2 (hrow : RowOk (m ((c : Thread nD τ).loc main_arg1))) : W9 m ρ c (Proc.devRef .tc main_v40_1) = addBiasRow (F := Ideal) (dense32 (layerOf8 (F := Ideal) (m ((c : Thread nD τ).loc main_arg1)) (m ((c : Thread nD τ).loc main_arg0)) (m ((c : Thread nD τ).loc main_arg3)) (m ((c : Thread nD τ).loc main_arg4)) (m ((c : Thread nD τ).loc main_arg5))) (m ((c : Thread nD τ).loc main_arg7))) (K.rowVec (m ((c : Thread nD τ).loc main_arg8))) :=
  (W9_arr m ρ c 5).trans ((Lin2.out_vb (V8 m ρ) c).trans (by
    show addBiasRow (F := Ideal) (dense32 (W8 m ρ c (Proc.devRef .tc main_v38)) (W8 m ρ c (Proc.devRef .tc main_arg7))) (W8 m ρ c (Proc.devRef .tc main_v39)) = _
    rw [Chain.in2_h m ρ c, h1 m ρ c hrow, (Chain.inv8 m ρ c).2.2.2.2.2.1, Chain.in2_b m ρ c, (Chain.inv7 m ρ c).2.2.2.2.2.2.1]))

/-- The layer's output: relu of the aggregated first output plus the second — the model's layer. -/
theorem h2 (hrow : RowOk (m ((c : Thread nD τ).loc main_arg1))) : W12 m ρ c (Proc.devRef .tc main_v48) = (layerOf32 (F := Ideal) (m ((c : Thread nD τ).loc main_arg1)) (layerOf8 (F := Ideal) (m ((c : Thread nD τ).loc main_arg1)) (m ((c : Thread nD τ).loc main_arg0)) (m ((c : Thread nD τ).loc main_arg3)) (m ((c : Thread nD τ).loc main_arg4)) (m ((c : Thread nD τ).loc main_arg5))) (m ((c : Thread nD τ).loc main_arg6)) (m ((c : Thread nD τ).loc main_arg7)) (m ((c : Thread nD τ).loc main_arg8))) :=
  (W12_arr m ρ c 2).trans ((Comb3.out (V11 m ρ) c).trans (by
    show relu0 (F := Ideal) (addf (W11 m ρ c (Proc.devRef .tc main_v47)) (W11 m ρ c (Proc.devRef .tc main_v40_1))) = _
    rw [Chain.agg2 m ρ c, Chain.root2 m ρ c, (Chain.inv9 m ρ c).1, (Chain.inv9 m ρ c).2.1, (Chain.inv9 m ρ c).2.2.1,
      xw2 m ρ c hrow, xvb2 m ρ c hrow, Take.aggTake_eq _ hrow]
    exact Algebra.layer32_eq _ _ _ _ _))

/-! ## Layer 3 -/

/-- The layer's first dense output: the node table times the first weight matrix. -/
theorem xw3 (hrow : RowOk (m ((c : Thread nD τ).loc main_arg1))) : W14 m ρ c (Proc.devRef .tc main_v50_0) = dense32 (F := Ideal) (layerOf32 (F := Ideal) (m ((c : Thread nD τ).loc main_arg1)) (layerOf8 (F := Ideal) (m ((c : Thread nD τ).loc main_arg1)) (m ((c : Thread nD τ).loc main_arg0)) (m ((c : Thread nD τ).loc main_arg3)) (m ((c : Thread nD τ).loc main_arg4)) (m ((c : Thread nD τ).loc main_arg5))) (m ((c : Thread nD τ).loc main_arg6)) (m ((c : Thread nD τ).loc main_arg7)) (m ((c : Thread nD τ).loc main_arg8))) (m ((c : Thread nD τ).loc main_arg9)) :=
  (W14_arr m ρ c 4).trans ((Lin4.out_w (V13 m ρ) c).trans (by
    show dense32 (F := Ideal) (W13 m ρ c (Proc.devRef .tc main_v48)) (W13 m ρ c (Proc.devRef .tc main_arg9)) = _
    rw [Chain.in4_h m ρ c, h2 m ρ c hrow, (Chain.inv13 m ρ c).2.2.2.2.2.2.2.1]))

/-- The layer's second dense output: the node table times the second weight matrix, plus the bias row. -/
theorem xvb3 (hrow : RowOk (m ((c : Thread nD τ).loc main_arg1))) : W14 m ρ c (Proc.devRef .tc main_v50_1) = addBiasRow (F := Ideal) (dense32 (layerOf32 (F := Ideal) (m ((c : Thread nD τ).loc main_arg1)) (layerOf8 (F := Ideal) (m ((c : Thread nD τ).loc main_arg1)) (m ((c : Thread nD τ).loc main_arg0)) (m ((c : Thread nD τ).loc main_arg3)) (m ((c : Thread nD τ).loc main_arg4)) (m ((c : Thread nD τ).loc main_arg5))) (m ((c : Thread nD τ).loc main_arg6)) (m ((c : Thread nD τ).loc main_arg7)) (m ((c : Thread nD τ).loc main_arg8))) (m ((c : Thread nD τ).loc main_arg10))) (K.rowVec (m ((c : Thread nD τ).loc main_arg11))) :=
  (W14_arr m ρ c 5).trans ((Lin4.out_vb (V13 m ρ) c).trans (by
    show addBiasRow (F := Ideal) (dense32 (W13 m ρ c (Proc.devRef .tc main_v48)) (W13 m ρ c (Proc.devRef .tc main_arg10))) (W13 m ρ c (Proc.devRef .tc main_v49)) = _
    rw [Chain.in4_h m ρ c, h2 m ρ c hrow, (Chain.inv13 m ρ c).2.2.2.2.2.2.2.2.1, Chain.in4_b m ρ c, (Chain.inv12 m ρ c).2.2.2.2.2.2.2.2.2.1]))

/-- The layer's output: relu of the aggregated first output plus the second — the model's layer. -/
theorem h3 (hrow : RowOk (m ((c : Thread nD τ).loc main_arg1))) : W17 m ρ c (Proc.devRef .tc main_v58) = (layerOf32 (F := Ideal) (m ((c : Thread nD τ).loc main_arg1)) (layerOf32 (F := Ideal) (m ((c : Thread nD τ).loc main_arg1)) (layerOf8 (F := Ideal) (m ((c : Thread nD τ).loc main_arg1)) (m ((c : Thread nD τ).loc main_arg0)) (m ((c : Thread nD τ).loc main_arg3)) (m ((c : Thread nD τ).loc main_arg4)) (m ((c : Thread nD τ).loc main_arg5))) (m ((c : Thread nD τ).loc main_arg6)) (m ((c : Thread nD τ).loc main_arg7)) (m ((c : Thread nD τ).loc main_arg8))) (m ((c : Thread nD τ).loc main_arg9)) (m ((c : Thread nD τ).loc main_arg10)) (m ((c : Thread nD τ).loc main_arg11))) :=
  (W17_arr m ρ c 2).trans ((Comb5.out (V16 m ρ) c).trans (by
    show relu0 (F := Ideal) (addf (W16 m ρ c (Proc.devRef .tc main_v57)) (W16 m ρ c (Proc.devRef .tc main_v50_1))) = _
    rw [Chain.agg3 m ρ c, Chain.root3 m ρ c, (Chain.inv14 m ρ c).1, (Chain.inv14 m ρ c).2.1, (Chain.inv14 m ρ c).2.2.1,
      xw3 m ρ c hrow, xvb3 m ρ c hrow, Take.aggTake_eq _ hrow]
    exact Algebra.layer32_eq _ _ _ _ _))

/-! ## The pooled head -/

/-- THE RESULT: with every source index in range, the kernel program's result array is the model of its arguments. -/
theorem result (hrow : RowOk (m ((c : Thread nD τ).loc main_arg1))) :
    W19 m ρ c (Proc.devRef .tc main_v68) = model (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) :=
  (W19_arr m ρ c 4).trans ((Pool6.out (V18 m ρ) c).trans (by
    show poolHead (F := Ideal) (W18 m ρ c (Proc.devRef .tc main_v62)) (W18 m ρ c (Proc.devRef .tc main_v66)) (W18 m ρ c (Proc.devRef .tc main_arg12)) (W18 m ρ c (Proc.devRef .tc main_v67)) = _
    rw [Chain.in6_sums m ρ c, Chain.in6_cnts m ρ c, Chain.in6_dw m ρ c, Chain.in6_db m ρ c, (Chain.inv17 m ρ c).2.2.2.1, (Chain.inv17 m ρ c).2.2.2.2.2.2.2.2.2.2.1, (Chain.inv17 m ρ c).2.2.2.2.2.2.2.2.2.2.2,
      h3 m ρ c hrow]
    exact Algebra.pool_eq _ _ _ _))

/-! ## The run -/

/-- Under the precondition every weakly fair execution of the kernel program terminates with its result at the model
    of its arguments and the arguments unchanged. -/
theorem run (hpre : Cert.Pre_KernelIdeal m) :
    θ_run (defs (F := Ideal)) (onTc (τ := τ) (main (F := Ideal))) ⟨m, fun _ => 0, ρ⟩ (fun r => ∀ c : Dev nD,
      r.2.mem ((c.tc : Thread nD τ).loc main_v68) = model (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run (defs (F := Ideal)) _ _).mono
    (fun r h c => ⟨(h c).1.trans (result m ρ c (rowOk_of_pre m hpre c)), (h c).2⟩)
    (Cert.KernelIdeal.Named.run_named m ρ)

end Cert.Arma.KernelValue

end
-- ==== Proof.RefSide.lean ====
/-
  The reference program's run states the model: its generated run (Proof/RefRun.lean) has the result array at the composed term of its
  host operations over the arguments, and `model` is that term written out piece by piece.
-/
import proofs.«414211_j44186623541334_1_alg».proof.Proof.RefRun
import proofs.«414211_j44186623541334_1_alg».proof.Proof.Model
import Idealize.ShloMosaic.PureOps.Ideal

noncomputable section

namespace Cert.Arma.RefSide

open Idealize.ShloMosaic Idealize.ShloMosaic.TcCoe Idealize.SL.Sem
open Cert.ReferenceIdeal Cert.ReferenceIdeal.Gen Cert.Arma

set_option maxRecDepth 65536 in
/-- The reference's result term is the model of its arguments, for any float family (the definitions unfolded give the
    term itself). -/
theorem res_eq {F : FTy → Type} [FloatOps F] (m' : (ℓ : Loc nD τ sig) → Buf (Elt F) ℓ) (c : Dev nD) :
    Cert.ReferenceIdeal.ValueP.res_out0 (F := F) m' c = model (F := F) (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) (m' ((c.tc : Thread nD τ).loc main_arg10)) (m' ((c.tc : Thread nD τ).loc main_arg11)) (m' ((c.tc : Thread nD τ).loc main_arg12)) (m' ((c.tc : Thread nD τ).loc main_arg13)) := by
  show Cert.ReferenceIdeal.ValueP.res_main_v125 m' c = _
  unfold Cert.ReferenceIdeal.ValueP.res_main_v125 model poolOf logisticHost sumsOf cntsOf layerOf32 layerOf8 relu0 zeroRows biasRows aggOf scatterRows normRows gatherRows normOf dinvOf degOf wrapIdx rowOf colOf
  rfl

variable (m' : (ℓ : Loc nD τ sig) → Buf (Elt Ideal) ℓ) (ρ' : Dev nD → PrngReg)

/-- Every weakly fair execution of the reference program terminates with its result at the model of its arguments and
    the arguments unchanged. -/
theorem run :
    θ_run (defs (F := Ideal)) (onTc (τ := τ) (main (F := Ideal))) ⟨m', fun _ => 0, ρ'⟩ (fun r => ∀ c : Dev nD,
      r.2.mem ((c.tc : Thread nD τ).loc main_v125) = model (F := Ideal) (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) (m' ((c.tc : Thread nD τ).loc main_arg10)) (m' ((c.tc : Thread nD τ).loc main_arg11)) (m' ((c.tc : Thread nD τ).loc main_arg12)) (m' ((c.tc : Thread nD τ).loc main_arg13))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)
      ∧ r.2.mem ((c.tc : Thread nD τ).loc main_arg9) = m' ((c.tc : Thread nD τ).loc main_arg9)
      ∧ r.2.mem ((c.tc : Thread nD τ).loc main_arg10) = m' ((c.tc : Thread nD τ).loc main_arg10)
      ∧ r.2.mem ((c.tc : Thread nD τ).loc main_arg11) = m' ((c.tc : Thread nD τ).loc main_arg11)
      ∧ r.2.mem ((c.tc : Thread nD τ).loc main_arg12) = m' ((c.tc : Thread nD τ).loc main_arg12)
      ∧ r.2.mem ((c.tc : Thread nD τ).loc main_arg13) = m' ((c.tc : Thread nD τ).loc main_arg13)) :=
  (θ_run (defs (F := Ideal)) _ _).mono
    (fun r h c => ⟨(h c).1.trans (res_eq (F := Ideal) m' c), (h c).2⟩)
    (Cert.ReferenceIdeal.ValueP.run (F := Ideal) m' ρ')

end Cert.Arma.RefSide

end
-- ==== Proof.lean ====
/-
  `Cert.Claim` for the three-layer graph network: the Pallas program (dense maps and relu epilogues tiled over the
  nodes, a pooled head) against its jnp reference, over the extended reals.

  Both programs compute `Cert.Arma.model` of their arguments (Proof/Model.lean): per layer
  `relu (A (h W) + h V + b)` with `A` the normalised adjacency of the edge list, then per graph the mean of its nodes'
  rows, a dense map to one output, and the logistic.
  * The reference's generated run states that term outright (Proof/RefSide.lean).
  * The kernel program's result is read off its generated frame (Proof/KernelRun.lean, Proof/KernelValue.lean): the
    seven calls' output arrays as whole-array functions of their inputs (Proof/Lin0 … Pool6), the host stretches between
    them (Proof/Stretch0 … Stretch3, Proof/Chain.lean), and three joins: the kernel adds the bias before the aggregated
    term and applies relu once where the model adds it after and applies relu twice (associativity of + on the extended
    reals, idempotence of relu: Proof/Algebra.lean); and the kernel takes rows with jnp.take, which answers a fill
    pattern for an out-of-range index where the reference's indexing clamps — equal where every source index is a node
    index, which the precondition says (Proof/Take.lean, Proof/PreRange.lean). No law used needs finiteness.
  The three frames are the generated ones (the reference's is its generated run with the result dropped); the
  idealization rewrote nothing, so `preserves` is `True`.
-/
import proofs.«414211_j44186623541334_1_alg».proof.Defs
import proofs.«414211_j44186623541334_1_alg».proof.Proof.Gen.Kernel
import proofs.«414211_j44186623541334_1_alg».proof.Proof.Gen.Kernel.Skeleton
import proofs.«414211_j44186623541334_1_alg».proof.Proof.Gen.Kernel.Launch
import proofs.«414211_j44186623541334_1_alg».proof.Proof.Gen.Kernel.Points
import proofs.«414211_j44186623541334_1_alg».proof.Proof.Gen.Kernel.Frame
import proofs.«414211_j44186623541334_1_alg».proof.Proof.Gen.KernelIdeal
import proofs.«414211_j44186623541334_1_alg».proof.Proof.Gen.KernelIdeal.Skeleton
import proofs.«414211_j44186623541334_1_alg».proof.Proof.Gen.KernelIdeal.Launch
import proofs.«414211_j44186623541334_1_alg».proof.Proof.Gen.KernelIdeal.Points
import proofs.«414211_j44186623541334_1_alg».proof.Proof.Gen.KernelIdeal.Frame
import proofs.«414211_j44186623541334_1_alg».proof.Proof.Gen.ReferenceIdeal
import proofs.«414211_j44186623541334_1_alg».proof.Proof.RefRun
import proofs.«414211_j44186623541334_1_alg».proof.Proof.Gen.Pre_finite_inputs
import proofs.«414211_j44186623541334_1_alg».proof.Proof.KernelValue
import proofs.«414211_j44186623541334_1_alg».proof.Proof.RefSide
import Idealize.ShloMosaic.Adequacy
import Idealize.ShloMosaic.Init

noncomputable section

namespace Cert.Proof

open Idealize.ShloMosaic Idealize.SL.Sem

/-- The printed kernel runs and leaves its arguments alone: the generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments alone: its generated run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- Both idealized programs end at the model of the (agreeing) arguments. -/
theorem algebraic : Cert.algebraic_KernelIdeal_ReferenceIdeal := by
  intro m ρ m' ρ' hpre hagree
  refine ⟨fun c => Cert.Arma.model (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)),
    Cert.Arma.KernelValue.run m ρ hpre, ?_⟩
  refine (θ_run Cert.ReferenceIdeal.defs _ _).mono (fun r h c => ⟨(h c).1.trans ?_, (h c).2⟩) (Cert.Arma.RefSide.run m' ρ')
  obtain ⟨e0, e1, e2, e3, e4, e5, e6, e7, e8, e9, e10, e11, e12, e13⟩ := hagree c
  rw [e0, e1, e2, e3, e4, e5, e6, e7, e8, e9, e10, e11, e12, e13]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
